-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v64)) (v2 : (c : Dev Cert.KernelIdeal.nD) → Buf (Elt Ideal) ((c.tc : Thread Cert.KernelIdeal.nD Cert.KernelIdeal.τ).loc Cert.KernelIdeal.main_v65)) (v3 : (c : Dev Cert.KernelIdeal.nD) → Buf (Elt Ideal) ((c.tc : Thread Cert.KernelIdeal.nD Cert.KernelIdeal.τ).loc Cert.KernelIdeal.main_v66)) (v4 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_v65) = v2 c
          ∧ r.2.mem ((c.tc : Thread Cert.KernelIdeal.nD Cert.KernelIdeal.τ).loc Cert.KernelIdeal.main_v66) = v3 c
          ∧ r.2.mem ((c.tc : Thread Cert.KernelIdeal.nD Cert.KernelIdeal.τ).loc Cert.KernelIdeal.main_v65) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v64) = v3 c
          ∧ r.2.mem ((c.tc : Thread Cert.ReferenceIdeal.nD Cert.ReferenceIdeal.τ).loc Cert.ReferenceIdeal.main_v45) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg1 : IVec S800000 32) (main_v48 : IVec S_ 1) (main_v50 : IVec S800000 1) : IVec S_ 1 :=
  let main_c_19 : IVec S_ 1 := constantI S_ 1 1#1
  let main_v51 : IVec S_ 1 := (fun x v => Host.reduce IntOp.andi x v reducesTo_S800000_S_d0 h_S_) main_v50 main_c_19
  let main_v52 : IVec S_ 1 := andi main_v48 main_v51
  let main_c_20 : IVec S_ 32 := constantI S_ 32 50000#32
  let main_v53 : IVec S800000 32 := broadcastInDim S800000 ![] bcast_S_S800000 main_c_20
  let main_v54 : IVec S800000 1 := cmpi .slt main_arg1 main_v53
  let main_c_21 : IVec S_ 1 := constantI S_ 1 1#1
  let main_v55 : IVec S_ 1 := (fun x v => Host.reduce IntOp.andi x v reducesTo_S800000_S_d0 h_S_) main_v54 main_c_21
  let main_v56 : IVec S_ 1 := andi main_v52 main_v55
  main_v56

def fn_part2 {F : FTy → Type} [FloatOps F] (main_arg1 : IVec S800000 32) (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_c_18 : IVec S_ 32 := constantI S_ 32 0#32
  let main_v49 : IVec S800000 32 := broadcastInDim S800000 ![] bcast_S_S800000 main_c_18
  let main_v50 : IVec S800000 1 := cmpi .sge main_arg1 main_v49
  fn_part3 (F := F) main_arg1 main_v48 main_v50

def fn_part1 {F : FTy → Type} [FloatOps F] (main_arg1 : IVec S800000 32) (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg9 main_arg10 main_arg11 main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_arg7 main_arg8 main_arg9 main_arg10 main_arg11 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S51200 : Shape := ⟨1, ![51200]⟩
abbrev S1 : Shape := ⟨1, ![1]⟩
abbrev S51200x1 : Shape := ⟨2, ![51200, 1]⟩
abbrev S51200x128 : Shape := ⟨2, ![51200, 128]⟩
abbrev S1x128 : Shape := ⟨2, ![1, 128]⟩
abbrev S2048x128 : Shape := ⟨2, ![2048, 128]⟩
abbrev S800000x128 : Shape := ⟨2, ![800000, 128]⟩
abbrev S2048x1 : Shape := ⟨2, ![2048, 1]⟩
abbrev S50000x64 : Shape := ⟨2, ![50000, 64]⟩

abbrev nBuf : Space → Nat
  | .hbm => 102
  | .vmem => 45
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S51200, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S1, .i32⟩
  | .hbm, ⟨28, _⟩ => ⟨S51200, .f32⟩
  | .hbm, ⟨29, _⟩ => ⟨S51200x1, .f32⟩
  | .hbm, ⟨30, _⟩ => ⟨S_, .i32⟩
  | .hbm, ⟨31, _⟩ => ⟨S_, .f32⟩
  | .hbm, ⟨32, _⟩ => ⟨S51200x128, .f32⟩
  | .hbm, ⟨33, _⟩ => ⟨S51200x128, .bf16⟩
  | .hbm, ⟨34, _⟩ => ⟨S128x128, .bf16⟩
  | .hbm, ⟨35, _⟩ => ⟨S128x128, .bf16⟩
  | .hbm, ⟨36, _⟩ => ⟨S1x128, .f32⟩
  | .hbm, ⟨37, _⟩ => ⟨S51200x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .f32⟩
  | .hbm, ⟨48, _⟩ => ⟨S51200x128, .f32⟩
  | .hbm, ⟨49, _⟩ => ⟨S800000x1, .i32⟩
  | .hbm, ⟨50, _⟩ => ⟨S51200x128, .f32⟩
  | .hbm, ⟨51, _⟩ => ⟨S51200x128, .f32⟩
  | .hbm, ⟨52, _⟩ => ⟨S51200x128, .bf16⟩
  | .hbm, ⟨53, _⟩ => ⟨S128x128, .bf16⟩
  | .hbm, ⟨54, _⟩ => ⟨S128x128, .bf16⟩
  | .hbm, ⟨55, _⟩ => ⟨S1x128, .f32⟩
  | .hbm, ⟨56, _⟩ => ⟨S51200x128, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S_, .f32⟩
  | .hbm, ⟨67, _⟩ => ⟨S51200x128, .f32⟩
  | .hbm, ⟨68, _⟩ => ⟨S800000x1, .i32⟩
  | .hbm, ⟨69, _⟩ => ⟨S51200x128, .f32⟩
  | .hbm, ⟨70, _⟩ => ⟨S51200x128, .f32⟩
  | .hbm, ⟨71, _⟩ => ⟨S51200x128, .bf16⟩
  | .hbm, ⟨72, _⟩ => ⟨S_, .i32⟩
  | .hbm, ⟨73, _⟩ => ⟨S_, .f32⟩
  | .hbm, ⟨74, _⟩ => ⟨S128x128, .f32⟩
  | .hbm, ⟨75, _⟩ => ⟨S128x128, .bf16⟩
  | .hbm, ⟨76, _⟩ => ⟨S_, .i32⟩
  | .hbm, ⟨77, _⟩ => ⟨S_, .f32⟩
  | .hbm, ⟨78, _⟩ => ⟨S128x128, .f32⟩
  | .hbm, ⟨79, _⟩ => ⟨S128x128, .bf16⟩
  | .hbm, ⟨80, _⟩ => ⟨S_, .i32⟩
  | .hbm, ⟨81, _⟩ => ⟨S_, .f32⟩
  | .hbm, ⟨82, _⟩ => ⟨S128, .f32⟩
  | .hbm, ⟨83, _⟩ => ⟨S1x128, .f32⟩
  | .hbm, ⟨84, _⟩ => ⟨S51200x128, .f32⟩
  | .hbm, ⟨85, _⟩ => ⟨S_, .i32⟩
  | .hbm, ⟨86, _⟩ => ⟨S800000, .i32⟩
  | .hbm, ⟨87, _⟩ => ⟨S800000, .i1⟩
  | .hbm, ⟨88, _⟩ => ⟨S_, .i32⟩
  | .hbm, ⟨89, _⟩ => ⟨S800000, .i32⟩
  | .hbm, ⟨90, _⟩ => ⟨S800000, .i32⟩
  | .hbm, ⟨91, _⟩ => ⟨S800000, .i32⟩
  | .hbm, ⟨92, _⟩ => ⟨S800000x1, .i32⟩
  | .hbm, ⟨93, _⟩ => ⟨S800000x128, .f32⟩
  | .hbm, ⟨94, _⟩ => ⟨S_, .f32⟩
  | .hbm, ⟨95, _⟩ => ⟨S51200x128, .f32⟩
  | .hbm, ⟨96, _⟩ => ⟨S800000x1, .i32⟩
  | .hbm, ⟨97, _⟩ => ⟨S51200x128, .f32⟩
  | .hbm, ⟨98, _⟩ => ⟨S51200x128, .f32⟩
  | .hbm, ⟨99, _⟩ => ⟨S50000x128, .f32⟩
  | .hbm, ⟨100, _⟩ => ⟨S50000x128, .f32⟩
  | .hbm, ⟨101, _⟩ => ⟨S50000x64, .f32⟩
  | .local _ .vmem, ⟨0, _⟩ => ⟨S2048x128, .bf16⟩
  | .local _ .vmem, ⟨1, _⟩ => ⟨S2048x128, .bf16⟩
  | .local _ .vmem, ⟨2, _⟩ => ⟨S128x128, .bf16⟩
  | .local _ .vmem, ⟨3, _⟩ => ⟨S2048x128, .f32⟩
  | .local _ .vmem, ⟨4, _⟩ => ⟨S2048x128, .f32⟩
  | .local _ .vmem, ⟨5, _⟩ => ⟨S2048x128, .bf16⟩
  | .local _ .vmem, ⟨6, _⟩ => ⟨S2048x128, .bf16⟩
  | .local _ .vmem, ⟨7, _⟩ => ⟨S2048x128, .f32⟩
  | .local _ .vmem, ⟨8, _⟩ => ⟨S2048x128, .f32⟩
  | .local _ .vmem, ⟨9, _⟩ => ⟨S2048x1, .f32⟩
  | .local _ .vmem, ⟨10, _⟩ => ⟨S2048x1, .f32⟩
  | .local _ .vmem, ⟨11, _⟩ => ⟨S128x128, .bf16⟩
  | .local _ .vmem, ⟨12, _⟩ => ⟨S1x128, .f32⟩
  | .local _ .vmem, ⟨13, _⟩ => ⟨S2048x128, .f32⟩
  | .local _ .vmem, ⟨14, _⟩ => ⟨S2048x128, .f32⟩
  | .local _ .vmem, ⟨15, _⟩ => ⟨S2048x128, .bf16⟩
  | .local _ .vmem, ⟨16, _⟩ => ⟨S2048x128, .bf16⟩
  | .local _ .vmem, ⟨17, _⟩ => ⟨S128x128, .bf16⟩
  | .local _ .vmem, ⟨18, _⟩ => ⟨S2048x128, .f32⟩
  | .local _ .vmem, ⟨19, _⟩ => ⟨S2048x128, .f32⟩
  | .local _ .vmem, ⟨20, _⟩ => ⟨S2048x128, .bf16⟩
  | .local _ .vmem, ⟨21, _⟩ => ⟨S2048x128, .bf16⟩
  | .local _ .vmem, ⟨22, _⟩ => ⟨S2048x128, .f32⟩
  | .local _ .vmem, ⟨23, _⟩ => ⟨S2048x128, .f32⟩
  | .local _ .vmem, ⟨24, _⟩ => ⟨S2048x1, .f32⟩
  | .local _ .vmem, ⟨25, _⟩ => ⟨S2048x1, .f32⟩
  | .local _ .vmem, ⟨26, _⟩ => ⟨S128x128, .bf16⟩
  | .local _ .vmem, ⟨27, _⟩ => ⟨S1x128, .f32⟩
  | .local _ .vmem, ⟨28, _⟩ => ⟨S2048x128, .f32⟩
  | .local _ .vmem, ⟨29, _⟩ => ⟨S2048x128, .f32⟩
  | .local _ .vmem, ⟨30, _⟩ => ⟨S2048x128, .bf16⟩
  | .local _ .vmem, ⟨31, _⟩ => ⟨S2048x128, .bf16⟩
  | .local _ .vmem, ⟨32, _⟩ => ⟨S128x128, .bf16⟩
  | .local _ .vmem, ⟨33, _⟩ => ⟨S2048x128, .f32⟩
  | .local _ .vmem, ⟨34, _⟩ => ⟨S2048x128, .f32⟩
  | .local _ .vmem, ⟨35, _⟩ => ⟨S2048x128, .bf16⟩
  | .local _ .vmem, ⟨36, _⟩ => ⟨S2048x128, .bf16⟩
  | .local _ .vmem, ⟨37, _⟩ => ⟨S2048x128, .f32⟩
  | .local _ .vmem, ⟨38, _⟩ => ⟨S2048x128, .f32⟩
  | .local _ .vmem, ⟨39, _⟩ => ⟨S2048x1, .f32⟩
  | .local _ .vmem, ⟨40, _⟩ => ⟨S2048x1, .f32⟩
  | .local _ .vmem, ⟨41, _⟩ => ⟨S128x128, .bf16⟩
  | .local _ .vmem, ⟨42, _⟩ => ⟨S1x128, .f32⟩
  | .local _ .vmem, ⟨43, _⟩ => ⟨S2048x128, .f32⟩
  | .local _ .vmem, ⟨44, _⟩ => ⟨S2048x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_cst_3 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_4 : Ref sig .tc := ⟨.hbm, 30, rfl⟩
abbrev main_call0_v0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_v19 : Ref sig .tc := ⟨.hbm, 40, rfl⟩
abbrev main_c_6 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_8 : Ref sig .tc := ⟨.hbm, 57, rfl⟩
abbrev main_v34 : Ref sig .tc := ⟨.hbm, 58, rfl⟩
abbrev main_v35 : Ref sig .tc := ⟨.hbm, 59, rfl⟩
abbrev main_c_9 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_10 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_11 : Ref sig .tc := ⟨.hbm, 72, rfl⟩
abbrev main_call1_v0 : Ref sig .tc := ⟨.hbm, 73, rfl⟩
abbrev main_v46 : Ref sig .tc := ⟨.hbm, 74, rfl⟩
abbrev main_v47 : Ref sig .tc := ⟨.hbm, 75, rfl⟩
abbrev main_c_12 : Ref sig .tc := ⟨.hbm, 76, rfl⟩
abbrev main_call2_v0 : Ref sig .tc := ⟨.hbm, 77, rfl⟩
abbrev main_v48 : Ref sig .tc := ⟨.hbm, 78, rfl⟩
abbrev main_v49 : Ref sig .tc := ⟨.hbm, 79, rfl⟩
abbrev main_c_13 : Ref sig .tc := ⟨.hbm, 80, rfl⟩
abbrev main_call3_v0 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_c_14 : Ref sig .tc := ⟨.hbm, 85, rfl⟩
abbrev main_v53 : Ref sig .tc := ⟨.hbm, 86, rfl⟩
abbrev main_v54 : Ref sig .tc := ⟨.hbm, 87, rfl⟩
abbrev main_c_15 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_16 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg2_1 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg5_0 : Ref sig .tc := ⟨.vmem, 43, rfl⟩
abbrev cc5_stg5_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem2_1 : DmaSem sig := 40
abbrev cc5_sem3_0 : DmaSem sig := 41
abbrev cc5_sem4_0 : DmaSem sig := 42
abbrev cc5_sem5_0 : DmaSem sig := 43
abbrev cc5_sem5_1 : DmaSem sig := 44

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2048x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2048x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2048x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2048x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S51200 : S_.BroadcastsInDim S51200 (![] : Fin 0 → Fin S51200.rank)
  bcast_S_S1 : S_.BroadcastsInDim S1 (![] : Fin 0 → Fin S1.rank)
  shapeCasts_S51200_S51200x1 : S51200.ShapeCasts S51200x1
  pads_S50000x128_S51200x128_012000_000 : S50000x128.Pads (![0, 0] : Fin 2 → Nat) ![1200, 0] ![0, 0] S51200x128
  h_S_ : 0 < S_.numel
  bitsLt_bf16_f32 : FTy.bits .bf16 < FTy.bits .f32
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S51200x128 : S_.BroadcastsInDim S51200x128 (![] : Fin 0 → Fin S51200x128.rank)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  pads_S128x64_S128x128_000_0640 : S128x64.Pads (![0, 0] : Fin 2 → Nat) ![0, 64] ![0, 0] S128x128
  pads_S64_S128_0640 : S64.Pads (![0] : Fin 1 → Nat) ![64] ![0] S128
  slices_S51200x128_S50000x128_0_0 : S51200x128.Slices ![0, 0] S50000x128
  slices_S51200x128_S50000x64_0_0 : S51200x128.Slices ![0, 0] S50000x64
  scatter_S50000_S800000x1_S800000_n_0_0_1_wf : ScatterDims.WF S50000 S800000x1 S800000 [] [0] [0] 1
  scatter_S51200_S1_S50000_0_n_0_0_wf : ScatterDims.WF S51200 S1 S50000 [0] [] [0] 0
  dot_S2048x128_S128x128_S2048x128_1_0_0_1_n_n_wf : DotDims.WF S2048x128 S128x128 S2048x128 [1] [0] [0] [1] [] []
  gather_S51200x128_S800000x1_S800000x128_1_0_n_n_0_1_1128_wf : GatherDims.WF S51200x128 S800000x1 S800000x128 [1] [0] [] [0] [] 1 ![1, 128]
  scatter_S51200x128_S800000x1_S800000x128_1_0_0_1_wf : ScatterDims.WF S51200x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S51200x128.size a
  hwx0_0 : ∀ i : grid0.Coords, EltTy.bits .bf16 = 32 ∨ (Rect.block (s := S51200x128) S2048x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S51200x128.size a
  hwx0_2 : ∀ i : grid0.Coords, EltTy.bits .f32 = 32 ∨ (Rect.block (s := S51200x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S51200x128.size a
  hwx1_0 : ∀ i : grid1.Coords, EltTy.bits .bf16 = 32 ∨ (Rect.block (s := S51200x128) S2048x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S51200x128.size a
  hwx1_1 : ∀ i : grid1.Coords, EltTy.bits .f32 = 32 ∨ (Rect.block (s := S51200x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S51200x1.size a
  hwx1_2 : ∀ i : grid1.Coords, EltTy.bits .f32 = 32 ∨ (Rect.block (s := S51200x1) S2048x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x128.size a ≤ S51200x128.size a
  hwx1_5 : ∀ i : grid1.Coords, EltTy.bits .f32 = 32 ∨ (Rect.block (s := S51200x128) S2048x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S51200x128.size a
  hwx2_0 : ∀ i : grid2.Coords, EltTy.bits .bf16 = 32 ∨ (Rect.block (s := S51200x128) S2048x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S51200x128.size a
  hwx2_2 : ∀ i : grid2.Coords, EltTy.bits .f32 = 32 ∨ (Rect.block (s := S51200x128) S2048x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S51200x128.size a
  hwx3_0 : ∀ i : grid3.Coords, EltTy.bits .bf16 = 32 ∨ (Rect.block (s := S51200x128) S2048x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S51200x128.size a
  hwx3_1 : ∀ i : grid3.Coords, EltTy.bits .f32 = 32 ∨ (Rect.block (s := S51200x128) S2048x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x1.size a ≤ S51200x1.size a
  hwx3_2 : ∀ i : grid3.Coords, EltTy.bits .f32 = 32 ∨ (Rect.block (s := S51200x1) S2048x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2048x128.size a ≤ S51200x128.size a
  hwx3_5 : ∀ i : grid3.Coords, EltTy.bits .f32 = 32 ∨ (Rect.block (s := S51200x128) S2048x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S51200x128.size a
  hwx4_0 : ∀ i : grid4.Coords, EltTy.bits .bf16 = 32 ∨ (Rect.block (s := S51200x128) S2048x128.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .bf16 = 32 ∨ (Rect.block (s := S128x128) S128x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x128.size a ≤ S51200x128.size a
  hwx4_2 : ∀ i : grid4.Coords, EltTy.bits .f32 = 32 ∨ (Rect.block (s := S51200x128) S2048x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x128.size a ≤ S51200x128.size a
  hwx5_0 : ∀ i : grid5.Coords, EltTy.bits .bf16 = 32 ∨ (Rect.block (s := S51200x128) S2048x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x128.size a ≤ S51200x128.size a
  hwx5_1 : ∀ i : grid5.Coords, EltTy.bits .f32 = 32 ∨ (Rect.block (s := S51200x128) S2048x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x1.size a ≤ S51200x1.size a
  hwx5_2 : ∀ i : grid5.Coords, EltTy.bits .f32 = 32 ∨ (Rect.block (s := S51200x1) S2048x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .bf16 = 32 ∨ (Rect.block (s := S128x128) S128x128.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2048x128.size a ≤ S51200x128.size a
  hwx5_5 : ∀ i : grid5.Coords, EltTy.bits .f32 = 32 ∨ (Rect.block (s := S51200x128) S2048x128.size (cc5_transform_5 i) (hinb5_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S51200_S1_S50000_0_n_0_0 : ScatterDims S51200 S1 S50000 where
  updateWindowDims := [0]
  insertedWindowDims := []
  scatterDimsToOperandDims := [0]
  indexVectorDim := 0
  wf := scatter_S51200_S1_S50000_0_n_0_0_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def gather_S51200x128_S800000x1_S800000x128_1_0_n_n_0_1_1128 : GatherDims S51200x128 S800000x1 S800000x128 where
  offsetDims := [1]
  collapsedSliceDims := [0]
  operandBatchingDims := []
  startIndicesBatchingDims := []
  startIndexMap := [0]
  indexVectorDim := 1
  sliceSizes := ![1, 128]
  wf := gather_S51200x128_S800000x1_S800000x128_1_0_n_n_0_1_1128_wf
def scatter_S51200x128_S800000x1_S800000x128_1_0_0_1 : ScatterDims S51200x128 S800000x1 S800000x128 where
  updateWindowDims := [1]
  insertedWindowDims := [0]
  scatterDimsToOperandDims := [0]
  indexVectorDim := 1
  wf := scatter_S51200x128_S800000x1_S800000x128_1_0_0_1_wf

abbrev win0_0 : Pipeline.Window sig grid0 :=
  Pipeline.Window.ofSpec (Memref.whole main_v13) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S2048x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v29) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S2048x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S2048x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v30) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v32) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v44) S2048x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v45) S2048x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v52) S2048x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v45) S2048x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v62) S2048x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v11) S2048x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v47) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v51) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v63) S2048x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 93
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S50000x1, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x64, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x128, .f32⟩
  | .hbm, ⟨81, _⟩ => ⟨S_, .f32⟩
  | .hbm, ⟨82, _⟩ => ⟨S50000x128, .f32⟩
  | .hbm, ⟨83, _⟩ => ⟨S800000x1, .i32⟩
  | .hbm, ⟨84, _⟩ => ⟨S50000x128, .f32⟩
  | .hbm, ⟨85, _⟩ => ⟨S50000x1, .f32⟩
  | .hbm, ⟨86, _⟩ => ⟨S50000x128, .f32⟩
  | .hbm, ⟨87, _⟩ => ⟨S50000x128, .f32⟩
  | .hbm, ⟨88, _⟩ => ⟨S50000x64, .f32⟩
  | .hbm, ⟨89, _⟩ => ⟨S50000x64, .f32⟩
  | .hbm, ⟨90, _⟩ => ⟨S1x64, .f32⟩
  | .hbm, ⟨91, _⟩ => ⟨S50000x64, .f32⟩
  | .hbm, ⟨92, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call1_cst : Ref sig .tc := ⟨.hbm, 68, rfl⟩
abbrev main_call1_v0 : Ref sig .tc := ⟨.hbm, 69, rfl⟩
abbrev main_v45 : Ref sig .tc := ⟨.hbm, 70, rfl⟩
abbrev main_v46 : Ref sig .tc := ⟨.hbm, 71, rfl⟩
abbrev main_c_7 : Ref sig .tc := ⟨.hbm, 72, rfl⟩
abbrev main_v47 : Ref sig .tc := ⟨.hbm, 73, rfl⟩
abbrev main_v48 : Ref sig .tc := ⟨.hbm, 74, rfl⟩
abbrev main_c_8 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_9 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.SageSpec.lean ====
/-
  The whole-array functions of the network, over the extended reals, on the padded 51200-row arrays the kernel
  works with and on the 50000-row arrays of the reference.

  `linOut a w`     the product a·w of a 51200×128 matrix with a 128×128 matrix.
  `epiOut relu h agg dinv ws b`   one layer's closing step on the padded arrays: agg[r,c]·dinv[r] + (h·ws)[r,c] + b[c],
                   followed by the positive part when `relu` is set.
  `into dst v`     the edges whose destination, read as a signed integer, is node v.
  `degOf dst`      the guarded in-degree max(#into dst v, 1) of node v.
-/
import Idealize.ShloMosaic.Lib.ValueIdx
import Idealize.ShloMosaic.PureOps.Ideal

noncomputable section

namespace Sage

open Idealize.ShloMosaic Idealize.ShloMosaic.ValueIdx

abbrev SP : Shape := ⟨2, ![51200, 128]⟩
abbrev SN : Shape := ⟨2, ![50000, 128]⟩
abbrev SW : Shape := ⟨2, ![128, 128]⟩
abbrev SD : Shape := ⟨2, ![51200, 1]⟩
abbrev SB : Shape := ⟨2, ![1, 128]⟩

/-- The row number of an index of a matrix with R rows, as a number below R. -/
abbrev row {R C : Nat} (i : (⟨2, ![R, C]⟩ : Shape).Idx) : Fin R := ⟨(i 0).val, idx2_lt0 i⟩
/-- The column number of an index of a matrix with C columns, as a number below C. -/
abbrev col {R C : Nat} (i : (⟨2, ![R, C]⟩ : Shape).Idx) : Fin C := ⟨(i 1).val, idx2_lt1 i⟩

theorem row_ix2 {R C : Nat} (p : Fin R) (q : Fin C) : row (ix2 p q) = p := rfl
theorem col_ix2 {R C : Nat} (p : Fin R) (q : Fin C) : col (ix2 p q) = q := rfl

/-- The product of a 51200×128 matrix with a 128×128 matrix. -/
def linOut (a : SP.Idx → EReal) (w : SW.Idx → EReal) : SP.Idx → EReal :=
  fun i => ∑ k : Fin 128, a (ix2 (row i) k) * w (ix2 k (col i))

theorem linOut_apply (a : SP.Idx → EReal) (w : SW.Idx → EReal) (p : Fin 51200) (q : Fin 128) :
    linOut a w (ix2 p q) = ∑ k : Fin 128, a (ix2 p k) * w (ix2 k q) := rfl

/-- A layer's closing step before the activation: the aggregate scaled row by row, plus the node's own image, plus the bias. -/
def epiPre (h agg : SP.Idx → EReal) (dinv : SD.Idx → EReal) (ws : SW.Idx → EReal) (b : SB.Idx → EReal) : SP.Idx → EReal :=
  fun i => (agg i * dinv (ix2 (row i) (0 : Fin 1)) + ∑ k : Fin 128, h (ix2 (row i) k) * ws (ix2 k (col i)))
    + b (ix2 (0 : Fin 1) (col i))

/-- A layer's closing step, with the positive part taken when `relu` is set. -/
def epiOut (relu : Bool) (h agg : SP.Idx → EReal) (dinv : SD.Idx → EReal) (ws : SW.Idx → EReal) (b : SB.Idx → EReal) :
    SP.Idx → EReal :=
  fun i => if relu then max (epiPre h agg dinv ws b i) 0 else epiPre h agg dinv ws b i

theorem epiOut_apply (relu : Bool) (h agg : SP.Idx → EReal) (dinv : SD.Idx → EReal) (ws : SW.Idx → EReal) (b : SB.Idx → EReal)
    (p : Fin 51200) (q : Fin 128) :
    epiOut relu h agg dinv ws b (ix2 p q)
      = if relu then max ((agg (ix2 p q) * dinv (ix2 p (0 : Fin 1)) + ∑ k : Fin 128, h (ix2 p k) * ws (ix2 k q)) + b (ix2 (0 : Fin 1) q)) 0
        else (agg (ix2 p q) * dinv (ix2 p (0 : Fin 1)) + ∑ k : Fin 128, h (ix2 p k) * ws (ix2 k q)) + b (ix2 (0 : Fin 1) q) := rfl

/-! ## The graph: edges into a node, and source rows in range -/

abbrev SE : Shape := ⟨1, ![800000]⟩

/-- The edges whose destination id, read as a signed integer, is node `v`. -/
def into (dst : SE.Idx → BitVec 32) (v : ℕ) : Finset (Fin 800000) :=
  Finset.univ.filter fun e => (dst (ix1 e)).toInt = (v : ℤ)

/-- Every source id names one of the 50000 nodes. -/
def InRange (src : SE.Idx → BitVec 32) : Prop := ∀ e : SE.Idx, 0 ≤ (src e).toInt ∧ (src e).toInt < 50000

/-- Edge `e`'s source node, as a row number of the 50000-row feature matrix. -/
def srcRow (src : SE.Idx → BitVec 32) (h : InRange src) (e : Fin 800000) : Fin 50000 :=
  ⟨(src (ix1 e)).toInt.toNat, by have := h (ix1 e); omega⟩

theorem srcRow_val (src : SE.Idx → BitVec 32) (h : InRange src) (e : Fin 800000) :
    ((srcRow src h e).val : ℤ) = (src (ix1 e)).toInt := by
  have := h (ix1 e); show (((src (ix1 e)).toInt.toNat : ℕ) : ℤ) = _; omega

/-- The same row, among the 51200 rows of a padded matrix. -/
def srcRowP (src : SE.Idx → BitVec 32) (h : InRange src) (e : Fin 800000) : Fin 51200 :=
  ⟨(srcRow src h e).val, by have := (srcRow src h e).isLt; omega⟩

/-- Every entry of an array is a real number. -/
def Finite {S : Shape} (a : S.Idx → EReal) : Prop := ∀ i, ∃ r : ℝ, a i = (r : EReal)

end Sage

end
-- ==== Proof.LibRowOps.lean ====
/-
  Row gathers and row scatter-adds of a matrix, read at an entry.

  `x[idx]` for an N×C matrix x and a column of E row numbers gathers whole rows: entry (e, c) of the result is
  x at row idx[e] (read signed and clamped into [0, N − 1]) and column c. Dually, scatter-adding an E×C matrix
  of updates into an N×C matrix along a column of E row numbers adds update row e into row idx[e] whenever that
  number, read signed, is a row of the matrix, and drops it otherwise: entry (p, q) of the result is the operand's
  entry plus the sum of upd[e, q] over the edges e whose row number is p.
  Both are stated for the dimension-number records with the corresponding axis lists, so that a printed record with
  those lists is an instance by reflexivity.
-/
import Idealize.ShloMosaic.Lib.ValueIdx
import Idealize.ShloMosaic.PureOps.Ideal

noncomputable section

namespace RowOps

open Idealize.ShloMosaic Idealize.ShloMosaic.ValueIdx

private theorem one_ne_zero_fin2 : (1 : Fin 2) ≠ 0 := by decide

/-! ## Gathering rows -/

section Gather
variable {α : Type} {N C E w : Nat}

/-- The dimension numbers of a row gather: operand N×C, start indices E×1, result E×C. -/
abbrev gatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry (e, c) of the gathered matrix is the operand at the clamped row number of edge e and column c. -/
theorem gather_rows_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (gatherDims N C E wf) x idx (ix2 e c)
      = x (ix2 ⟨min (idx (ix2 e ⟨0, Nat.one_pos⟩)).toInt.toNat (N - 1), by omega⟩ c) := by
  unfold Host.gather
  congr 1
  funext a
  refine Fin.ext ?_
  match a with
  | ⟨0, _⟩ =>
    show (gatherDims N C E wf).start (ix2 e c) idx 0 + (gatherDims N C E wf).batchCoord (ix2 e c) 0
      + (gatherDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N C E wf).startIndexMap from List.mem_singleton.mpr rfl)]
    have hsi : (gatherDims N C E wf).siIdx (ix2 e c) ⟨List.idxOf (0 : Fin 2) (gatherDims N C E wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (gatherDims N C E wf).start (ix2 e c) idx 1 + (gatherDims N C E wf).batchCoord (ix2 e c) 1
      + (gatherDims N C E wf).offCoord (ix2 e c) 1 = _
    rw [GatherDims.batchCoord_eq_zero _ _ _ List.not_mem_nil]
    have hs : (gatherDims N C E wf).start (ix2 e c) idx 1 = 0 := by
      unfold GatherDims.start
      rw [dif_neg (show (1 : Fin 2) ∉ (gatherDims N C E wf).startIndexMap from fun h => one_ne_zero_fin2 (List.mem_singleton.mp h))]
    rw [hs]
    simp only [Nat.zero_add, Nat.add_zero]
    unfold GatherDims.offCoord
    rw [dif_pos (show (1 : Fin 2) ∈ (gatherDims N C E wf).sKept from
      (GatherDims.mem_sKept _ _).mpr ⟨fun h => one_ne_zero_fin2 (List.mem_singleton.mp h), List.not_mem_nil⟩)]
    rfl

end Gather

/-! ## Scatter-adding rows -/

section ScatterAdd
variable {N C E w : Nat}

/-- The dimension numbers of a row scatter: operand N×C, scatter indices E×1, updates E×C. -/
abbrev scatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1) (idx : IVec ⟨2, ![E, 1]⟩ w)

/-- On the row axis the window of update (e, c) starts at edge e's row number, read signed. -/
theorem start_row (e : Fin E) (c : Fin C) :
    (scatterDims N C E wf).start (ix2 e c) idx 0 = (idx (ix2 e ⟨0, Nat.one_pos⟩)).toInt := by
  unfold ScatterDims.start
  rw [dif_pos (show (0 : Fin 2) ∈ (scatterDims N C E wf).scatterDimsToOperandDims from List.mem_singleton.mpr rfl)]
  have hsi : (scatterDims N C E wf).siIdx (ix2 e c) ⟨List.idxOf (0 : Fin 2) (scatterDims N C E wf).scatterDimsToOperandDims,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the column axis the window starts at zero. -/
theorem start_col (e : Fin E) (c : Fin C) : (scatterDims N C E wf).start (ix2 e c) idx 1 = 0 := by
  unfold ScatterDims.start
  rw [dif_neg (show (1 : Fin 2) ∉ (scatterDims N C E wf).scatterDimsToOperandDims from
    fun h => one_ne_zero_fin2 (List.mem_singleton.mp h))]

/-- The row axis is inserted: no window coordinate. -/
theorem window_row (e : Fin E) (c : Fin C) : (scatterDims N C E wf).window (ix2 e c) 0 = 0 := by
  unfold ScatterDims.window
  rw [dif_neg (show (0 : Fin 2) ∉ (scatterDims N C E wf).sKept from
    fun h => (List.mem_filter.mp h).2 |> fun h' => by simpa using h')]

/-- The column axis carries the update's column. -/
theorem window_col (e : Fin E) (c : Fin C) : (scatterDims N C E wf).window (ix2 e c) 1 = c.val := by
  unfold ScatterDims.window
  rw [dif_pos (show (1 : Fin 2) ∈ (scatterDims N C E wf).sKept from
    List.mem_filter.mpr ⟨List.mem_finRange _, by simp⟩)]
  rfl

/-- Update (e, c) lands on entry (p, q) exactly when edge e's row number is p and c is q. -/
theorem lands_iff (e : Fin E) (c : Fin C) (p : Fin N) (q : Fin C) :
    (scatterDims N C E wf).resultIdx? (ix2 e c) idx = some (ix2 p q)
      ↔ (idx (ix2 e ⟨0, Nat.one_pos⟩)).toInt = (p.val : ℤ) ∧ c = q := by
  unfold ScatterDims.resultIdx?
  constructor
  · intro h
    split at h
    · rename_i hin
      have h' := Option.some.inj h
      have h0 := congrArg (fun f => (f (0 : Fin 2)).val) h'
      have h1 := congrArg (fun f => (f (1 : Fin 2)).val) h'
      simp only at h0 h1
      have hin0 := hin 0
      rw [start_row wf idx e c, window_row wf e c] at hin0
      have e0 : ((idx (ix2 e ⟨0, Nat.one_pos⟩)).toInt + ((0 : ℕ) : ℤ)).toNat = p.val := by
        have := h0
        rw [start_row wf idx e c, window_row wf e c] at this
        exact this
      have e1 : ((0 : ℤ) + ((c.val : ℕ) : ℤ)).toNat = q.val := by
        have := h1
        rw [start_col wf idx e c, window_col wf e c] at this
        exact this
      refine ⟨by omega, Fin.ext (by omega)⟩
    · exact absurd h (by simp)
  · rintro ⟨hp, rfl⟩
    have hin : ∀ a : Fin 2, 0 ≤ (scatterDims N C E wf).start (ix2 e c) idx a + (scatterDims N C E wf).window (ix2 e c) a
        ∧ (scatterDims N C E wf).start (ix2 e c) idx a + (scatterDims N C E wf).window (ix2 e c) a
          < ((⟨2, ![N, C]⟩ : Shape).size a : ℤ) := by
      intro a
      match a with
      | ⟨0, _⟩ =>
        show 0 ≤ (scatterDims N C E wf).start (ix2 e c) idx 0 + (scatterDims N C E wf).window (ix2 e c) 0
          ∧ (scatterDims N C E wf).start (ix2 e c) idx 0 + (scatterDims N C E wf).window (ix2 e c) 0 < (N : ℤ)
        rw [start_row wf idx e c, window_row wf e c, hp]
        have := p.isLt
        omega
      | ⟨1, _⟩ =>
        show 0 ≤ (scatterDims N C E wf).start (ix2 e c) idx 1 + (scatterDims N C E wf).window (ix2 e c) 1
          ∧ (scatterDims N C E wf).start (ix2 e c) idx 1 + (scatterDims N C E wf).window (ix2 e c) 1 < (C : ℤ)
        rw [start_col wf idx e c, window_col wf e c]
        have := c.isLt
        omega
    rw [dif_pos hin]
    congr 1
    funext a
    refine Fin.ext ?_
    match a with
    | ⟨0, _⟩ =>
      show ((scatterDims N C E wf).start (ix2 e c) idx 0 + (scatterDims N C E wf).window (ix2 e c) 0).toNat = p.val
      rw [start_row wf idx e c, window_row wf e c, hp]
      omega
    | ⟨1, _⟩ =>
      show ((scatterDims N C E wf).start (ix2 e c) idx 1 + (scatterDims N C E wf).window (ix2 e c) 1).toNat = c.val
      rw [start_col wf idx e c, window_col wf e c]
      omega

/-- The edges whose row number, read signed, is row p. -/
def into (p : ℕ) : Finset (Fin E) :=
  Finset.univ.filter fun e => (idx (ix2 e ⟨0, Nat.one_pos⟩)).toInt = (p : ℤ)

/-- Entry (p, q) after the scatter-add: the operand's entry plus the updates of the edges into row p, at column q. -/
theorem scatterAdd_rows_apply (x : (⟨2, ![N, C]⟩ : Shape).Idx → EReal) (upd : (⟨2, ![E, C]⟩ : Shape).Idx → EReal)
    (p : Fin N) (q : Fin C) :
    Ideal.hostScatterAdd (scatterDims N C E wf) x idx upd (ix2 p q)
      = x (ix2 p q) + ∑ e ∈ into idx p.val, upd (ix2 e q) := by
  classical
  unfold Ideal.hostScatterAdd into
  congr 1
  rw [Finset.sum_filter, Finset.sum_filter, sum_idx2]
  refine Finset.sum_congr rfl fun e _ => ?_
  have : ∀ c : Fin C, (if (scatterDims N C E wf).resultIdx? (ix2 e c) idx = some (ix2 p q) then upd (ix2 e c) else 0)
      = if c = q then (if (idx (ix2 e ⟨0, Nat.one_pos⟩)).toInt = (p.val : ℤ) then upd (ix2 e q) else 0) else 0 := by
    intro c
    by_cases hc : c = q
    · subst hc
      rw [if_pos rfl]
      exact if_congr ((lands_iff wf idx e c p c).trans (and_iff_left rfl)) rfl rfl
    · rw [if_neg hc, if_neg]
      exact fun h => hc ((lands_iff wf idx e c p q).mp h).2
  rw [Finset.sum_congr rfl fun c _ => this c, Finset.sum_ite_eq' Finset.univ q, if_pos (Finset.mem_univ q)]

end ScatterAdd

end RowOps

end
-- ==== Proof.LibPlainDot.lean ====
/-
  A plain matrix product read at an index.

  For a contraction of an M×K matrix with a K×N matrix along the shared axis (the left operand's axis 1 against the
  right operand's axis 0, no batch axes), the entry at row r and column c is the sum over k of A[r, k] · B[k, c].
  This holds for the kernel's matrix product into a zero accumulator and for the host's dot product alike, on the
  extended reals, and it is stated for ANY dimension-number record with those axis lists, so that each printed record
  is an instance by reflexivity of its lists.
-/
import Idealize.ShloMosaic.Lib.ValueIdx
import Idealize.ShloMosaic.PureOps.Ideal.Laws

noncomputable section

namespace PlainDot

open Idealize.ShloMosaic Idealize.ShloMosaic.ValueIdx

variable {M K N : Nat} {φ₁ φ₂ : FTy}

/-- The axis lists of a plain product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable (d : DotDims ⟨2, ![M, K]⟩ ⟨2, ![K, N]⟩ ⟨2, ![M, N]⟩) (hd : IsPlain d)

include hd

theorem contr_rank : d.contr.rank = 1 := by rw [d.rank_contr, hd.lc]; rfl

theorem contr_size : d.contr.size ⟨0, by rw [contr_rank d hd]; exact Nat.one_pos⟩ = K := by
  have h := d.size_contr 0 (by rw [hd.lc]; exact Nat.one_pos)
  rw [h]
  simp [hd.lc]

/-- The left operand is read at row `r`, column the contraction coordinate. -/
theorem lhsIdx_eq (r : Fin M) (c : Fin N) (k : Fin K) :
    d.lhsIdx (ix2 r c) ((contrEquiv1 d K (contr_rank d hd) (contr_size d hd)).symm k) = ix2 r k := by
  funext a
  apply Fin.ext
  match a with
  | ⟨0, _⟩ =>
    show (d.lhsIdx (ix2 r c) _ (0 : Fin 2)).val = r.val
    unfold DotDims.lhsIdx
    have hb : (0 : Fin 2) ∉ d.lhsBatch := by rw [hd.lb]; exact List.not_mem_nil
    have hn : (0 : Fin 2) ∈ d.lhsNonContracting := by rw [hd.ln]; exact List.mem_singleton.mpr rfl
    rw [dif_neg hb, dif_pos hn]
    simp only [Fin.val_cast]
    have key : ∀ (p : Nat) (hp : p < 2), p = 0 → ((ix2 r c : (⟨2, ![M, N]⟩ : Shape).Idx) ⟨p, hp⟩).val = r.val :=
      fun p hp h => by subst h; rfl
    exact key _ _ (by simp [hd.lb, hd.ln])
  | ⟨1, _⟩ =>
    show (d.lhsIdx (ix2 r c) _ (1 : Fin 2)).val = k.val
    rw [d.lhsIdx_val_of_single hd.lc]
    exact contrEquiv1_symm_val d K (contr_rank d hd) (contr_size d hd) k

/-- The right operand is read at row the contraction coordinate, column `c`. -/
theorem rhsIdx_eq (r : Fin M) (c : Fin N) (k : Fin K) :
    d.rhsIdx (ix2 r c) ((contrEquiv1 d K (contr_rank d hd) (contr_size d hd)).symm k) = ix2 k c := by
  funext a
  apply Fin.ext
  match a with
  | ⟨0, _⟩ =>
    show (d.rhsIdx (ix2 r c) _ (0 : Fin 2)).val = k.val
    rw [d.rhsIdx_val_of_single hd.rc]
    exact contrEquiv1_symm_val d K (contr_rank d hd) (contr_size d hd) k
  | ⟨1, _⟩ =>
    show (d.rhsIdx (ix2 r c) _ (1 : Fin 2)).val = c.val
    unfold DotDims.rhsIdx
    have hb : (1 : Fin 2) ∉ d.rhsBatch := by rw [hd.rb]; exact List.not_mem_nil
    have hn : (1 : Fin 2) ∈ d.rhsNonContracting := by rw [hd.rn]; exact List.mem_singleton.mpr rfl
    rw [dif_neg hb, dif_pos hn]
    simp only [Fin.val_cast]
    have key : ∀ (p : Nat) (hp : p < 2), p = 1 → ((ix2 r c : (⟨2, ![M, N]⟩ : Shape).Idx) ⟨p, hp⟩).val = c.val :=
      fun p hp h => by subst h; rfl
    exact key _ _ (by simp [hd.lb, hd.ln, hd.rn])

/-- The contraction sum, re-indexed by the shared axis's coordinate. -/
theorem sum_eq (A : (⟨2, ![M, K]⟩ : Shape).Idx → EReal) (B : (⟨2, ![K, N]⟩ : Shape).Idx → EReal) (r : Fin M) (c : Fin N) :
    (∑ q : d.contr.Idx, A (d.lhsIdx (ix2 r c) q) * B (d.rhsIdx (ix2 r c) q)) = ∑ k : Fin K, A (ix2 r k) * B (ix2 k c) := by
  rw [← Equiv.sum_comp (contrEquiv1 d K (contr_rank d hd) (contr_size d hd)).symm]
  exact Finset.sum_congr rfl fun k _ => by rw [lhsIdx_eq d hd r c k, rhsIdx_eq d hd r c k]

/-- The kernel's matrix product into the zero accumulator, at an entry. -/
theorem matmul_zero_apply (prec : Option ContractPrecision) (A : FVec Ideal ⟨2, ![M, K]⟩ φ₁) (B : FVec Ideal ⟨2, ![K, N]⟩ φ₂)
    (r : Fin M) (c : Fin N) :
    FloatOps.matmul d prec A B (constant ⟨2, ![M, N]⟩ .f32 0x00000000#32) (ix2 r c) = ∑ k : Fin K, A (ix2 r k) * B (ix2 k c) := by
  rw [Ideal.matmul_constant_zero_apply]
  exact sum_eq d hd A B r c

/-- The host's dot product, at an entry. -/
theorem dotGeneral_apply (prec : Option ContractPrecision) (sched : HostSchedule) (A : FVec Ideal ⟨2, ![M, K]⟩ φ₁)
    (B : FVec Ideal ⟨2, ![K, N]⟩ φ₂) (r : Fin M) (c : Fin N) :
    FloatOps.dotGeneral d prec sched A B (ix2 r c) = ∑ k : Fin K, A (ix2 r k) * B (ix2 k c) := by
  rw [Ideal.dotGeneral_apply]
  exact sum_eq d hd A B r c

end PlainDot

end
-- ==== Proof.SageAlg.lean ====
/-
  The arithmetic of one mean-aggregation layer, over the reals and read on the extended reals.

  A node v's output at column j is
      Σ_k x[v,k]·Ws[k,j]  +  Σ_k (A[v,k] / d[v])·Wn[k,j]  +  b[j],       A[v,k] = Σ_{e into v} x[src e, k],
  where "e into v" ranges over the edges whose destination is v and d[v] ≠ 0 is the (guarded) in-degree.
  One program divides the aggregated features by d[v] and then applies Wn; the other applies Wn to every
  node first, aggregates the images along the edges and multiplies by the reciprocal 1/d[v]. Over the reals
  the two agree because the linear map commutes with the finite sum over edges and with the scaling; on the
  extended reals the same holds as soon as every entry is a real number, since then every sum and product
  involved is the coercion of the real one.
-/
import Mathlib.Data.EReal.Basic
import Mathlib.Data.EReal.Operations
import Mathlib.Data.EReal.Inv
import Mathlib.Algebra.BigOperators.Ring.Finset
import Mathlib.Algebra.BigOperators.Field
import Mathlib.Tactic.Ring
import Mathlib.Tactic.FieldSimp
import Idealize.ShloMosaic.PureOps.Ideal

noncomputable section

namespace SageAlg

open Idealize.ShloMosaic

/-- A finite sum of real numbers, read on the extended reals, is the coercion of the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

variable {V E K : Type} [Fintype K]

/-- The layer over the reals, in the form that divides the aggregate first. -/
def layerR (x : V → K → ℝ) (ws wn : K → ℝ) (b : ℝ) (d : ℝ) (S : Finset E) (src : E → V) (v : V) : ℝ :=
  (∑ k, x v k * ws k + ∑ k, ((∑ e ∈ S, x (src e) k) / d) * wn k) + b

/-- The form that divides the aggregate by the degree and then contracts with the neighbour weights. -/
theorem divide_then_map (x : V → K → ℝ) (ws wn : K → ℝ) (b d : ℝ) (hd : d ≠ 0) (S : Finset E) (src : E → V) (v : V) :
    ((∑ k, ((x v k : ℝ) : EReal) * ((ws k : ℝ) : EReal)
        + ∑ k, Ideal.div (0 + ∑ e ∈ S, ((x (src e) k : ℝ) : EReal)) ((d : ℝ) : EReal) * ((wn k : ℝ) : EReal))
      + ((b : ℝ) : EReal))
      = ((layerR x ws wn b d S src v : ℝ) : EReal) := by
  simp only [zero_add, coe_sum, Ideal.div_coe hd, ← EReal.coe_mul, ← EReal.coe_add, layerR]
  congr 1
  simp only [mul_one_div]

/-- The form that contracts every node with the neighbour weights, aggregates the images along the edges and
    multiplies by the reciprocal of the degree. -/
theorem map_then_scale (x : V → K → ℝ) (ws wn : K → ℝ) (b d : ℝ) (hd : d ≠ 0) (S : Finset E) (src : E → V) (v : V) :
    (((0 + ∑ e ∈ S, ∑ k, ((x (src e) k : ℝ) : EReal) * ((wn k : ℝ) : EReal)) * Ideal.div 1 ((d : ℝ) : EReal)
        + ∑ k, ((x v k : ℝ) : EReal) * ((ws k : ℝ) : EReal))
      + ((b : ℝ) : EReal))
      = ((layerR x ws wn b d S src v : ℝ) : EReal) := by
  have h1 : (1 : EReal) = ((1 : ℝ) : EReal) := rfl
  simp only [zero_add, coe_sum, h1, Ideal.div_coe hd, ← EReal.coe_mul, ← EReal.coe_add, layerR]
  congr 1
  have key : (∑ e ∈ S, ∑ k, x (src e) k * wn k) * (1 * (1 / d)) = ∑ k, ((∑ e ∈ S, x (src e) k) / d) * wn k := by
    rw [Finset.sum_comm, Finset.sum_mul]
    refine Finset.sum_congr rfl fun k _ => ?_
    rw [← Finset.sum_mul]
    ring
  rw [key]
  ring

/-- The positive part of a real number, read on the extended reals. -/
theorem relu_coe (a : ℝ) : max ((a : ℝ) : EReal) 0 = ((max a 0 : ℝ) : EReal) := by
  rcases le_total a 0 with h | h
  · rw [max_eq_right h, max_eq_right (by exact_mod_cast h)]; rfl
  · rw [max_eq_left h, max_eq_left (by exact_mod_cast h)]

end SageAlg

end
-- ==== Proof.RefLayer.lean ====
/-
  One layer of the reference network as a function of arrays, read at an entry.

  The reference gathers the source rows of the feature matrix along the edges, scatter-adds them into the destination
  rows, divides every row by its guarded in-degree, contracts the result with the neighbour weights, and adds the node's
  own contraction with the self weights and the bias. With every source id a row number of the matrix, entry (v, j) is
      Σ_k x[v,k]·ws[k,j] + Σ_k (Σ_{e into v} x[src e, k] / deg[v])·wn[k,j] + b[j].
-/
import proofs.«411817_j9139690406075_3_alg».proof.Proof.Gen.ReferenceIdeal
import proofs.«411817_j9139690406075_3_alg».proof.Proof.SageSpec
import proofs.«411817_j9139690406075_3_alg».proof.Proof.LibRowOps
import proofs.«411817_j9139690406075_3_alg».proof.Proof.LibPlainDot
import proofs.«411817_j9139690406075_3_alg».proof.Proof.SageAlg
import Idealize.ShloMosaic.Lib.Pipeline.Value
import Idealize.ShloMosaic.Lib.ValueIdx
import Idealize.ShloMosaic.PureOps.Ideal.Laws

noncomputable section

namespace Cert.ReferenceIdeal.RefLayer

open Cert.ReferenceIdeal Cert.ReferenceIdeal.Gen Idealize.ShloMosaic Idealize.ShloMosaic.ValueIdx

/-- The source ids as the gather takes them: a negative id counted from the end of the 50000 rows, as a column. -/
def srcIdx (src : IVec S800000 32) : IVec S800000x1 32 :=
  broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)

/-- The destination ids as a column. -/
def dstIdx (dst : IVec S800000 32) : IVec S800000x1 32 := broadcastInDim S800000x1 ![0] bcast_S800000_S800000x1_0 dst

/-- The guarded in-degree: the number of edges into each node, at least one. -/
def deg (dst : IVec S800000 32) : FVec Ideal S50000 .f32 :=
  maximumf (Host.scatterAdd scatter_S50000_S800000x1_S800000_n_0_0_1 (broadcastInDim S50000 ![] bcast_S_S50000 (constant S_ .f32 0x00000000#32)) (dstIdx dst) (broadcastInDim S800000 ![] bcast_S_S800000 (constant S_ .f32 0x3F800000#32))) (broadcastInDim S50000 ![] bcast_S_S50000 (constant S_ .f32 0x3F800000#32))

/-- The mean of the source rows over the edges into each node. -/
def mean (x : FVec Ideal S50000x128 .f32) (src dst : IVec S800000 32) : FVec Ideal S50000x128 .f32 :=
  Host.divf (Host.scatterAdd scatter_S50000x128_S800000x1_S800000x128_1_0_0_1 (broadcastInDim S50000x128 ![] bcast_S_S50000x128 (constant S_ .f32 0x00000000#32)) (dstIdx dst) (Host.gather gather_S50000x128_S800000x1_S800000x128_1_0_n_n_0_1_1128 x (srcIdx src))) (broadcastInDim S50000x128 ![0, 1] bcast_S50000x1_S50000x128_0_1 (broadcastInDim S50000x1 ![0] bcast_S50000_S50000x1_0 (deg dst)))

/-- A layer with 128 output columns, before the activation. -/
def layer128 (x : FVec Ideal S50000x128 .f32) (src dst : IVec S800000 32) (ws wn : FVec Ideal S128x128 .f32) (b : FVec Ideal S128 .f32) :
    FVec Ideal S50000x128 .f32 :=
  addf (addf (Host.dotGeneral dot_S50000x128_S128x128_S50000x128_1_0_0_1_n_n none x ws) (Host.dotGeneral dot_S50000x128_S128x128_S50000x128_1_0_0_1_n_n none (mean x src dst) wn)) (broadcastInDim S50000x128 ![0, 1] bcast_S1x128_S50000x128_0_1 (broadcastInDim S1x128 ![1] bcast_S128_S1x128_1 b))

/-- The positive part. -/
def relu (y : FVec Ideal S50000x128 .f32) : FVec Ideal S50000x128 .f32 :=
  maximumf y (broadcastInDim S50000x128 ![] bcast_S_S50000x128 (constant S_ .f32 0x00000000#32))

/-- The last layer, with 64 output columns and no activation. -/
def layer64 (x : FVec Ideal S50000x128 .f32) (src dst : IVec S800000 32) (ws wn : FVec Ideal S128x64 .f32) (b : FVec Ideal S64 .f32) :
    FVec Ideal S50000x64 .f32 :=
  addf (addf (Host.dotGeneral dot_S50000x128_S128x64_S50000x64_1_0_0_1_n_n none x ws) (Host.dotGeneral dot_S50000x128_S128x64_S50000x64_1_0_0_1_n_n none (mean x src dst) wn)) (broadcastInDim S50000x64 ![0, 1] bcast_S1x64_S50000x64_0_1 (broadcastInDim S1x64 ![1] bcast_S64_S1x64_1 b))

/-! ## Reading the constants and the index columns -/

/-- The bit pattern 0x3F800000 is the number one. -/
private theorem one_bits : Ideal.ofBits .f32 0x3F800000#32 = 1 := by
  simp [Ideal.ofBits, Ideal.ieee, -EReal.coe_mul]; norm_num

/-- The zero constant spread over any shape is zero at every entry. -/
private theorem zero_spread (t : Shape) (h : S_.BroadcastsInDim t (![] : Fin 0 → Fin t.rank)) (i : t.Idx) :
    broadcastInDim t ![] h (constant (F := Ideal) S_ .f32 0x00000000#32) i = 0 := by
  rw [broadcastInDim_apply _ h _ i ix0 (fun a => a.elim0)]
  exact Ideal.ofBits_zero_f32

/-- The constant one spread over any shape is one at every entry. -/
private theorem one_spread (t : Shape) (h : S_.BroadcastsInDim t (![] : Fin 0 → Fin t.rank)) (i : t.Idx) :
    broadcastInDim t ![] h (constant (F := Ideal) S_ .f32 0x3F800000#32) i = 1 := by
  rw [broadcastInDim_apply _ h _ i ix0 (fun a => a.elim0)]
  exact one_bits

/-- The column of destination ids at edge e is the id of edge e. -/
private theorem dstIdx_apply (dst : IVec S800000 32) (e : Fin 800000) (z : Fin 1) : dstIdx dst (ix2 e z) = dst (ix1 e) := by
  unfold dstIdx
  exact broadcastInDim_apply _ bcast_S800000_S800000x1_0 dst (ix2 e z) (ix1 e) (fun a => match a with
    | ⟨0, _⟩ => by show e.val = if (800000 : Nat) = 1 then 0 else e.val; rw [if_neg (by decide)])

/-- A signed comparison "below zero" of a non-negative word is the bit 0. -/
private theorem slt_zero_of_nonneg (a : BitVec 32) (h : 0 ≤ a.toInt) : IntOp.cmpi .slt a 0#32 = 0#1 := by
  unfold IntOp.cmpi
  have hn : ¬ (a.toInt < (0#32 : BitVec 32).toInt) := by
    have h0 : (0#32 : BitVec 32).toInt = 0 := by decide
    rw [h0]; omega
  simp only [BitVec.slt, decide_eq_false hn]
  rfl

/-- With every source id a row number, the column of source ids at edge e is the id of edge e: no id is counted from the end. -/
private theorem srcIdx_apply (src : IVec S800000 32) (hsrc : Sage.InRange src) (e : Fin 800000) (z : Fin 1) :
    srcIdx src (ix2 e z) = src (ix1 e) := by
  unfold srcIdx
  rw [broadcastInDim_apply _ bcast_S800000_S800000x1_0 _ (ix2 e z) (ix1 e) (fun a => match a with
    | ⟨0, _⟩ => by show e.val = if (800000 : Nat) = 1 then 0 else e.val; rw [if_neg (by decide)])]
  rw [select_apply]
  have hc : cmpi .slt src (broadcastInDim S800000 ![] bcast_S_S800000 (constantI S_ 32 0#32)) (ix1 e) = 0#1 := by
    show IntOp.cmpi .slt (src (ix1 e)) (broadcastInDim S800000 ![] bcast_S_S800000 (constantI S_ 32 0#32) (ix1 e)) = 0#1
    rw [broadcastInDim_apply _ bcast_S_S800000 _ (ix1 e) ix0 (fun a => a.elim0)]
    exact slt_zero_of_nonneg _ (hsrc (ix1 e)).1
  rw [hc, select_zero]

/-- On the extended reals the accumulating scatter is the exact one: each entry plus the sum of the updates landing on it. -/
private theorem scatterAdd_eq {s si u : Shape} {w : Nat} (d : ScatterDims s si u) (x : FVec Ideal s .f32) (idx : IVec si w)
    (upd : FVec Ideal u .f32) : Host.scatterAdd d x idx upd = Ideal.hostScatterAdd d x idx upd := rfl

/-- The number of elements of a finite set, guarded below by one, as the reference computes it: a sum of ones, then the larger of it and one. -/
private theorem max_count_one {ι : Type} (S : Finset ι) :
    max (0 + ∑ _j ∈ S, (1 : EReal)) 1 = ((max (S.card : ℝ) 1 : ℝ) : EReal) := by
  have h : (∑ _j ∈ S, (1 : EReal)) = ((S.card : ℝ) : EReal) := by
    rw [show (1 : EReal) = ((1 : ℝ) : EReal) from rfl, SageAlg.coe_sum]
    simp
  rw [h, zero_add]
  rcases le_total (S.card : ℝ) 1 with hle | hle
  · rw [max_eq_right hle, max_eq_right (by exact_mod_cast hle)]; rfl
  · rw [max_eq_left hle, max_eq_left (by exact_mod_cast hle)]

/-- The guarded in-degree of a node is a real number, at least one. -/
theorem deg_real (dst : IVec S800000 32) (v : Fin 50000) : ∃ r : ℝ, 1 ≤ r ∧ deg dst (ix1 v) = (r : EReal) := by
  unfold deg
  rw [maximumf_apply, one_spread]
  rw [scatterAdd_eq]
  unfold Ideal.hostScatterAdd
  rw [zero_spread, Finset.sum_congr rfl (fun x _ => one_spread S800000 bcast_S_S800000 x)]
  exact ⟨_, le_max_right _ _, max_count_one _⟩

/-- On the extended reals the host's quotient at an entry is the quotient of the entries. -/
private theorem divf_eq {s : Shape} (a b : FVec Ideal s .f32) (i : s.Idx) : Host.divf a b i = Ideal.div (a i) (b i) := rfl

/-- The guarded in-degree spread along the rows of a 50000×128 matrix: entry (v, k) is the degree of node v. -/
private theorem degCol_apply (d : FVec Ideal S50000 .f32) (v : Fin 50000) (k : Fin 128) :
    broadcastInDim S50000x128 ![0, 1] bcast_S50000x1_S50000x128_0_1 (broadcastInDim S50000x1 ![0] bcast_S50000_S50000x1_0 d) (ix2 v k)
      = d (ix1 v) := by
  rw [broadcastInDim_apply _ bcast_S50000x1_S50000x128_0_1 _ (ix2 v k) (ix2 v (0 : Fin 1)) (fun a => match a with
    | ⟨0, _⟩ => by show v.val = if (50000 : Nat) = 1 then 0 else v.val; rw [if_neg (by decide)]
    | ⟨1, _⟩ => by show 0 = if (1 : Nat) = 1 then 0 else k.val; rw [if_pos rfl])]
  exact broadcastInDim_apply _ bcast_S50000_S50000x1_0 d (ix2 v (0 : Fin 1)) (ix1 v) (fun a => match a with
    | ⟨0, _⟩ => by show v.val = if (50000 : Nat) = 1 then 0 else v.val; rw [if_neg (by decide)])

/-- With every source id a row number, the gathered matrix at (e, k) is the feature matrix at edge e's source row and column k. -/
private theorem gathered_apply (x : FVec Ideal S50000x128 .f32) (src : IVec S800000 32) (hsrc : Sage.InRange src) (e : Fin 800000)
    (k : Fin 128) :
    Host.gather gather_S50000x128_S800000x1_S800000x128_1_0_n_n_0_1_1128 x (srcIdx src) (ix2 e k)
      = x (ix2 (Sage.srcRow src hsrc e) k) := by
  rw [show gather_S50000x128_S800000x1_S800000x128_1_0_n_n_0_1_1128
      = RowOps.gatherDims 50000 128 800000 gather_S50000x128_S800000x1_S800000x128_1_0_n_n_0_1_1128_wf from rfl]
  rw [RowOps.gather_rows_apply (by decide)]
  refine congrArg (fun r => x (ix2 r k)) (Fin.ext ?_)
  show min (srcIdx src (ix2 e ⟨0, Nat.one_pos⟩)).toInt.toNat (50000 - 1) = (src (ix1 e)).toInt.toNat
  rw [srcIdx_apply src hsrc]
  have := hsrc (ix1 e)
  omega

/-- The edges into a node, read off the column of destination ids, are the edges into it read off the ids themselves. -/
private theorem into_eq (dst : IVec S800000 32) (p : ℕ) : RowOps.into (dstIdx dst) p = Sage.into dst p := by
  unfold RowOps.into Sage.into
  refine Finset.filter_congr fun e _ => ?_
  rw [dstIdx_apply]

/-- The bias spread over the rows of a 50000×128 matrix: entry (v, j) is the bias of column j. -/
private theorem bias128_apply (b : FVec Ideal S128 .f32) (v : Fin 50000) (j : Fin 128) :
    broadcastInDim S50000x128 ![0, 1] bcast_S1x128_S50000x128_0_1 (broadcastInDim S1x128 ![1] bcast_S128_S1x128_1 b) (ix2 v j)
      = b (ix1 j) := by
  rw [broadcastInDim_apply _ bcast_S1x128_S50000x128_0_1 _ (ix2 v j) (ix2 (0 : Fin 1) j) (fun a => match a with
    | ⟨0, _⟩ => by show 0 = if (1 : Nat) = 1 then 0 else v.val; rw [if_pos rfl]
    | ⟨1, _⟩ => by show j.val = if (128 : Nat) = 1 then 0 else j.val; rw [if_neg (by decide)])]
  exact broadcastInDim_apply _ bcast_S128_S1x128_1 b (ix2 (0 : Fin 1) j) (ix1 j) (fun a => match a with
    | ⟨0, _⟩ => by show j.val = if (128 : Nat) = 1 then 0 else j.val; rw [if_neg (by decide)])

/-- The bias spread over the rows of a 50000×64 matrix: entry (v, j) is the bias of column j. -/
private theorem bias64_apply (b : FVec Ideal S64 .f32) (v : Fin 50000) (j : Fin 64) :
    broadcastInDim S50000x64 ![0, 1] bcast_S1x64_S50000x64_0_1 (broadcastInDim S1x64 ![1] bcast_S64_S1x64_1 b) (ix2 v j)
      = b (ix1 j) := by
  rw [broadcastInDim_apply _ bcast_S1x64_S50000x64_0_1 _ (ix2 v j) (ix2 (0 : Fin 1) j) (fun a => match a with
    | ⟨0, _⟩ => by show 0 = if (1 : Nat) = 1 then 0 else v.val; rw [if_pos rfl]
    | ⟨1, _⟩ => by show j.val = if (64 : Nat) = 1 then 0 else j.val; rw [if_neg (by decide)])]
  exact broadcastInDim_apply _ bcast_S64_S1x64_1 b (ix2 (0 : Fin 1) j) (ix1 j) (fun a => match a with
    | ⟨0, _⟩ => by show j.val = if (64 : Nat) = 1 then 0 else j.val; rw [if_neg (by decide)])

/-- The product with a 128×128 matrix at an entry. -/
private theorem dot128_apply (A : FVec Ideal S50000x128 .f32) (B : FVec Ideal S128x128 .f32) (v : Fin 50000) (j : Fin 128) :
    Host.dotGeneral dot_S50000x128_S128x128_S50000x128_1_0_0_1_n_n none A B (ix2 v j) = ∑ k : Fin 128, A (ix2 v k) * B (ix2 k j) :=
  PlainDot.dotGeneral_apply dot_S50000x128_S128x128_S50000x128_1_0_0_1_n_n ⟨rfl, rfl, rfl, rfl, rfl, rfl⟩ none .single A B v j

/-- The product with a 128×64 matrix at an entry. -/
private theorem dot64_apply (A : FVec Ideal S50000x128 .f32) (B : FVec Ideal S128x64 .f32) (v : Fin 50000) (j : Fin 64) :
    Host.dotGeneral dot_S50000x128_S128x64_S50000x64_1_0_0_1_n_n none A B (ix2 v j) = ∑ k : Fin 128, A (ix2 v k) * B (ix2 k j) :=
  PlainDot.dotGeneral_apply dot_S50000x128_S128x64_S50000x64_1_0_0_1_n_n ⟨rfl, rfl, rfl, rfl, rfl, rfl⟩ none .single A B v j

/-- The mean at an entry: the sum of the source rows over the edges into the node, divided by its guarded in-degree. -/
theorem mean_apply (x : FVec Ideal S50000x128 .f32) (src dst : IVec S800000 32) (hsrc : Sage.InRange src) (v : Fin 50000) (k : Fin 128) :
    mean x src dst (ix2 v k)
      = Ideal.div (0 + ∑ e ∈ Sage.into dst v.val, x (ix2 (Sage.srcRow src hsrc e) k)) (deg dst (ix1 v)) := by
  unfold mean
  rw [divf_eq, degCol_apply, scatterAdd_eq]
  rw [show scatter_S50000x128_S800000x1_S800000x128_1_0_0_1
      = RowOps.scatterDims 50000 128 800000 scatter_S50000x128_S800000x1_S800000x128_1_0_0_1_wf from rfl]
  rw [RowOps.scatterAdd_rows_apply, zero_spread, into_eq]
  rw [Finset.sum_congr rfl (fun e _ => gathered_apply x src hsrc e k)]

theorem layer128_apply (x : FVec Ideal S50000x128 .f32) (src dst : IVec S800000 32) (ws wn : FVec Ideal S128x128 .f32) (b : FVec Ideal S128 .f32)
    (v : Fin 50000) (j : Fin 128) :
    layer128 x src dst ws wn b (ix2 v j)
      = (∑ k : Fin 128, x (ix2 v k) * ws (ix2 k j) + ∑ k : Fin 128, mean x src dst (ix2 v k) * wn (ix2 k j)) + b (ix1 j) := by
  unfold layer128
  rw [addf_apply, addf_apply, dot128_apply, dot128_apply, bias128_apply]

theorem layer64_apply (x : FVec Ideal S50000x128 .f32) (src dst : IVec S800000 32) (ws wn : FVec Ideal S128x64 .f32) (b : FVec Ideal S64 .f32)
    (v : Fin 50000) (j : Fin 64) :
    layer64 x src dst ws wn b (ix2 v j)
      = (∑ k : Fin 128, x (ix2 v k) * ws (ix2 k j) + ∑ k : Fin 128, mean x src dst (ix2 v k) * wn (ix2 k j)) + b (ix1 j) := by
  unfold layer64
  rw [addf_apply, addf_apply, dot64_apply, dot64_apply, bias64_apply]

theorem relu_apply (y : FVec Ideal S50000x128 .f32) (i : S50000x128.Idx) : relu y i = max (y i) 0 := by
  unfold relu
  rw [maximumf_apply, zero_spread]

end Cert.ReferenceIdeal.RefLayer

end
-- ==== Proof.RefValue.lean ====
/-
  The reference program's run with its three results named as the layers of the network: the first hidden matrix is the
  positive part of the first layer of the inputs, the second of the second layer of the first, and the output is the
  last layer of the second.
-/
import proofs.«411817_j9139690406075_3_alg».proof.Proof.Gen.ReferenceIdeal.Run
import proofs.«411817_j9139690406075_3_alg».proof.Proof.Gen.ReferenceIdeal.Read
import proofs.«411817_j9139690406075_3_alg».proof.Proof.RefLayer

noncomputable section

namespace Cert.ReferenceIdeal.RefValue

open Cert.ReferenceIdeal Cert.ReferenceIdeal.Gen Idealize.ShloMosaic Idealize.ShloMosaic.TcCoe Idealize.SL.Sem

variable (m : (ℓ : Loc nD τ sig) → Buf (Elt Ideal) ℓ)

/-- The first hidden matrix. -/
def hid0 (c : Dev nD) : FVec Ideal S50000x128 .f32 :=
  RefLayer.relu (RefLayer.layer128 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)))

/-- The second hidden matrix. -/
def hid1 (c : Dev nD) : FVec Ideal S50000x128 .f32 :=
  RefLayer.relu (RefLayer.layer128 (hid0 m c) (m ((c.tc : Thread nD τ).loc main_arg1)) (m ((c.tc : Thread nD τ).loc main_arg2))
    (m ((c.tc : Thread nD τ).loc main_arg6)) (m ((c.tc : Thread nD τ).loc main_arg7)) (m ((c.tc : Thread nD τ).loc main_arg8)))

/-- The output matrix. -/
def outp (c : Dev nD) : FVec Ideal S50000x64 .f32 :=
  RefLayer.layer64 (hid1 m c) (m ((c.tc : Thread nD τ).loc main_arg1)) (m ((c.tc : Thread nD τ).loc main_arg2))
    (m ((c.tc : Thread nD τ).loc main_arg9)) (m ((c.tc : Thread nD τ).loc main_arg10)) (m ((c.tc : Thread nD τ).loc main_arg11))

/-- The reference's run, its results named. -/
theorem run (ρ : Dev nD → PrngReg) :
    θ_run defs (onTc (τ := τ) (main (F := Ideal))) ⟨m, fun _ => 0, ρ⟩ fun r => ∀ c : Dev nD,
      r.2.mem ((c.tc : Thread nD τ).loc main_v64) = outp m c
      ∧ r.2.mem ((c.tc : Thread nD τ).loc main_v25) = hid0 m c
      ∧ r.2.mem ((c.tc : Thread nD τ).loc main_v45) = hid1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun r h c => ⟨(h c).1.trans ?_, (h c).2.1.trans ?_, (h c).2.2.1.trans ?_, (h c).2.2.2.2.2⟩)
    (Cert.ReferenceIdeal.Value.run (F := Ideal) m ρ)
  · unfold Cert.ReferenceIdeal.Value.res_main_v64 outp hid1 hid0 RefLayer.layer64 RefLayer.layer128 RefLayer.relu RefLayer.mean
      RefLayer.deg RefLayer.srcIdx RefLayer.dstIdx
    rfl
  · unfold hid0 RefLayer.layer128 RefLayer.relu RefLayer.mean RefLayer.deg RefLayer.srcIdx RefLayer.dstIdx
    rfl
  · unfold Cert.ReferenceIdeal.Value.res_main_v45 hid1 hid0 RefLayer.layer128 RefLayer.relu RefLayer.mean RefLayer.deg
      RefLayer.srcIdx RefLayer.dstIdx
    rfl

end Cert.ReferenceIdeal.RefValue

end
-- ==== Proof.KerPass.lean ====
/-
  The buffers a later segment of the kernel program reads, carried across the segments in between: a host stretch
  leaves a buffer none of its operations writes as it was, a call leaves a buffer none of its windows owns as it was,
  and a call leaves the array of an input window as it found it.
-/
import proofs.«411817_j9139690406075_3_alg».proof.Proof.Gen.KernelIdeal.Frame
import Idealize.ShloMosaic.Lib.StableHlo.Run
import Idealize.ShloMosaic.PureOps.Ideal

set_option maxRecDepth 16384

noncomputable section

namespace Cert.KernelIdeal.Pass

open Cert.KernelIdeal Cert.KernelIdeal.Gen
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-- A stretch of host operations leaves a buffer none of them writes as it was. -/
macro "untouched_by" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem p1_arg0 (c : Dev nD) : W1 m ρ c (Proc.devRef .tc main_arg0) = W0 m ρ c (Proc.devRef .tc main_arg0) := by
  show StableHlo.after hostOps0 (W0 m ρ c) (Proc.devRef .tc main_arg0) = _
  untouched_by hostOps0
theorem c1_arg0 (c : Dev nD) : W1 m ρ c (Proc.devRef .tc main_arg0) = W0 m ρ c (Proc.devRef .tc main_arg0) :=
  p1_arg0 m ρ c

theorem p1_arg1 (c : Dev nD) : W1 m ρ c (Proc.devRef .tc main_arg1) = W0 m ρ c (Proc.devRef .tc main_arg1) := by
  show StableHlo.after hostOps0 (W0 m ρ c) (Proc.devRef .tc main_arg1) = _
  untouched_by hostOps0
theorem p2_arg1 (c : Dev nD) : W2 m ρ c (Proc.devRef .tc main_arg1) = W1 m ρ c (Proc.devRef .tc main_arg1) := by
  show StableHlo.after hostOps0_1 (W1 m ρ c) (Proc.devRef .tc main_arg1) = _
  untouched_by hostOps0_1
theorem p3_arg1 (c : Dev nD) : W3 m ρ c (Proc.devRef .tc main_arg1) = W2 m ρ c (Proc.devRef .tc main_arg1) := by
  show StableHlo.after hostOps0_2 (W2 m ρ c) (Proc.devRef .tc main_arg1) = _
  untouched_by hostOps0_2
theorem p4_arg1 (c : Dev nD) : W4 m ρ c (Proc.devRef .tc main_arg1) = W3 m ρ c (Proc.devRef .tc main_arg1) :=
  W4_of_ne m ρ c main_arg1 (by decide)
theorem p5_arg1 (c : Dev nD) : W5 m ρ c (Proc.devRef .tc main_arg1) = W4 m ρ c (Proc.devRef .tc main_arg1) := by
  show StableHlo.after hostOps1 (W4 m ρ c) (Proc.devRef .tc main_arg1) = _
  untouched_by hostOps1
theorem p6_arg1 (c : Dev nD) : W6 m ρ c (Proc.devRef .tc main_arg1) = W5 m ρ c (Proc.devRef .tc main_arg1) :=
  W6_of_ne m ρ c main_arg1 (by decide)
theorem p7_arg1 (c : Dev nD) : W7 m ρ c (Proc.devRef .tc main_arg1) = W6 m ρ c (Proc.devRef .tc main_arg1) := by
  show StableHlo.after hostOps2 (W6 m ρ c) (Proc.devRef .tc main_arg1) = _
  untouched_by hostOps2
theorem p8_arg1 (c : Dev nD) : W8 m ρ c (Proc.devRef .tc main_arg1) = W7 m ρ c (Proc.devRef .tc main_arg1) :=
  W8_of_ne m ρ c main_arg1 (by decide)
theorem p9_arg1 (c : Dev nD) : W9 m ρ c (Proc.devRef .tc main_arg1) = W8 m ρ c (Proc.devRef .tc main_arg1) := by
  show StableHlo.after hostOps3 (W8 m ρ c) (Proc.devRef .tc main_arg1) = _
  untouched_by hostOps3
theorem p10_arg1 (c : Dev nD) : W10 m ρ c (Proc.devRef .tc main_arg1) = W9 m ρ c (Proc.devRef .tc main_arg1) :=
  W10_of_ne m ρ c main_arg1 (by decide)
theorem p11_arg1 (c : Dev nD) : W11 m ρ c (Proc.devRef .tc main_arg1) = W10 m ρ c (Proc.devRef .tc main_arg1) := by
  show StableHlo.after hostOps4 (W10 m ρ c) (Proc.devRef .tc main_arg1) = _
  untouched_by hostOps4
theorem p12_arg1 (c : Dev nD) : W12 m ρ c (Proc.devRef .tc main_arg1) = W11 m ρ c (Proc.devRef .tc main_arg1) := by
  show StableHlo.after hostOps4_1 (W11 m ρ c) (Proc.devRef .tc main_arg1) = _
  untouched_by hostOps4_1
theorem p13_arg1 (c : Dev nD) : W13 m ρ c (Proc.devRef .tc main_arg1) = W12 m ρ c (Proc.devRef .tc main_arg1) := by
  show StableHlo.after hostOps4_2 (W12 m ρ c) (Proc.devRef .tc main_arg1) = _
  untouched_by hostOps4_2
theorem p14_arg1 (c : Dev nD) : W14 m ρ c (Proc.devRef .tc main_arg1) = W13 m ρ c (Proc.devRef .tc main_arg1) := by
  show StableHlo.after hostOps4_3 (W13 m ρ c) (Proc.devRef .tc main_arg1) = _
  untouched_by hostOps4_3
theorem p15_arg1 (c : Dev nD) : W15 m ρ c (Proc.devRef .tc main_arg1) = W14 m ρ c (Proc.devRef .tc main_arg1) := by
  show StableHlo.after hostOps4_4 (W14 m ρ c) (Proc.devRef .tc main_arg1) = _
  untouched_by hostOps4_4
theorem p16_arg1 (c : Dev nD) : W16 m ρ c (Proc.devRef .tc main_arg1) = W15 m ρ c (Proc.devRef .tc main_arg1) := by
  show StableHlo.after hostOps4_5 (W15 m ρ c) (Proc.devRef .tc main_arg1) = _
  untouched_by hostOps4_5
theorem p17_arg1 (c : Dev nD) : W17 m ρ c (Proc.devRef .tc main_arg1) = W16 m ρ c (Proc.devRef .tc main_arg1) := by
  show StableHlo.after hostOps4_6 (W16 m ρ c) (Proc.devRef .tc main_arg1) = _
  untouched_by hostOps4_6
theorem p18_arg1 (c : Dev nD) : W18 m ρ c (Proc.devRef .tc main_arg1) = W17 m ρ c (Proc.devRef .tc main_arg1) :=
  W18_of_ne m ρ c main_arg1 (by decide)
theorem c1_arg1 (c : Dev nD) : W1 m ρ c (Proc.devRef .tc main_arg1) = W0 m ρ c (Proc.devRef .tc main_arg1) :=
  p1_arg1 m ρ c
theorem c2_arg1 (c : Dev nD) : W2 m ρ c (Proc.devRef .tc main_arg1) = W0 m ρ c (Proc.devRef .tc main_arg1) :=
  (p2_arg1 m ρ c).trans (c1_arg1 m ρ c)
theorem c3_arg1 (c : Dev nD) : W3 m ρ c (Proc.devRef .tc main_arg1) = W0 m ρ c (Proc.devRef .tc main_arg1) :=
  (p3_arg1 m ρ c).trans (c2_arg1 m ρ c)
theorem c4_arg1 (c : Dev nD) : W4 m ρ c (Proc.devRef .tc main_arg1) = W0 m ρ c (Proc.devRef .tc main_arg1) :=
  (p4_arg1 m ρ c).trans (c3_arg1 m ρ c)
theorem c5_arg1 (c : Dev nD) : W5 m ρ c (Proc.devRef .tc main_arg1) = W0 m ρ c (Proc.devRef .tc main_arg1) :=
  (p5_arg1 m ρ c).trans (c4_arg1 m ρ c)
theorem c6_arg1 (c : Dev nD) : W6 m ρ c (Proc.devRef .tc main_arg1) = W0 m ρ c (Proc.devRef .tc main_arg1) :=
  (p6_arg1 m ρ c).trans (c5_arg1 m ρ c)
theorem c7_arg1 (c : Dev nD) : W7 m ρ c (Proc.devRef .tc main_arg1) = W0 m ρ c (Proc.devRef .tc main_arg1) :=
  (p7_arg1 m ρ c).trans (c6_arg1 m ρ c)
theorem c8_arg1 (c : Dev nD) : W8 m ρ c (Proc.devRef .tc main_arg1) = W0 m ρ c (Proc.devRef .tc main_arg1) :=
  (p8_arg1 m ρ c).trans (c7_arg1 m ρ c)
theorem c9_arg1 (c : Dev nD) : W9 m ρ c (Proc.devRef .tc main_arg1) = W0 m ρ c (Proc.devRef .tc main_arg1) :=
  (p9_arg1 m ρ c).trans (c8_arg1 m ρ c)
theorem c10_arg1 (c : Dev nD) : W10 m ρ c (Proc.devRef .tc main_arg1) = W0 m ρ c (Proc.devRef .tc main_arg1) :=
  (p10_arg1 m ρ c).trans (c9_arg1 m ρ c)
theorem c11_arg1 (c : Dev nD) : W11 m ρ c (Proc.devRef .tc main_arg1) = W0 m ρ c (Proc.devRef .tc main_arg1) :=
  (p11_arg1 m ρ c).trans (c10_arg1 m ρ c)
theorem c12_arg1 (c : Dev nD) : W12 m ρ c (Proc.devRef .tc main_arg1) = W0 m ρ c (Proc.devRef .tc main_arg1) :=
  (p12_arg1 m ρ c).trans (c11_arg1 m ρ c)
theorem c13_arg1 (c : Dev nD) : W13 m ρ c (Proc.devRef .tc main_arg1) = W0 m ρ c (Proc.devRef .tc main_arg1) :=
  (p13_arg1 m ρ c).trans (c12_arg1 m ρ c)
theorem c14_arg1 (c : Dev nD) : W14 m ρ c (Proc.devRef .tc main_arg1) = W0 m ρ c (Proc.devRef .tc main_arg1) :=
  (p14_arg1 m ρ c).trans (c13_arg1 m ρ c)
theorem c15_arg1 (c : Dev nD) : W15 m ρ c (Proc.devRef .tc main_arg1) = W0 m ρ c (Proc.devRef .tc main_arg1) :=
  (p15_arg1 m ρ c).trans (c14_arg1 m ρ c)
theorem c16_arg1 (c : Dev nD) : W16 m ρ c (Proc.devRef .tc main_arg1) = W0 m ρ c (Proc.devRef .tc main_arg1) :=
  (p16_arg1 m ρ c).trans (c15_arg1 m ρ c)
theorem c17_arg1 (c : Dev nD) : W17 m ρ c (Proc.devRef .tc main_arg1) = W0 m ρ c (Proc.devRef .tc main_arg1) :=
  (p17_arg1 m ρ c).trans (c16_arg1 m ρ c)
theorem c18_arg1 (c : Dev nD) : W18 m ρ c (Proc.devRef .tc main_arg1) = W0 m ρ c (Proc.devRef .tc main_arg1) :=
  (p18_arg1 m ρ c).trans (c17_arg1 m ρ c)

theorem p1_arg2 (c : Dev nD) : W1 m ρ c (Proc.devRef .tc main_arg2) = W0 m ρ c (Proc.devRef .tc main_arg2) := by
  show StableHlo.after hostOps0 (W0 m ρ c) (Proc.devRef .tc main_arg2) = _
  untouched_by hostOps0
theorem p2_arg2 (c : Dev nD) : W2 m ρ c (Proc.devRef .tc main_arg2) = W1 m ρ c (Proc.devRef .tc main_arg2) := by
  show StableHlo.after hostOps0_1 (W1 m ρ c) (Proc.devRef .tc main_arg2) = _
  untouched_by hostOps0_1
theorem p3_arg2 (c : Dev nD) : W3 m ρ c (Proc.devRef .tc main_arg2) = W2 m ρ c (Proc.devRef .tc main_arg2) := by
  show StableHlo.after hostOps0_2 (W2 m ρ c) (Proc.devRef .tc main_arg2) = _
  untouched_by hostOps0_2
theorem p4_arg2 (c : Dev nD) : W4 m ρ c (Proc.devRef .tc main_arg2) = W3 m ρ c (Proc.devRef .tc main_arg2) :=
  W4_of_ne m ρ c main_arg2 (by decide)
theorem p5_arg2 (c : Dev nD) : W5 m ρ c (Proc.devRef .tc main_arg2) = W4 m ρ c (Proc.devRef .tc main_arg2) := by
  show StableHlo.after hostOps1 (W4 m ρ c) (Proc.devRef .tc main_arg2) = _
  untouched_by hostOps1
theorem p6_arg2 (c : Dev nD) : W6 m ρ c (Proc.devRef .tc main_arg2) = W5 m ρ c (Proc.devRef .tc main_arg2) :=
  W6_of_ne m ρ c main_arg2 (by decide)
theorem p7_arg2 (c : Dev nD) : W7 m ρ c (Proc.devRef .tc main_arg2) = W6 m ρ c (Proc.devRef .tc main_arg2) := by
  show StableHlo.after hostOps2 (W6 m ρ c) (Proc.devRef .tc main_arg2) = _
  untouched_by hostOps2
theorem p8_arg2 (c : Dev nD) : W8 m ρ c (Proc.devRef .tc main_arg2) = W7 m ρ c (Proc.devRef .tc main_arg2) :=
  W8_of_ne m ρ c main_arg2 (by decide)
theorem p9_arg2 (c : Dev nD) : W9 m ρ c (Proc.devRef .tc main_arg2) = W8 m ρ c (Proc.devRef .tc main_arg2) := by
  show StableHlo.after hostOps3 (W8 m ρ c) (Proc.devRef .tc main_arg2) = _
  untouched_by hostOps3
theorem p10_arg2 (c : Dev nD) : W10 m ρ c (Proc.devRef .tc main_arg2) = W9 m ρ c (Proc.devRef .tc main_arg2) :=
  W10_of_ne m ρ c main_arg2 (by decide)
theorem p11_arg2 (c : Dev nD) : W11 m ρ c (Proc.devRef .tc main_arg2) = W10 m ρ c (Proc.devRef .tc main_arg2) := by
  show StableHlo.after hostOps4 (W10 m ρ c) (Proc.devRef .tc main_arg2) = _
  untouched_by hostOps4
theorem p12_arg2 (c : Dev nD) : W12 m ρ c (Proc.devRef .tc main_arg2) = W11 m ρ c (Proc.devRef .tc main_arg2) := by
  show StableHlo.after hostOps4_1 (W11 m ρ c) (Proc.devRef .tc main_arg2) = _
  untouched_by hostOps4_1
theorem p13_arg2 (c : Dev nD) : W13 m ρ c (Proc.devRef .tc main_arg2) = W12 m ρ c (Proc.devRef .tc main_arg2) := by
  show StableHlo.after hostOps4_2 (W12 m ρ c) (Proc.devRef .tc main_arg2) = _
  untouched_by hostOps4_2
theorem p14_arg2 (c : Dev nD) : W14 m ρ c (Proc.devRef .tc main_arg2) = W13 m ρ c (Proc.devRef .tc main_arg2) := by
  show StableHlo.after hostOps4_3 (W13 m ρ c) (Proc.devRef .tc main_arg2) = _
  untouched_by hostOps4_3
theorem p15_arg2 (c : Dev nD) : W15 m ρ c (Proc.devRef .tc main_arg2) = W14 m ρ c (Proc.devRef .tc main_arg2) := by
  show StableHlo.after hostOps4_4 (W14 m ρ c) (Proc.devRef .tc main_arg2) = _
  untouched_by hostOps4_4
theorem p16_arg2 (c : Dev nD) : W16 m ρ c (Proc.devRef .tc main_arg2) = W15 m ρ c (Proc.devRef .tc main_arg2) := by
  show StableHlo.after hostOps4_5 (W15 m ρ c) (Proc.devRef .tc main_arg2) = _
  untouched_by hostOps4_5
theorem p17_arg2 (c : Dev nD) : W17 m ρ c (Proc.devRef .tc main_arg2) = W16 m ρ c (Proc.devRef .tc main_arg2) := by
  show StableHlo.after hostOps4_6 (W16 m ρ c) (Proc.devRef .tc main_arg2) = _
  untouched_by hostOps4_6
theorem p18_arg2 (c : Dev nD) : W18 m ρ c (Proc.devRef .tc main_arg2) = W17 m ρ c (Proc.devRef .tc main_arg2) :=
  W18_of_ne m ρ c main_arg2 (by decide)
theorem c1_arg2 (c : Dev nD) : W1 m ρ c (Proc.devRef .tc main_arg2) = W0 m ρ c (Proc.devRef .tc main_arg2) :=
  p1_arg2 m ρ c
theorem c2_arg2 (c : Dev nD) : W2 m ρ c (Proc.devRef .tc main_arg2) = W0 m ρ c (Proc.devRef .tc main_arg2) :=
  (p2_arg2 m ρ c).trans (c1_arg2 m ρ c)
theorem c3_arg2 (c : Dev nD) : W3 m ρ c (Proc.devRef .tc main_arg2) = W0 m ρ c (Proc.devRef .tc main_arg2) :=
  (p3_arg2 m ρ c).trans (c2_arg2 m ρ c)
theorem c4_arg2 (c : Dev nD) : W4 m ρ c (Proc.devRef .tc main_arg2) = W0 m ρ c (Proc.devRef .tc main_arg2) :=
  (p4_arg2 m ρ c).trans (c3_arg2 m ρ c)
theorem c5_arg2 (c : Dev nD) : W5 m ρ c (Proc.devRef .tc main_arg2) = W0 m ρ c (Proc.devRef .tc main_arg2) :=
  (p5_arg2 m ρ c).trans (c4_arg2 m ρ c)
theorem c6_arg2 (c : Dev nD) : W6 m ρ c (Proc.devRef .tc main_arg2) = W0 m ρ c (Proc.devRef .tc main_arg2) :=
  (p6_arg2 m ρ c).trans (c5_arg2 m ρ c)
theorem c7_arg2 (c : Dev nD) : W7 m ρ c (Proc.devRef .tc main_arg2) = W0 m ρ c (Proc.devRef .tc main_arg2) :=
  (p7_arg2 m ρ c).trans (c6_arg2 m ρ c)
theorem c8_arg2 (c : Dev nD) : W8 m ρ c (Proc.devRef .tc main_arg2) = W0 m ρ c (Proc.devRef .tc main_arg2) :=
  (p8_arg2 m ρ c).trans (c7_arg2 m ρ c)
theorem c9_arg2 (c : Dev nD) : W9 m ρ c (Proc.devRef .tc main_arg2) = W0 m ρ c (Proc.devRef .tc main_arg2) :=
  (p9_arg2 m ρ c).trans (c8_arg2 m ρ c)
theorem c10_arg2 (c : Dev nD) : W10 m ρ c (Proc.devRef .tc main_arg2) = W0 m ρ c (Proc.devRef .tc main_arg2) :=
  (p10_arg2 m ρ c).trans (c9_arg2 m ρ c)
theorem c11_arg2 (c : Dev nD) : W11 m ρ c (Proc.devRef .tc main_arg2) = W0 m ρ c (Proc.devRef .tc main_arg2) :=
  (p11_arg2 m ρ c).trans (c10_arg2 m ρ c)
theorem c12_arg2 (c : Dev nD) : W12 m ρ c (Proc.devRef .tc main_arg2) = W0 m ρ c (Proc.devRef .tc main_arg2) :=
  (p12_arg2 m ρ c).trans (c11_arg2 m ρ c)
theorem c13_arg2 (c : Dev nD) : W13 m ρ c (Proc.devRef .tc main_arg2) = W0 m ρ c (Proc.devRef .tc main_arg2) :=
  (p13_arg2 m ρ c).trans (c12_arg2 m ρ c)
theorem c14_arg2 (c : Dev nD) : W14 m ρ c (Proc.devRef .tc main_arg2) = W0 m ρ c (Proc.devRef .tc main_arg2) :=
  (p14_arg2 m ρ c).trans (c13_arg2 m ρ c)
theorem c15_arg2 (c : Dev nD) : W15 m ρ c (Proc.devRef .tc main_arg2) = W0 m ρ c (Proc.devRef .tc main_arg2) :=
  (p15_arg2 m ρ c).trans (c14_arg2 m ρ c)
theorem c16_arg2 (c : Dev nD) : W16 m ρ c (Proc.devRef .tc main_arg2) = W0 m ρ c (Proc.devRef .tc main_arg2) :=
  (p16_arg2 m ρ c).trans (c15_arg2 m ρ c)
theorem c17_arg2 (c : Dev nD) : W17 m ρ c (Proc.devRef .tc main_arg2) = W0 m ρ c (Proc.devRef .tc main_arg2) :=
  (p17_arg2 m ρ c).trans (c16_arg2 m ρ c)
theorem c18_arg2 (c : Dev nD) : W18 m ρ c (Proc.devRef .tc main_arg2) = W0 m ρ c (Proc.devRef .tc main_arg2) :=
  (p18_arg2 m ρ c).trans (c17_arg2 m ρ c)

theorem p1_arg3 (c : Dev nD) : W1 m ρ c (Proc.devRef .tc main_arg3) = W0 m ρ c (Proc.devRef .tc main_arg3) := by
  show StableHlo.after hostOps0 (W0 m ρ c) (Proc.devRef .tc main_arg3) = _
  untouched_by hostOps0
theorem p2_arg3 (c : Dev nD) : W2 m ρ c (Proc.devRef .tc main_arg3) = W1 m ρ c (Proc.devRef .tc main_arg3) := by
  show StableHlo.after hostOps0_1 (W1 m ρ c) (Proc.devRef .tc main_arg3) = _
  untouched_by hostOps0_1
theorem c1_arg3 (c : Dev nD) : W1 m ρ c (Proc.devRef .tc main_arg3) = W0 m ρ c (Proc.devRef .tc main_arg3) :=
  p1_arg3 m ρ c
theorem c2_arg3 (c : Dev nD) : W2 m ρ c (Proc.devRef .tc main_arg3) = W0 m ρ c (Proc.devRef .tc main_arg3) :=
  (p2_arg3 m ρ c).trans (c1_arg3 m ρ c)

theorem p1_arg4 (c : Dev nD) : W1 m ρ c (Proc.devRef .tc main_arg4) = W0 m ρ c (Proc.devRef .tc main_arg4) := by
  show StableHlo.after hostOps0 (W0 m ρ c) (Proc.devRef .tc main_arg4) = _
  untouched_by hostOps0
theorem p2_arg4 (c : Dev nD) : W2 m ρ c (Proc.devRef .tc main_arg4) = W1 m ρ c (Proc.devRef .tc main_arg4) := by
  show StableHlo.after hostOps0_1 (W1 m ρ c) (Proc.devRef .tc main_arg4) = _
  untouched_by hostOps0_1
theorem c1_arg4 (c : Dev nD) : W1 m ρ c (Proc.devRef .tc main_arg4) = W0 m ρ c (Proc.devRef .tc main_arg4) :=
  p1_arg4 m ρ c
theorem c2_arg4 (c : Dev nD) : W2 m ρ c (Proc.devRef .tc main_arg4) = W0 m ρ c (Proc.devRef .tc main_arg4) :=
  (p2_arg4 m ρ c).trans (c1_arg4 m ρ c)

theorem p1_arg5 (c : Dev nD) : W1 m ρ c (Proc.devRef .tc main_arg5) = W0 m ρ c (Proc.devRef .tc main_arg5) := by
  show StableHlo.after hostOps0 (W0 m ρ c) (Proc.devRef .tc main_arg5) = _
  untouched_by hostOps0
theorem p2_arg5 (c : Dev nD) : W2 m ρ c (Proc.devRef .tc main_arg5) = W1 m ρ c (Proc.devRef .tc main_arg5) := by
  show StableHlo.after hostOps0_1 (W1 m ρ c) (Proc.devRef .tc main_arg5) = _
  untouched_by hostOps0_1
theorem c1_arg5 (c : Dev nD) : W1 m ρ c (Proc.devRef .tc main_arg5) = W0 m ρ c (Proc.devRef .tc main_arg5) :=
  p1_arg5 m ρ c
theorem c2_arg5 (c : Dev nD) : W2 m ρ c (Proc.devRef .tc main_arg5) = W0 m ρ c (Proc.devRef .tc main_arg5) :=
  (p2_arg5 m ρ c).trans (c1_arg5 m ρ c)

theorem p1_arg6 (c : Dev nD) : W1 m ρ c (Proc.devRef .tc main_arg6) = W0 m ρ c (Proc.devRef .tc main_arg6) := by
  show StableHlo.after hostOps0 (W0 m ρ c) (Proc.devRef .tc main_arg6) = _
  untouched_by hostOps0
theorem p2_arg6 (c : Dev nD) : W2 m ρ c (Proc.devRef .tc main_arg6) = W1 m ρ c (Proc.devRef .tc main_arg6) := by
  show StableHlo.after hostOps0_1 (W1 m ρ c) (Proc.devRef .tc main_arg6) = _
  untouched_by hostOps0_1
theorem p3_arg6 (c : Dev nD) : W3 m ρ c (Proc.devRef .tc main_arg6) = W2 m ρ c (Proc.devRef .tc main_arg6) := by
  show StableHlo.after hostOps0_2 (W2 m ρ c) (Proc.devRef .tc main_arg6) = _
  untouched_by hostOps0_2
theorem p4_arg6 (c : Dev nD) : W4 m ρ c (Proc.devRef .tc main_arg6) = W3 m ρ c (Proc.devRef .tc main_arg6) :=
  W4_of_ne m ρ c main_arg6 (by decide)
theorem p5_arg6 (c : Dev nD) : W5 m ρ c (Proc.devRef .tc main_arg6) = W4 m ρ c (Proc.devRef .tc main_arg6) := by
  show StableHlo.after hostOps1 (W4 m ρ c) (Proc.devRef .tc main_arg6) = _
  untouched_by hostOps1
theorem p6_arg6 (c : Dev nD) : W6 m ρ c (Proc.devRef .tc main_arg6) = W5 m ρ c (Proc.devRef .tc main_arg6) :=
  W6_of_ne m ρ c main_arg6 (by decide)
theorem c1_arg6 (c : Dev nD) : W1 m ρ c (Proc.devRef .tc main_arg6) = W0 m ρ c (Proc.devRef .tc main_arg6) :=
  p1_arg6 m ρ c
theorem c2_arg6 (c : Dev nD) : W2 m ρ c (Proc.devRef .tc main_arg6) = W0 m ρ c (Proc.devRef .tc main_arg6) :=
  (p2_arg6 m ρ c).trans (c1_arg6 m ρ c)
theorem c3_arg6 (c : Dev nD) : W3 m ρ c (Proc.devRef .tc main_arg6) = W0 m ρ c (Proc.devRef .tc main_arg6) :=
  (p3_arg6 m ρ c).trans (c2_arg6 m ρ c)
theorem c4_arg6 (c : Dev nD) : W4 m ρ c (Proc.devRef .tc main_arg6) = W0 m ρ c (Proc.devRef .tc main_arg6) :=
  (p4_arg6 m ρ c).trans (c3_arg6 m ρ c)
theorem c5_arg6 (c : Dev nD) : W5 m ρ c (Proc.devRef .tc main_arg6) = W0 m ρ c (Proc.devRef .tc main_arg6) :=
  (p5_arg6 m ρ c).trans (c4_arg6 m ρ c)
theorem c6_arg6 (c : Dev nD) : W6 m ρ c (Proc.devRef .tc main_arg6) = W0 m ρ c (Proc.devRef .tc main_arg6) :=
  (p6_arg6 m ρ c).trans (c5_arg6 m ρ c)

theorem p1_arg7 (c : Dev nD) : W1 m ρ c (Proc.devRef .tc main_arg7) = W0 m ρ c (Proc.devRef .tc main_arg7) := by
  show StableHlo.after hostOps0 (W0 m ρ c) (Proc.devRef .tc main_arg7) = _
  untouched_by hostOps0
theorem p2_arg7 (c : Dev nD) : W2 m ρ c (Proc.devRef .tc main_arg7) = W1 m ρ c (Proc.devRef .tc main_arg7) := by
  show StableHlo.after hostOps0_1 (W1 m ρ c) (Proc.devRef .tc main_arg7) = _
  untouched_by hostOps0_1
theorem p3_arg7 (c : Dev nD) : W3 m ρ c (Proc.devRef .tc main_arg7) = W2 m ρ c (Proc.devRef .tc main_arg7) := by
  show StableHlo.after hostOps0_2 (W2 m ρ c) (Proc.devRef .tc main_arg7) = _
  untouched_by hostOps0_2
theorem p4_arg7 (c : Dev nD) : W4 m ρ c (Proc.devRef .tc main_arg7) = W3 m ρ c (Proc.devRef .tc main_arg7) :=
  W4_of_ne m ρ c main_arg7 (by decide)
theorem p5_arg7 (c : Dev nD) : W5 m ρ c (Proc.devRef .tc main_arg7) = W4 m ρ c (Proc.devRef .tc main_arg7) := by
  show StableHlo.after hostOps1 (W4 m ρ c) (Proc.devRef .tc main_arg7) = _
  untouched_by hostOps1
theorem p6_arg7 (c : Dev nD) : W6 m ρ c (Proc.devRef .tc main_arg7) = W5 m ρ c (Proc.devRef .tc main_arg7) :=
  W6_of_ne m ρ c main_arg7 (by decide)
theorem c1_arg7 (c : Dev nD) : W1 m ρ c (Proc.devRef .tc main_arg7) = W0 m ρ c (Proc.devRef .tc main_arg7) :=
  p1_arg7 m ρ c
theorem c2_arg7 (c : Dev nD) : W2 m ρ c (Proc.devRef .tc main_arg7) = W0 m ρ c (Proc.devRef .tc main_arg7) :=
  (p2_arg7 m ρ c).trans (c1_arg7 m ρ c)
theorem c3_arg7 (c : Dev nD) : W3 m ρ c (Proc.devRef .tc main_arg7) = W0 m ρ c (Proc.devRef .tc main_arg7) :=
  (p3_arg7 m ρ c).trans (c2_arg7 m ρ c)
theorem c4_arg7 (c : Dev nD) : W4 m ρ c (Proc.devRef .tc main_arg7) = W0 m ρ c (Proc.devRef .tc main_arg7) :=
  (p4_arg7 m ρ c).trans (c3_arg7 m ρ c)
theorem c5_arg7 (c : Dev nD) : W5 m ρ c (Proc.devRef .tc main_arg7) = W0 m ρ c (Proc.devRef .tc main_arg7) :=
  (p5_arg7 m ρ c).trans (c4_arg7 m ρ c)
theorem c6_arg7 (c : Dev nD) : W6 m ρ c (Proc.devRef .tc main_arg7) = W0 m ρ c (Proc.devRef .tc main_arg7) :=
  (p6_arg7 m ρ c).trans (c5_arg7 m ρ c)

theorem p1_arg8 (c : Dev nD) : W1 m ρ c (Proc.devRef .tc main_arg8) = W0 m ρ c (Proc.devRef .tc main_arg8) := by
  show StableHlo.after hostOps0 (W0 m ρ c) (Proc.devRef .tc main_arg8) = _
  untouched_by hostOps0
theorem p2_arg8 (c : Dev nD) : W2 m ρ c (Proc.devRef .tc main_arg8) = W1 m ρ c (Proc.devRef .tc main_arg8) := by
  show StableHlo.after hostOps0_1 (W1 m ρ c) (Proc.devRef .tc main_arg8) = _
  untouched_by hostOps0_1
theorem p3_arg8 (c : Dev nD) : W3 m ρ c (Proc.devRef .tc main_arg8) = W2 m ρ c (Proc.devRef .tc main_arg8) := by
  show StableHlo.after hostOps0_2 (W2 m ρ c) (Proc.devRef .tc main_arg8) = _
  untouched_by hostOps0_2
theorem p4_arg8 (c : Dev nD) : W4 m ρ c (Proc.devRef .tc main_arg8) = W3 m ρ c (Proc.devRef .tc main_arg8) :=
  W4_of_ne m ρ c main_arg8 (by decide)
theorem p5_arg8 (c : Dev nD) : W5 m ρ c (Proc.devRef .tc main_arg8) = W4 m ρ c (Proc.devRef .tc main_arg8) := by
  show StableHlo.after hostOps1 (W4 m ρ c) (Proc.devRef .tc main_arg8) = _
  untouched_by hostOps1
theorem p6_arg8 (c : Dev nD) : W6 m ρ c (Proc.devRef .tc main_arg8) = W5 m ρ c (Proc.devRef .tc main_arg8) :=
  W6_of_ne m ρ c main_arg8 (by decide)
theorem c1_arg8 (c : Dev nD) : W1 m ρ c (Proc.devRef .tc main_arg8) = W0 m ρ c (Proc.devRef .tc main_arg8) :=
  p1_arg8 m ρ c
theorem c2_arg8 (c : Dev nD) : W2 m ρ c (Proc.devRef .tc main_arg8) = W0 m ρ c (Proc.devRef .tc main_arg8) :=
  (p2_arg8 m ρ c).trans (c1_arg8 m ρ c)
theorem c3_arg8 (c : Dev nD) : W3 m ρ c (Proc.devRef .tc main_arg8) = W0 m ρ c (Proc.devRef .tc main_arg8) :=
  (p3_arg8 m ρ c).trans (c2_arg8 m ρ c)
theorem c4_arg8 (c : Dev nD) : W4 m ρ c (Proc.devRef .tc main_arg8) = W0 m ρ c (Proc.devRef .tc main_arg8) :=
  (p4_arg8 m ρ c).trans (c3_arg8 m ρ c)
theorem c5_arg8 (c : Dev nD) : W5 m ρ c (Proc.devRef .tc main_arg8) = W0 m ρ c (Proc.devRef .tc main_arg8) :=
  (p5_arg8 m ρ c).trans (c4_arg8 m ρ c)
theorem c6_arg8 (c : Dev nD) : W6 m ρ c (Proc.devRef .tc main_arg8) = W0 m ρ c (Proc.devRef .tc main_arg8) :=
  (p6_arg8 m ρ c).trans (c5_arg8 m ρ c)

theorem p1_arg9 (c : Dev nD) : W1 m ρ c (Proc.devRef .tc main_arg9) = W0 m ρ c (Proc.devRef .tc main_arg9) := by
  show StableHlo.after hostOps0 (W0 m ρ c) (Proc.devRef .tc main_arg9) = _
  untouched_by hostOps0
theorem p2_arg9 (c : Dev nD) : W2 m ρ c (Proc.devRef .tc main_arg9) = W1 m ρ c (Proc.devRef .tc main_arg9) := by
  show StableHlo.after hostOps0_1 (W1 m ρ c) (Proc.devRef .tc main_arg9) = _
  untouched_by hostOps0_1
theorem p3_arg9 (c : Dev nD) : W3 m ρ c (Proc.devRef .tc main_arg9) = W2 m ρ c (Proc.devRef .tc main_arg9) := by
  show StableHlo.after hostOps0_2 (W2 m ρ c) (Proc.devRef .tc main_arg9) = _
  untouched_by hostOps0_2
theorem p4_arg9 (c : Dev nD) : W4 m ρ c (Proc.devRef .tc main_arg9) = W3 m ρ c (Proc.devRef .tc main_arg9) :=
  W4_of_ne m ρ c main_arg9 (by decide)
theorem p5_arg9 (c : Dev nD) : W5 m ρ c (Proc.devRef .tc main_arg9) = W4 m ρ c (Proc.devRef .tc main_arg9) := by
  show StableHlo.after hostOps1 (W4 m ρ c) (Proc.devRef .tc main_arg9) = _
  untouched_by hostOps1
theorem p6_arg9 (c : Dev nD) : W6 m ρ c (Proc.devRef .tc main_arg9) = W5 m ρ c (Proc.devRef .tc main_arg9) :=
  W6_of_ne m ρ c main_arg9 (by decide)
theorem p7_arg9 (c : Dev nD) : W7 m ρ c (Proc.devRef .tc main_arg9) = W6 m ρ c (Proc.devRef .tc main_arg9) := by
  show StableHlo.after hostOps2 (W6 m ρ c) (Proc.devRef .tc main_arg9) = _
  untouched_by hostOps2
theorem p8_arg9 (c : Dev nD) : W8 m ρ c (Proc.devRef .tc main_arg9) = W7 m ρ c (Proc.devRef .tc main_arg9) :=
  W8_of_ne m ρ c main_arg9 (by decide)
theorem p9_arg9 (c : Dev nD) : W9 m ρ c (Proc.devRef .tc main_arg9) = W8 m ρ c (Proc.devRef .tc main_arg9) := by
  show StableHlo.after hostOps3 (W8 m ρ c) (Proc.devRef .tc main_arg9) = _
  untouched_by hostOps3
theorem p10_arg9 (c : Dev nD) : W10 m ρ c (Proc.devRef .tc main_arg9) = W9 m ρ c (Proc.devRef .tc main_arg9) :=
  W10_of_ne m ρ c main_arg9 (by decide)
theorem p11_arg9 (c : Dev nD) : W11 m ρ c (Proc.devRef .tc main_arg9) = W10 m ρ c (Proc.devRef .tc main_arg9) := by
  show StableHlo.after hostOps4 (W10 m ρ c) (Proc.devRef .tc main_arg9) = _
  untouched_by hostOps4
theorem c1_arg9 (c : Dev nD) : W1 m ρ c (Proc.devRef .tc main_arg9) = W0 m ρ c (Proc.devRef .tc main_arg9) :=
  p1_arg9 m ρ c
theorem c2_arg9 (c : Dev nD) : W2 m ρ c (Proc.devRef .tc main_arg9) = W0 m ρ c (Proc.devRef .tc main_arg9) :=
  (p2_arg9 m ρ c).trans (c1_arg9 m ρ c)
theorem c3_arg9 (c : Dev nD) : W3 m ρ c (Proc.devRef .tc main_arg9) = W0 m ρ c (Proc.devRef .tc main_arg9) :=
  (p3_arg9 m ρ c).trans (c2_arg9 m ρ c)
theorem c4_arg9 (c : Dev nD) : W4 m ρ c (Proc.devRef .tc main_arg9) = W0 m ρ c (Proc.devRef .tc main_arg9) :=
  (p4_arg9 m ρ c).trans (c3_arg9 m ρ c)
theorem c5_arg9 (c : Dev nD) : W5 m ρ c (Proc.devRef .tc main_arg9) = W0 m ρ c (Proc.devRef .tc main_arg9) :=
  (p5_arg9 m ρ c).trans (c4_arg9 m ρ c)
theorem c6_arg9 (c : Dev nD) : W6 m ρ c (Proc.devRef .tc main_arg9) = W0 m ρ c (Proc.devRef .tc main_arg9) :=
  (p6_arg9 m ρ c).trans (c5_arg9 m ρ c)
theorem c7_arg9 (c : Dev nD) : W7 m ρ c (Proc.devRef .tc main_arg9) = W0 m ρ c (Proc.devRef .tc main_arg9) :=
  (p7_arg9 m ρ c).trans (c6_arg9 m ρ c)
theorem c8_arg9 (c : Dev nD) : W8 m ρ c (Proc.devRef .tc main_arg9) = W0 m ρ c (Proc.devRef .tc main_arg9) :=
  (p8_arg9 m ρ c).trans (c7_arg9 m ρ c)
theorem c9_arg9 (c : Dev nD) : W9 m ρ c (Proc.devRef .tc main_arg9) = W0 m ρ c (Proc.devRef .tc main_arg9) :=
  (p9_arg9 m ρ c).trans (c8_arg9 m ρ c)
theorem c10_arg9 (c : Dev nD) : W10 m ρ c (Proc.devRef .tc main_arg9) = W0 m ρ c (Proc.devRef .tc main_arg9) :=
  (p10_arg9 m ρ c).trans (c9_arg9 m ρ c)
theorem c11_arg9 (c : Dev nD) : W11 m ρ c (Proc.devRef .tc main_arg9) = W0 m ρ c (Proc.devRef .tc main_arg9) :=
  (p11_arg9 m ρ c).trans (c10_arg9 m ρ c)

theorem p1_arg10 (c : Dev nD) : W1 m ρ c (Proc.devRef .tc main_arg10) = W0 m ρ c (Proc.devRef .tc main_arg10) := by
  show StableHlo.after hostOps0 (W0 m ρ c) (Proc.devRef .tc main_arg10) = _
  untouched_by hostOps0
theorem p2_arg10 (c : Dev nD) : W2 m ρ c (Proc.devRef .tc main_arg10) = W1 m ρ c (Proc.devRef .tc main_arg10) := by
  show StableHlo.after hostOps0_1 (W1 m ρ c) (Proc.devRef .tc main_arg10) = _
  untouched_by hostOps0_1
theorem p3_arg10 (c : Dev nD) : W3 m ρ c (Proc.devRef .tc main_arg10) = W2 m ρ c (Proc.devRef .tc main_arg10) := by
  show StableHlo.after hostOps0_2 (W2 m ρ c) (Proc.devRef .tc main_arg10) = _
  untouched_by hostOps0_2
theorem p4_arg10 (c : Dev nD) : W4 m ρ c (Proc.devRef .tc main_arg10) = W3 m ρ c (Proc.devRef .tc main_arg10) :=
  W4_of_ne m ρ c main_arg10 (by decide)
theorem p5_arg10 (c : Dev nD) : W5 m ρ c (Proc.devRef .tc main_arg10) = W4 m ρ c (Proc.devRef .tc main_arg10) := by
  show StableHlo.after hostOps1 (W4 m ρ c) (Proc.devRef .tc main_arg10) = _
  untouched_by hostOps1
theorem p6_arg10 (c : Dev nD) : W6 m ρ c (Proc.devRef .tc main_arg10) = W5 m ρ c (Proc.devRef .tc main_arg10) :=
  W6_of_ne m ρ c main_arg10 (by decide)
theorem p7_arg10 (c : Dev nD) : W7 m ρ c (Proc.devRef .tc main_arg10) = W6 m ρ c (Proc.devRef .tc main_arg10) := by
  show StableHlo.after hostOps2 (W6 m ρ c) (Proc.devRef .tc main_arg10) = _
  untouched_by hostOps2
theorem p8_arg10 (c : Dev nD) : W8 m ρ c (Proc.devRef .tc main_arg10) = W7 m ρ c (Proc.devRef .tc main_arg10) :=
  W8_of_ne m ρ c main_arg10 (by decide)
theorem p9_arg10 (c : Dev nD) : W9 m ρ c (Proc.devRef .tc main_arg10) = W8 m ρ c (Proc.devRef .tc main_arg10) := by
  show StableHlo.after hostOps3 (W8 m ρ c) (Proc.devRef .tc main_arg10) = _
  untouched_by hostOps3
theorem p10_arg10 (c : Dev nD) : W10 m ρ c (Proc.devRef .tc main_arg10) = W9 m ρ c (Proc.devRef .tc main_arg10) :=
  W10_of_ne m ρ c main_arg10 (by decide)
theorem p11_arg10 (c : Dev nD) : W11 m ρ c (Proc.devRef .tc main_arg10) = W10 m ρ c (Proc.devRef .tc main_arg10) := by
  show StableHlo.after hostOps4 (W10 m ρ c) (Proc.devRef .tc main_arg10) = _
  untouched_by hostOps4
theorem p12_arg10 (c : Dev nD) : W12 m ρ c (Proc.devRef .tc main_arg10) = W11 m ρ c (Proc.devRef .tc main_arg10) := by
  show StableHlo.after hostOps4_1 (W11 m ρ c) (Proc.devRef .tc main_arg10) = _
  untouched_by hostOps4_1
theorem p13_arg10 (c : Dev nD) : W13 m ρ c (Proc.devRef .tc main_arg10) = W12 m ρ c (Proc.devRef .tc main_arg10) := by
  show StableHlo.after hostOps4_2 (W12 m ρ c) (Proc.devRef .tc main_arg10) = _
  untouched_by hostOps4_2
theorem c1_arg10 (c : Dev nD) : W1 m ρ c (Proc.devRef .tc main_arg10) = W0 m ρ c (Proc.devRef .tc main_arg10) :=
  p1_arg10 m ρ c
theorem c2_arg10 (c : Dev nD) : W2 m ρ c (Proc.devRef .tc main_arg10) = W0 m ρ c (Proc.devRef .tc main_arg10) :=
  (p2_arg10 m ρ c).trans (c1_arg10 m ρ c)
theorem c3_arg10 (c : Dev nD) : W3 m ρ c (Proc.devRef .tc main_arg10) = W0 m ρ c (Proc.devRef .tc main_arg10) :=
  (p3_arg10 m ρ c).trans (c2_arg10 m ρ c)
theorem c4_arg10 (c : Dev nD) : W4 m ρ c (Proc.devRef .tc main_arg10) = W0 m ρ c (Proc.devRef .tc main_arg10) :=
  (p4_arg10 m ρ c).trans (c3_arg10 m ρ c)
theorem c5_arg10 (c : Dev nD) : W5 m ρ c (Proc.devRef .tc main_arg10) = W0 m ρ c (Proc.devRef .tc main_arg10) :=
  (p5_arg10 m ρ c).trans (c4_arg10 m ρ c)
theorem c6_arg10 (c : Dev nD) : W6 m ρ c (Proc.devRef .tc main_arg10) = W0 m ρ c (Proc.devRef .tc main_arg10) :=
  (p6_arg10 m ρ c).trans (c5_arg10 m ρ c)
theorem c7_arg10 (c : Dev nD) : W7 m ρ c (Proc.devRef .tc main_arg10) = W0 m ρ c (Proc.devRef .tc main_arg10) :=
  (p7_arg10 m ρ c).trans (c6_arg10 m ρ c)
theorem c8_arg10 (c : Dev nD) : W8 m ρ c (Proc.devRef .tc main_arg10) = W0 m ρ c (Proc.devRef .tc main_arg10) :=
  (p8_arg10 m ρ c).trans (c7_arg10 m ρ c)
theorem c9_arg10 (c : Dev nD) : W9 m ρ c (Proc.devRef .tc main_arg10) = W0 m ρ c (Proc.devRef .tc main_arg10) :=
  (p9_arg10 m ρ c).trans (c8_arg10 m ρ c)
theorem c10_arg10 (c : Dev nD) : W10 m ρ c (Proc.devRef .tc main_arg10) = W0 m ρ c (Proc.devRef .tc main_arg10) :=
  (p10_arg10 m ρ c).trans (c9_arg10 m ρ c)
theorem c11_arg10 (c : Dev nD) : W11 m ρ c (Proc.devRef .tc main_arg10) = W0 m ρ c (Proc.devRef .tc main_arg10) :=
  (p11_arg10 m ρ c).trans (c10_arg10 m ρ c)
theorem c12_arg10 (c : Dev nD) : W12 m ρ c (Proc.devRef .tc main_arg10) = W0 m ρ c (Proc.devRef .tc main_arg10) :=
  (p12_arg10 m ρ c).trans (c11_arg10 m ρ c)
theorem c13_arg10 (c : Dev nD) : W13 m ρ c (Proc.devRef .tc main_arg10) = W0 m ρ c (Proc.devRef .tc main_arg10) :=
  (p13_arg10 m ρ c).trans (c12_arg10 m ρ c)

theorem p1_arg11 (c : Dev nD) : W1 m ρ c (Proc.devRef .tc main_arg11) = W0 m ρ c (Proc.devRef .tc main_arg11) := by
  show StableHlo.after hostOps0 (W0 m ρ c) (Proc.devRef .tc main_arg11) = _
  untouched_by hostOps0
theorem p2_arg11 (c : Dev nD) : W2 m ρ c (Proc.devRef .tc main_arg11) = W1 m ρ c (Proc.devRef .tc main_arg11) := by
  show StableHlo.after hostOps0_1 (W1 m ρ c) (Proc.devRef .tc main_arg11) = _
  untouched_by hostOps0_1
theorem p3_arg11 (c : Dev nD) : W3 m ρ c (Proc.devRef .tc main_arg11) = W2 m ρ c (Proc.devRef .tc main_arg11) := by
  show StableHlo.after hostOps0_2 (W2 m ρ c) (Proc.devRef .tc main_arg11) = _
  untouched_by hostOps0_2
theorem p4_arg11 (c : Dev nD) : W4 m ρ c (Proc.devRef .tc main_arg11) = W3 m ρ c (Proc.devRef .tc main_arg11) :=
  W4_of_ne m ρ c main_arg11 (by decide)
theorem p5_arg11 (c : Dev nD) : W5 m ρ c (Proc.devRef .tc main_arg11) = W4 m ρ c (Proc.devRef .tc main_arg11) := by
  show StableHlo.after hostOps1 (W4 m ρ c) (Proc.devRef .tc main_arg11) = _
  untouched_by hostOps1
theorem p6_arg11 (c : Dev nD) : W6 m ρ c (Proc.devRef .tc main_arg11) = W5 m ρ c (Proc.devRef .tc main_arg11) :=
  W6_of_ne m ρ c main_arg11 (by decide)
theorem p7_arg11 (c : Dev nD) : W7 m ρ c (Proc.devRef .tc main_arg11) = W6 m ρ c (Proc.devRef .tc main_arg11) := by
  show StableHlo.after hostOps2 (W6 m ρ c) (Proc.devRef .tc main_arg11) = _
  untouched_by hostOps2
theorem p8_arg11 (c : Dev nD) : W8 m ρ c (Proc.devRef .tc main_arg11) = W7 m ρ c (Proc.devRef .tc main_arg11) :=
  W8_of_ne m ρ c main_arg11 (by decide)
theorem p9_arg11 (c : Dev nD) : W9 m ρ c (Proc.devRef .tc main_arg11) = W8 m ρ c (Proc.devRef .tc main_arg11) := by
  show StableHlo.after hostOps3 (W8 m ρ c) (Proc.devRef .tc main_arg11) = _
  untouched_by hostOps3
theorem p10_arg11 (c : Dev nD) : W10 m ρ c (Proc.devRef .tc main_arg11) = W9 m ρ c (Proc.devRef .tc main_arg11) :=
  W10_of_ne m ρ c main_arg11 (by decide)
theorem p11_arg11 (c : Dev nD) : W11 m ρ c (Proc.devRef .tc main_arg11) = W10 m ρ c (Proc.devRef .tc main_arg11) := by
  show StableHlo.after hostOps4 (W10 m ρ c) (Proc.devRef .tc main_arg11) = _
  untouched_by hostOps4
theorem p12_arg11 (c : Dev nD) : W12 m ρ c (Proc.devRef .tc main_arg11) = W11 m ρ c (Proc.devRef .tc main_arg11) := by
  show StableHlo.after hostOps4_1 (W11 m ρ c) (Proc.devRef .tc main_arg11) = _
  untouched_by hostOps4_1
theorem p13_arg11 (c : Dev nD) : W13 m ρ c (Proc.devRef .tc main_arg11) = W12 m ρ c (Proc.devRef .tc main_arg11) := by
  show StableHlo.after hostOps4_2 (W12 m ρ c) (Proc.devRef .tc main_arg11) = _
  untouched_by hostOps4_2
theorem p14_arg11 (c : Dev nD) : W14 m ρ c (Proc.devRef .tc main_arg11) = W13 m ρ c (Proc.devRef .tc main_arg11) := by
  show StableHlo.after hostOps4_3 (W13 m ρ c) (Proc.devRef .tc main_arg11) = _
  untouched_by hostOps4_3
theorem p15_arg11 (c : Dev nD) : W15 m ρ c (Proc.devRef .tc main_arg11) = W14 m ρ c (Proc.devRef .tc main_arg11) := by
  show StableHlo.after hostOps4_4 (W14 m ρ c) (Proc.devRef .tc main_arg11) = _
  untouched_by hostOps4_4
theorem c1_arg11 (c : Dev nD) : W1 m ρ c (Proc.devRef .tc main_arg11) = W0 m ρ c (Proc.devRef .tc main_arg11) :=
  p1_arg11 m ρ c
theorem c2_arg11 (c : Dev nD) : W2 m ρ c (Proc.devRef .tc main_arg11) = W0 m ρ c (Proc.devRef .tc main_arg11) :=
  (p2_arg11 m ρ c).trans (c1_arg11 m ρ c)
theorem c3_arg11 (c : Dev nD) : W3 m ρ c (Proc.devRef .tc main_arg11) = W0 m ρ c (Proc.devRef .tc main_arg11) :=
  (p3_arg11 m ρ c).trans (c2_arg11 m ρ c)
theorem c4_arg11 (c : Dev nD) : W4 m ρ c (Proc.devRef .tc main_arg11) = W0 m ρ c (Proc.devRef .tc main_arg11) :=
  (p4_arg11 m ρ c).trans (c3_arg11 m ρ c)
theorem c5_arg11 (c : Dev nD) : W5 m ρ c (Proc.devRef .tc main_arg11) = W0 m ρ c (Proc.devRef .tc main_arg11) :=
  (p5_arg11 m ρ c).trans (c4_arg11 m ρ c)
theorem c6_arg11 (c : Dev nD) : W6 m ρ c (Proc.devRef .tc main_arg11) = W0 m ρ c (Proc.devRef .tc main_arg11) :=
  (p6_arg11 m ρ c).trans (c5_arg11 m ρ c)
theorem c7_arg11 (c : Dev nD) : W7 m ρ c (Proc.devRef .tc main_arg11) = W0 m ρ c (Proc.devRef .tc main_arg11) :=
  (p7_arg11 m ρ c).trans (c6_arg11 m ρ c)
theorem c8_arg11 (c : Dev nD) : W8 m ρ c (Proc.devRef .tc main_arg11) = W0 m ρ c (Proc.devRef .tc main_arg11) :=
  (p8_arg11 m ρ c).trans (c7_arg11 m ρ c)
theorem c9_arg11 (c : Dev nD) : W9 m ρ c (Proc.devRef .tc main_arg11) = W0 m ρ c (Proc.devRef .tc main_arg11) :=
  (p9_arg11 m ρ c).trans (c8_arg11 m ρ c)
theorem c10_arg11 (c : Dev nD) : W10 m ρ c (Proc.devRef .tc main_arg11) = W0 m ρ c (Proc.devRef .tc main_arg11) :=
  (p10_arg11 m ρ c).trans (c9_arg11 m ρ c)
theorem c11_arg11 (c : Dev nD) : W11 m ρ c (Proc.devRef .tc main_arg11) = W0 m ρ c (Proc.devRef .tc main_arg11) :=
  (p11_arg11 m ρ c).trans (c10_arg11 m ρ c)
theorem c12_arg11 (c : Dev nD) : W12 m ρ c (Proc.devRef .tc main_arg11) = W0 m ρ c (Proc.devRef .tc main_arg11) :=
  (p12_arg11 m ρ c).trans (c11_arg11 m ρ c)
theorem c13_arg11 (c : Dev nD) : W13 m ρ c (Proc.devRef .tc main_arg11) = W0 m ρ c (Proc.devRef .tc main_arg11) :=
  (p13_arg11 m ρ c).trans (c12_arg11 m ρ c)
theorem c14_arg11 (c : Dev nD) : W14 m ρ c (Proc.devRef .tc main_arg11) = W0 m ρ c (Proc.devRef .tc main_arg11) :=
  (p14_arg11 m ρ c).trans (c13_arg11 m ρ c)
theorem c15_arg11 (c : Dev nD) : W15 m ρ c (Proc.devRef .tc main_arg11) = W0 m ρ c (Proc.devRef .tc main_arg11) :=
  (p15_arg11 m ρ c).trans (c14_arg11 m ρ c)

theorem p2_v11 (c : Dev nD) : W2 m ρ c (Proc.devRef .tc main_v11) = W1 m ρ c (Proc.devRef .tc main_v11) := by
  show StableHlo.after hostOps0_1 (W1 m ρ c) (Proc.devRef .tc main_v11) = _
  untouched_by hostOps0_1
theorem p3_v11 (c : Dev nD) : W3 m ρ c (Proc.devRef .tc main_v11) = W2 m ρ c (Proc.devRef .tc main_v11) := by
  show StableHlo.after hostOps0_2 (W2 m ρ c) (Proc.devRef .tc main_v11) = _
  untouched_by hostOps0_2
theorem p4_v11 (c : Dev nD) : W4 m ρ c (Proc.devRef .tc main_v11) = W3 m ρ c (Proc.devRef .tc main_v11) :=
  W4_of_ne m ρ c main_v11 (by decide)
theorem p5_v11 (c : Dev nD) : W5 m ρ c (Proc.devRef .tc main_v11) = W4 m ρ c (Proc.devRef .tc main_v11) := by
  show StableHlo.after hostOps1 (W4 m ρ c) (Proc.devRef .tc main_v11) = _
  untouched_by hostOps1
theorem p6_v11 (c : Dev nD) : W6 m ρ c (Proc.devRef .tc main_v11) = W5 m ρ c (Proc.devRef .tc main_v11) :=
  (W6_arr m ρ c 2).trans (((dat1 (V5 m ρ) c).arrAt_in 2 rfl cfg1.N).trans (A_eq1 (V5 m ρ) c 2))
theorem p7_v11 (c : Dev nD) : W7 m ρ c (Proc.devRef .tc main_v11) = W6 m ρ c (Proc.devRef .tc main_v11) := by
  show StableHlo.after hostOps2 (W6 m ρ c) (Proc.devRef .tc main_v11) = _
  untouched_by hostOps2
theorem p8_v11 (c : Dev nD) : W8 m ρ c (Proc.devRef .tc main_v11) = W7 m ρ c (Proc.devRef .tc main_v11) :=
  W8_of_ne m ρ c main_v11 (by decide)
theorem p9_v11 (c : Dev nD) : W9 m ρ c (Proc.devRef .tc main_v11) = W8 m ρ c (Proc.devRef .tc main_v11) := by
  show StableHlo.after hostOps3 (W8 m ρ c) (Proc.devRef .tc main_v11) = _
  untouched_by hostOps3
theorem p10_v11 (c : Dev nD) : W10 m ρ c (Proc.devRef .tc main_v11) = W9 m ρ c (Proc.devRef .tc main_v11) :=
  (W10_arr m ρ c 2).trans (((dat3 (V9 m ρ) c).arrAt_in 2 rfl cfg3.N).trans (A_eq3 (V9 m ρ) c 2))
theorem p11_v11 (c : Dev nD) : W11 m ρ c (Proc.devRef .tc main_v11) = W10 m ρ c (Proc.devRef .tc main_v11) := by
  show StableHlo.after hostOps4 (W10 m ρ c) (Proc.devRef .tc main_v11) = _
  untouched_by hostOps4
theorem p12_v11 (c : Dev nD) : W12 m ρ c (Proc.devRef .tc main_v11) = W11 m ρ c (Proc.devRef .tc main_v11) := by
  show StableHlo.after hostOps4_1 (W11 m ρ c) (Proc.devRef .tc main_v11) = _
  untouched_by hostOps4_1
theorem p13_v11 (c : Dev nD) : W13 m ρ c (Proc.devRef .tc main_v11) = W12 m ρ c (Proc.devRef .tc main_v11) := by
  show StableHlo.after hostOps4_2 (W12 m ρ c) (Proc.devRef .tc main_v11) = _
  untouched_by hostOps4_2
theorem p14_v11 (c : Dev nD) : W14 m ρ c (Proc.devRef .tc main_v11) = W13 m ρ c (Proc.devRef .tc main_v11) := by
  show StableHlo.after hostOps4_3 (W13 m ρ c) (Proc.devRef .tc main_v11) = _
  untouched_by hostOps4_3
theorem p15_v11 (c : Dev nD) : W15 m ρ c (Proc.devRef .tc main_v11) = W14 m ρ c (Proc.devRef .tc main_v11) := by
  show StableHlo.after hostOps4_4 (W14 m ρ c) (Proc.devRef .tc main_v11) = _
  untouched_by hostOps4_4
theorem p16_v11 (c : Dev nD) : W16 m ρ c (Proc.devRef .tc main_v11) = W15 m ρ c (Proc.devRef .tc main_v11) := by
  show StableHlo.after hostOps4_5 (W15 m ρ c) (Proc.devRef .tc main_v11) = _
  untouched_by hostOps4_5
theorem p17_v11 (c : Dev nD) : W17 m ρ c (Proc.devRef .tc main_v11) = W16 m ρ c (Proc.devRef .tc main_v11) := by
  show StableHlo.after hostOps4_6 (W16 m ρ c) (Proc.devRef .tc main_v11) = _
  untouched_by hostOps4_6
theorem p18_v11 (c : Dev nD) : W18 m ρ c (Proc.devRef .tc main_v11) = W17 m ρ c (Proc.devRef .tc main_v11) :=
  W18_of_ne m ρ c main_v11 (by decide)
theorem p19_v11 (c : Dev nD) : W19 m ρ c (Proc.devRef .tc main_v11) = W18 m ρ c (Proc.devRef .tc main_v11) := by
  show StableHlo.after hostOps5 (W18 m ρ c) (Proc.devRef .tc main_v11) = _
  untouched_by hostOps5
theorem c2_v11 (c : Dev nD) : W2 m ρ c (Proc.devRef .tc main_v11) = W1 m ρ c (Proc.devRef .tc main_v11) :=
  p2_v11 m ρ c
theorem c3_v11 (c : Dev nD) : W3 m ρ c (Proc.devRef .tc main_v11) = W1 m ρ c (Proc.devRef .tc main_v11) :=
  (p3_v11 m ρ c).trans (c2_v11 m ρ c)
theorem c4_v11 (c : Dev nD) : W4 m ρ c (Proc.devRef .tc main_v11) = W1 m ρ c (Proc.devRef .tc main_v11) :=
  (p4_v11 m ρ c).trans (c3_v11 m ρ c)
theorem c5_v11 (c : Dev nD) : W5 m ρ c (Proc.devRef .tc main_v11) = W1 m ρ c (Proc.devRef .tc main_v11) :=
  (p5_v11 m ρ c).trans (c4_v11 m ρ c)
theorem c6_v11 (c : Dev nD) : W6 m ρ c (Proc.devRef .tc main_v11) = W1 m ρ c (Proc.devRef .tc main_v11) :=
  (p6_v11 m ρ c).trans (c5_v11 m ρ c)
theorem c7_v11 (c : Dev nD) : W7 m ρ c (Proc.devRef .tc main_v11) = W1 m ρ c (Proc.devRef .tc main_v11) :=
  (p7_v11 m ρ c).trans (c6_v11 m ρ c)
theorem c8_v11 (c : Dev nD) : W8 m ρ c (Proc.devRef .tc main_v11) = W1 m ρ c (Proc.devRef .tc main_v11) :=
  (p8_v11 m ρ c).trans (c7_v11 m ρ c)
theorem c9_v11 (c : Dev nD) : W9 m ρ c (Proc.devRef .tc main_v11) = W1 m ρ c (Proc.devRef .tc main_v11) :=
  (p9_v11 m ρ c).trans (c8_v11 m ρ c)
theorem c10_v11 (c : Dev nD) : W10 m ρ c (Proc.devRef .tc main_v11) = W1 m ρ c (Proc.devRef .tc main_v11) :=
  (p10_v11 m ρ c).trans (c9_v11 m ρ c)
theorem c11_v11 (c : Dev nD) : W11 m ρ c (Proc.devRef .tc main_v11) = W1 m ρ c (Proc.devRef .tc main_v11) :=
  (p11_v11 m ρ c).trans (c10_v11 m ρ c)
theorem c12_v11 (c : Dev nD) : W12 m ρ c (Proc.devRef .tc main_v11) = W1 m ρ c (Proc.devRef .tc main_v11) :=
  (p12_v11 m ρ c).trans (c11_v11 m ρ c)
theorem c13_v11 (c : Dev nD) : W13 m ρ c (Proc.devRef .tc main_v11) = W1 m ρ c (Proc.devRef .tc main_v11) :=
  (p13_v11 m ρ c).trans (c12_v11 m ρ c)
theorem c14_v11 (c : Dev nD) : W14 m ρ c (Proc.devRef .tc main_v11) = W1 m ρ c (Proc.devRef .tc main_v11) :=
  (p14_v11 m ρ c).trans (c13_v11 m ρ c)
theorem c15_v11 (c : Dev nD) : W15 m ρ c (Proc.devRef .tc main_v11) = W1 m ρ c (Proc.devRef .tc main_v11) :=
  (p15_v11 m ρ c).trans (c14_v11 m ρ c)
theorem c16_v11 (c : Dev nD) : W16 m ρ c (Proc.devRef .tc main_v11) = W1 m ρ c (Proc.devRef .tc main_v11) :=
  (p16_v11 m ρ c).trans (c15_v11 m ρ c)
theorem c17_v11 (c : Dev nD) : W17 m ρ c (Proc.devRef .tc main_v11) = W1 m ρ c (Proc.devRef .tc main_v11) :=
  (p17_v11 m ρ c).trans (c16_v11 m ρ c)
theorem c18_v11 (c : Dev nD) : W18 m ρ c (Proc.devRef .tc main_v11) = W1 m ρ c (Proc.devRef .tc main_v11) :=
  (p18_v11 m ρ c).trans (c17_v11 m ρ c)
theorem c19_v11 (c : Dev nD) : W19 m ρ c (Proc.devRef .tc main_v11) = W1 m ρ c (Proc.devRef .tc main_v11) :=
  (p19_v11 m ρ c).trans (c18_v11 m ρ c)

theorem p4_v13 (c : Dev nD) : W4 m ρ c (Proc.devRef .tc main_v13) = W3 m ρ c (Proc.devRef .tc main_v13) :=
  (W4_arr m ρ c 0).trans (((dat0 (V3 m ρ) c).arrAt_in 0 rfl cfg0.N).trans (A_eq0 (V3 m ρ) c 0))
theorem p5_v13 (c : Dev nD) : W5 m ρ c (Proc.devRef .tc main_v13) = W4 m ρ c (Proc.devRef .tc main_v13) := by
  show StableHlo.after hostOps1 (W4 m ρ c) (Proc.devRef .tc main_v13) = _
  untouched_by hostOps1
theorem c4_v13 (c : Dev nD) : W4 m ρ c (Proc.devRef .tc main_v13) = W3 m ρ c (Proc.devRef .tc main_v13) :=
  p4_v13 m ρ c
theorem c5_v13 (c : Dev nD) : W5 m ρ c (Proc.devRef .tc main_v13) = W3 m ρ c (Proc.devRef .tc main_v13) :=
  (p5_v13 m ρ c).trans (c4_v13 m ρ c)

theorem p4_v14 (c : Dev nD) : W4 m ρ c (Proc.devRef .tc main_v14) = W3 m ρ c (Proc.devRef .tc main_v14) :=
  W4_of_ne m ρ c main_v14 (by decide)
theorem p5_v14 (c : Dev nD) : W5 m ρ c (Proc.devRef .tc main_v14) = W4 m ρ c (Proc.devRef .tc main_v14) := by
  show StableHlo.after hostOps1 (W4 m ρ c) (Proc.devRef .tc main_v14) = _
  untouched_by hostOps1
theorem c4_v14 (c : Dev nD) : W4 m ρ c (Proc.devRef .tc main_v14) = W3 m ρ c (Proc.devRef .tc main_v14) :=
  p4_v14 m ρ c
theorem c5_v14 (c : Dev nD) : W5 m ρ c (Proc.devRef .tc main_v14) = W3 m ρ c (Proc.devRef .tc main_v14) :=
  (p5_v14 m ρ c).trans (c4_v14 m ρ c)

theorem p4_v16 (c : Dev nD) : W4 m ρ c (Proc.devRef .tc main_v16) = W3 m ρ c (Proc.devRef .tc main_v16) :=
  W4_of_ne m ρ c main_v16 (by decide)
theorem p5_v16 (c : Dev nD) : W5 m ρ c (Proc.devRef .tc main_v16) = W4 m ρ c (Proc.devRef .tc main_v16) := by
  show StableHlo.after hostOps1 (W4 m ρ c) (Proc.devRef .tc main_v16) = _
  untouched_by hostOps1
theorem c4_v16 (c : Dev nD) : W4 m ρ c (Proc.devRef .tc main_v16) = W3 m ρ c (Proc.devRef .tc main_v16) :=
  p4_v16 m ρ c
theorem c5_v16 (c : Dev nD) : W5 m ρ c (Proc.devRef .tc main_v16) = W3 m ρ c (Proc.devRef .tc main_v16) :=
  (p5_v16 m ρ c).trans (c4_v16 m ρ c)

theorem p7_v28 (c : Dev nD) : W7 m ρ c (Proc.devRef .tc main_v28) = W6 m ρ c (Proc.devRef .tc main_v28) := by
  show StableHlo.after hostOps2 (W6 m ρ c) (Proc.devRef .tc main_v28) = _
  untouched_by hostOps2
theorem p8_v28 (c : Dev nD) : W8 m ρ c (Proc.devRef .tc main_v28) = W7 m ρ c (Proc.devRef .tc main_v28) :=
  W8_of_ne m ρ c main_v28 (by decide)
theorem p9_v28 (c : Dev nD) : W9 m ρ c (Proc.devRef .tc main_v28) = W8 m ρ c (Proc.devRef .tc main_v28) := by
  show StableHlo.after hostOps3 (W8 m ρ c) (Proc.devRef .tc main_v28) = _
  untouched_by hostOps3
theorem p10_v28 (c : Dev nD) : W10 m ρ c (Proc.devRef .tc main_v28) = W9 m ρ c (Proc.devRef .tc main_v28) :=
  W10_of_ne m ρ c main_v28 (by decide)
theorem p11_v28 (c : Dev nD) : W11 m ρ c (Proc.devRef .tc main_v28) = W10 m ρ c (Proc.devRef .tc main_v28) := by
  show StableHlo.after hostOps4 (W10 m ρ c) (Proc.devRef .tc main_v28) = _
  untouched_by hostOps4
theorem p12_v28 (c : Dev nD) : W12 m ρ c (Proc.devRef .tc main_v28) = W11 m ρ c (Proc.devRef .tc main_v28) := by
  show StableHlo.after hostOps4_1 (W11 m ρ c) (Proc.devRef .tc main_v28) = _
  untouched_by hostOps4_1
theorem p13_v28 (c : Dev nD) : W13 m ρ c (Proc.devRef .tc main_v28) = W12 m ρ c (Proc.devRef .tc main_v28) := by
  show StableHlo.after hostOps4_2 (W12 m ρ c) (Proc.devRef .tc main_v28) = _
  untouched_by hostOps4_2
theorem p14_v28 (c : Dev nD) : W14 m ρ c (Proc.devRef .tc main_v28) = W13 m ρ c (Proc.devRef .tc main_v28) := by
  show StableHlo.after hostOps4_3 (W13 m ρ c) (Proc.devRef .tc main_v28) = _
  untouched_by hostOps4_3
theorem p15_v28 (c : Dev nD) : W15 m ρ c (Proc.devRef .tc main_v28) = W14 m ρ c (Proc.devRef .tc main_v28) := by
  show StableHlo.after hostOps4_4 (W14 m ρ c) (Proc.devRef .tc main_v28) = _
  untouched_by hostOps4_4
theorem p16_v28 (c : Dev nD) : W16 m ρ c (Proc.devRef .tc main_v28) = W15 m ρ c (Proc.devRef .tc main_v28) := by
  show StableHlo.after hostOps4_5 (W15 m ρ c) (Proc.devRef .tc main_v28) = _
  untouched_by hostOps4_5
theorem p17_v28 (c : Dev nD) : W17 m ρ c (Proc.devRef .tc main_v28) = W16 m ρ c (Proc.devRef .tc main_v28) := by
  show StableHlo.after hostOps4_6 (W16 m ρ c) (Proc.devRef .tc main_v28) = _
  untouched_by hostOps4_6
theorem p18_v28 (c : Dev nD) : W18 m ρ c (Proc.devRef .tc main_v28) = W17 m ρ c (Proc.devRef .tc main_v28) :=
  W18_of_ne m ρ c main_v28 (by decide)
theorem p19_v28 (c : Dev nD) : W19 m ρ c (Proc.devRef .tc main_v28) = W18 m ρ c (Proc.devRef .tc main_v28) := by
  show StableHlo.after hostOps5 (W18 m ρ c) (Proc.devRef .tc main_v28) = _
  untouched_by hostOps5
theorem p20_v28 (c : Dev nD) : W20 m ρ c (Proc.devRef .tc main_v28) = W19 m ρ c (Proc.devRef .tc main_v28) :=
  W20_of_ne m ρ c main_v28 (by decide)
theorem c7_v28 (c : Dev nD) : W7 m ρ c (Proc.devRef .tc main_v28) = W6 m ρ c (Proc.devRef .tc main_v28) :=
  p7_v28 m ρ c
theorem c8_v28 (c : Dev nD) : W8 m ρ c (Proc.devRef .tc main_v28) = W6 m ρ c (Proc.devRef .tc main_v28) :=
  (p8_v28 m ρ c).trans (c7_v28 m ρ c)
theorem c9_v28 (c : Dev nD) : W9 m ρ c (Proc.devRef .tc main_v28) = W6 m ρ c (Proc.devRef .tc main_v28) :=
  (p9_v28 m ρ c).trans (c8_v28 m ρ c)
theorem c10_v28 (c : Dev nD) : W10 m ρ c (Proc.devRef .tc main_v28) = W6 m ρ c (Proc.devRef .tc main_v28) :=
  (p10_v28 m ρ c).trans (c9_v28 m ρ c)
theorem c11_v28 (c : Dev nD) : W11 m ρ c (Proc.devRef .tc main_v28) = W6 m ρ c (Proc.devRef .tc main_v28) :=
  (p11_v28 m ρ c).trans (c10_v28 m ρ c)
theorem c12_v28 (c : Dev nD) : W12 m ρ c (Proc.devRef .tc main_v28) = W6 m ρ c (Proc.devRef .tc main_v28) :=
  (p12_v28 m ρ c).trans (c11_v28 m ρ c)
theorem c13_v28 (c : Dev nD) : W13 m ρ c (Proc.devRef .tc main_v28) = W6 m ρ c (Proc.devRef .tc main_v28) :=
  (p13_v28 m ρ c).trans (c12_v28 m ρ c)
theorem c14_v28 (c : Dev nD) : W14 m ρ c (Proc.devRef .tc main_v28) = W6 m ρ c (Proc.devRef .tc main_v28) :=
  (p14_v28 m ρ c).trans (c13_v28 m ρ c)
theorem c15_v28 (c : Dev nD) : W15 m ρ c (Proc.devRef .tc main_v28) = W6 m ρ c (Proc.devRef .tc main_v28) :=
  (p15_v28 m ρ c).trans (c14_v28 m ρ c)
theorem c16_v28 (c : Dev nD) : W16 m ρ c (Proc.devRef .tc main_v28) = W6 m ρ c (Proc.devRef .tc main_v28) :=
  (p16_v28 m ρ c).trans (c15_v28 m ρ c)
theorem c17_v28 (c : Dev nD) : W17 m ρ c (Proc.devRef .tc main_v28) = W6 m ρ c (Proc.devRef .tc main_v28) :=
  (p17_v28 m ρ c).trans (c16_v28 m ρ c)
theorem c18_v28 (c : Dev nD) : W18 m ρ c (Proc.devRef .tc main_v28) = W6 m ρ c (Proc.devRef .tc main_v28) :=
  (p18_v28 m ρ c).trans (c17_v28 m ρ c)
theorem c19_v28 (c : Dev nD) : W19 m ρ c (Proc.devRef .tc main_v28) = W6 m ρ c (Proc.devRef .tc main_v28) :=
  (p19_v28 m ρ c).trans (c18_v28 m ρ c)
theorem c20_v28 (c : Dev nD) : W20 m ρ c (Proc.devRef .tc main_v28) = W6 m ρ c (Proc.devRef .tc main_v28) :=
  (p20_v28 m ρ c).trans (c19_v28 m ρ c)

theorem p8_v29 (c : Dev nD) : W8 m ρ c (Proc.devRef .tc main_v29) = W7 m ρ c (Proc.devRef .tc main_v29) :=
  (W8_arr m ρ c 0).trans (((dat2 (V7 m ρ) c).arrAt_in 0 rfl cfg2.N).trans (A_eq2 (V7 m ρ) c 0))
theorem p9_v29 (c : Dev nD) : W9 m ρ c (Proc.devRef .tc main_v29) = W8 m ρ c (Proc.devRef .tc main_v29) := by
  show StableHlo.after hostOps3 (W8 m ρ c) (Proc.devRef .tc main_v29) = _
  untouched_by hostOps3
theorem c8_v29 (c : Dev nD) : W8 m ρ c (Proc.devRef .tc main_v29) = W7 m ρ c (Proc.devRef .tc main_v29) :=
  p8_v29 m ρ c
theorem c9_v29 (c : Dev nD) : W9 m ρ c (Proc.devRef .tc main_v29) = W7 m ρ c (Proc.devRef .tc main_v29) :=
  (p9_v29 m ρ c).trans (c8_v29 m ρ c)

theorem p8_v30 (c : Dev nD) : W8 m ρ c (Proc.devRef .tc main_v30) = W7 m ρ c (Proc.devRef .tc main_v30) :=
  W8_of_ne m ρ c main_v30 (by decide)
theorem p9_v30 (c : Dev nD) : W9 m ρ c (Proc.devRef .tc main_v30) = W8 m ρ c (Proc.devRef .tc main_v30) := by
  show StableHlo.after hostOps3 (W8 m ρ c) (Proc.devRef .tc main_v30) = _
  untouched_by hostOps3
theorem c8_v30 (c : Dev nD) : W8 m ρ c (Proc.devRef .tc main_v30) = W7 m ρ c (Proc.devRef .tc main_v30) :=
  p8_v30 m ρ c
theorem c9_v30 (c : Dev nD) : W9 m ρ c (Proc.devRef .tc main_v30) = W7 m ρ c (Proc.devRef .tc main_v30) :=
  (p9_v30 m ρ c).trans (c8_v30 m ρ c)

theorem p8_v32 (c : Dev nD) : W8 m ρ c (Proc.devRef .tc main_v32) = W7 m ρ c (Proc.devRef .tc main_v32) :=
  W8_of_ne m ρ c main_v32 (by decide)
theorem p9_v32 (c : Dev nD) : W9 m ρ c (Proc.devRef .tc main_v32) = W8 m ρ c (Proc.devRef .tc main_v32) := by
  show StableHlo.after hostOps3 (W8 m ρ c) (Proc.devRef .tc main_v32) = _
  untouched_by hostOps3
theorem c8_v32 (c : Dev nD) : W8 m ρ c (Proc.devRef .tc main_v32) = W7 m ρ c (Proc.devRef .tc main_v32) :=
  p8_v32 m ρ c
theorem c9_v32 (c : Dev nD) : W9 m ρ c (Proc.devRef .tc main_v32) = W7 m ρ c (Proc.devRef .tc main_v32) :=
  (p9_v32 m ρ c).trans (c8_v32 m ρ c)

theorem p11_v44 (c : Dev nD) : W11 m ρ c (Proc.devRef .tc main_v44) = W10 m ρ c (Proc.devRef .tc main_v44) := by
  show StableHlo.after hostOps4 (W10 m ρ c) (Proc.devRef .tc main_v44) = _
  untouched_by hostOps4
theorem p12_v44 (c : Dev nD) : W12 m ρ c (Proc.devRef .tc main_v44) = W11 m ρ c (Proc.devRef .tc main_v44) := by
  show StableHlo.after hostOps4_1 (W11 m ρ c) (Proc.devRef .tc main_v44) = _
  untouched_by hostOps4_1
theorem p13_v44 (c : Dev nD) : W13 m ρ c (Proc.devRef .tc main_v44) = W12 m ρ c (Proc.devRef .tc main_v44) := by
  show StableHlo.after hostOps4_2 (W12 m ρ c) (Proc.devRef .tc main_v44) = _
  untouched_by hostOps4_2
theorem p14_v44 (c : Dev nD) : W14 m ρ c (Proc.devRef .tc main_v44) = W13 m ρ c (Proc.devRef .tc main_v44) := by
  show StableHlo.after hostOps4_3 (W13 m ρ c) (Proc.devRef .tc main_v44) = _
  untouched_by hostOps4_3
theorem p15_v44 (c : Dev nD) : W15 m ρ c (Proc.devRef .tc main_v44) = W14 m ρ c (Proc.devRef .tc main_v44) := by
  show StableHlo.after hostOps4_4 (W14 m ρ c) (Proc.devRef .tc main_v44) = _
  untouched_by hostOps4_4
theorem p16_v44 (c : Dev nD) : W16 m ρ c (Proc.devRef .tc main_v44) = W15 m ρ c (Proc.devRef .tc main_v44) := by
  show StableHlo.after hostOps4_5 (W15 m ρ c) (Proc.devRef .tc main_v44) = _
  untouched_by hostOps4_5
theorem p17_v44 (c : Dev nD) : W17 m ρ c (Proc.devRef .tc main_v44) = W16 m ρ c (Proc.devRef .tc main_v44) := by
  show StableHlo.after hostOps4_6 (W16 m ρ c) (Proc.devRef .tc main_v44) = _
  untouched_by hostOps4_6
theorem p18_v44 (c : Dev nD) : W18 m ρ c (Proc.devRef .tc main_v44) = W17 m ρ c (Proc.devRef .tc main_v44) :=
  W18_of_ne m ρ c main_v44 (by decide)
theorem p19_v44 (c : Dev nD) : W19 m ρ c (Proc.devRef .tc main_v44) = W18 m ρ c (Proc.devRef .tc main_v44) := by
  show StableHlo.after hostOps5 (W18 m ρ c) (Proc.devRef .tc main_v44) = _
  untouched_by hostOps5
theorem p20_v44 (c : Dev nD) : W20 m ρ c (Proc.devRef .tc main_v44) = W19 m ρ c (Proc.devRef .tc main_v44) :=
  W20_of_ne m ρ c main_v44 (by decide)
theorem c11_v44 (c : Dev nD) : W11 m ρ c (Proc.devRef .tc main_v44) = W10 m ρ c (Proc.devRef .tc main_v44) :=
  p11_v44 m ρ c
theorem c12_v44 (c : Dev nD) : W12 m ρ c (Proc.devRef .tc main_v44) = W10 m ρ c (Proc.devRef .tc main_v44) :=
  (p12_v44 m ρ c).trans (c11_v44 m ρ c)
theorem c13_v44 (c : Dev nD) : W13 m ρ c (Proc.devRef .tc main_v44) = W10 m ρ c (Proc.devRef .tc main_v44) :=
  (p13_v44 m ρ c).trans (c12_v44 m ρ c)
theorem c14_v44 (c : Dev nD) : W14 m ρ c (Proc.devRef .tc main_v44) = W10 m ρ c (Proc.devRef .tc main_v44) :=
  (p14_v44 m ρ c).trans (c13_v44 m ρ c)
theorem c15_v44 (c : Dev nD) : W15 m ρ c (Proc.devRef .tc main_v44) = W10 m ρ c (Proc.devRef .tc main_v44) :=
  (p15_v44 m ρ c).trans (c14_v44 m ρ c)
theorem c16_v44 (c : Dev nD) : W16 m ρ c (Proc.devRef .tc main_v44) = W10 m ρ c (Proc.devRef .tc main_v44) :=
  (p16_v44 m ρ c).trans (c15_v44 m ρ c)
theorem c17_v44 (c : Dev nD) : W17 m ρ c (Proc.devRef .tc main_v44) = W10 m ρ c (Proc.devRef .tc main_v44) :=
  (p17_v44 m ρ c).trans (c16_v44 m ρ c)
theorem c18_v44 (c : Dev nD) : W18 m ρ c (Proc.devRef .tc main_v44) = W10 m ρ c (Proc.devRef .tc main_v44) :=
  (p18_v44 m ρ c).trans (c17_v44 m ρ c)
theorem c19_v44 (c : Dev nD) : W19 m ρ c (Proc.devRef .tc main_v44) = W10 m ρ c (Proc.devRef .tc main_v44) :=
  (p19_v44 m ρ c).trans (c18_v44 m ρ c)
theorem c20_v44 (c : Dev nD) : W20 m ρ c (Proc.devRef .tc main_v44) = W10 m ρ c (Proc.devRef .tc main_v44) :=
  (p20_v44 m ρ c).trans (c19_v44 m ρ c)

theorem p12_v45 (c : Dev nD) : W12 m ρ c (Proc.devRef .tc main_v45) = W11 m ρ c (Proc.devRef .tc main_v45) := by
  show StableHlo.after hostOps4_1 (W11 m ρ c) (Proc.devRef .tc main_v45) = _
  untouched_by hostOps4_1
theorem p13_v45 (c : Dev nD) : W13 m ρ c (Proc.devRef .tc main_v45) = W12 m ρ c (Proc.devRef .tc main_v45) := by
  show StableHlo.after hostOps4_2 (W12 m ρ c) (Proc.devRef .tc main_v45) = _
  untouched_by hostOps4_2
theorem p14_v45 (c : Dev nD) : W14 m ρ c (Proc.devRef .tc main_v45) = W13 m ρ c (Proc.devRef .tc main_v45) := by
  show StableHlo.after hostOps4_3 (W13 m ρ c) (Proc.devRef .tc main_v45) = _
  untouched_by hostOps4_3
theorem p15_v45 (c : Dev nD) : W15 m ρ c (Proc.devRef .tc main_v45) = W14 m ρ c (Proc.devRef .tc main_v45) := by
  show StableHlo.after hostOps4_4 (W14 m ρ c) (Proc.devRef .tc main_v45) = _
  untouched_by hostOps4_4
theorem p16_v45 (c : Dev nD) : W16 m ρ c (Proc.devRef .tc main_v45) = W15 m ρ c (Proc.devRef .tc main_v45) := by
  show StableHlo.after hostOps4_5 (W15 m ρ c) (Proc.devRef .tc main_v45) = _
  untouched_by hostOps4_5
theorem p17_v45 (c : Dev nD) : W17 m ρ c (Proc.devRef .tc main_v45) = W16 m ρ c (Proc.devRef .tc main_v45) := by
  show StableHlo.after hostOps4_6 (W16 m ρ c) (Proc.devRef .tc main_v45) = _
  untouched_by hostOps4_6
theorem p18_v45 (c : Dev nD) : W18 m ρ c (Proc.devRef .tc main_v45) = W17 m ρ c (Proc.devRef .tc main_v45) :=
  (W18_arr m ρ c 0).trans (((dat4 (V17 m ρ) c).arrAt_in 0 rfl cfg4.N).trans (A_eq4 (V17 m ρ) c 0))
theorem p19_v45 (c : Dev nD) : W19 m ρ c (Proc.devRef .tc main_v45) = W18 m ρ c (Proc.devRef .tc main_v45) := by
  show StableHlo.after hostOps5 (W18 m ρ c) (Proc.devRef .tc main_v45) = _
  untouched_by hostOps5
theorem c12_v45 (c : Dev nD) : W12 m ρ c (Proc.devRef .tc main_v45) = W11 m ρ c (Proc.devRef .tc main_v45) :=
  p12_v45 m ρ c
theorem c13_v45 (c : Dev nD) : W13 m ρ c (Proc.devRef .tc main_v45) = W11 m ρ c (Proc.devRef .tc main_v45) :=
  (p13_v45 m ρ c).trans (c12_v45 m ρ c)
theorem c14_v45 (c : Dev nD) : W14 m ρ c (Proc.devRef .tc main_v45) = W11 m ρ c (Proc.devRef .tc main_v45) :=
  (p14_v45 m ρ c).trans (c13_v45 m ρ c)
theorem c15_v45 (c : Dev nD) : W15 m ρ c (Proc.devRef .tc main_v45) = W11 m ρ c (Proc.devRef .tc main_v45) :=
  (p15_v45 m ρ c).trans (c14_v45 m ρ c)
theorem c16_v45 (c : Dev nD) : W16 m ρ c (Proc.devRef .tc main_v45) = W11 m ρ c (Proc.devRef .tc main_v45) :=
  (p16_v45 m ρ c).trans (c15_v45 m ρ c)
theorem c17_v45 (c : Dev nD) : W17 m ρ c (Proc.devRef .tc main_v45) = W11 m ρ c (Proc.devRef .tc main_v45) :=
  (p17_v45 m ρ c).trans (c16_v45 m ρ c)
theorem c18_v45 (c : Dev nD) : W18 m ρ c (Proc.devRef .tc main_v45) = W11 m ρ c (Proc.devRef .tc main_v45) :=
  (p18_v45 m ρ c).trans (c17_v45 m ρ c)
theorem c19_v45 (c : Dev nD) : W19 m ρ c (Proc.devRef .tc main_v45) = W11 m ρ c (Proc.devRef .tc main_v45) :=
  (p19_v45 m ρ c).trans (c18_v45 m ρ c)

theorem p14_v47 (c : Dev nD) : W14 m ρ c (Proc.devRef .tc main_v47) = W13 m ρ c (Proc.devRef .tc main_v47) := by
  show StableHlo.after hostOps4_3 (W13 m ρ c) (Proc.devRef .tc main_v47) = _
  untouched_by hostOps4_3
theorem p15_v47 (c : Dev nD) : W15 m ρ c (Proc.devRef .tc main_v47) = W14 m ρ c (Proc.devRef .tc main_v47) := by
  show StableHlo.after hostOps4_4 (W14 m ρ c) (Proc.devRef .tc main_v47) = _
  untouched_by hostOps4_4
theorem p16_v47 (c : Dev nD) : W16 m ρ c (Proc.devRef .tc main_v47) = W15 m ρ c (Proc.devRef .tc main_v47) := by
  show StableHlo.after hostOps4_5 (W15 m ρ c) (Proc.devRef .tc main_v47) = _
  untouched_by hostOps4_5
theorem p17_v47 (c : Dev nD) : W17 m ρ c (Proc.devRef .tc main_v47) = W16 m ρ c (Proc.devRef .tc main_v47) := by
  show StableHlo.after hostOps4_6 (W16 m ρ c) (Proc.devRef .tc main_v47) = _
  untouched_by hostOps4_6
theorem p18_v47 (c : Dev nD) : W18 m ρ c (Proc.devRef .tc main_v47) = W17 m ρ c (Proc.devRef .tc main_v47) :=
  W18_of_ne m ρ c main_v47 (by decide)
theorem p19_v47 (c : Dev nD) : W19 m ρ c (Proc.devRef .tc main_v47) = W18 m ρ c (Proc.devRef .tc main_v47) := by
  show StableHlo.after hostOps5 (W18 m ρ c) (Proc.devRef .tc main_v47) = _
  untouched_by hostOps5
theorem c14_v47 (c : Dev nD) : W14 m ρ c (Proc.devRef .tc main_v47) = W13 m ρ c (Proc.devRef .tc main_v47) :=
  p14_v47 m ρ c
theorem c15_v47 (c : Dev nD) : W15 m ρ c (Proc.devRef .tc main_v47) = W13 m ρ c (Proc.devRef .tc main_v47) :=
  (p15_v47 m ρ c).trans (c14_v47 m ρ c)
theorem c16_v47 (c : Dev nD) : W16 m ρ c (Proc.devRef .tc main_v47) = W13 m ρ c (Proc.devRef .tc main_v47) :=
  (p16_v47 m ρ c).trans (c15_v47 m ρ c)
theorem c17_v47 (c : Dev nD) : W17 m ρ c (Proc.devRef .tc main_v47) = W13 m ρ c (Proc.devRef .tc main_v47) :=
  (p17_v47 m ρ c).trans (c16_v47 m ρ c)
theorem c18_v47 (c : Dev nD) : W18 m ρ c (Proc.devRef .tc main_v47) = W13 m ρ c (Proc.devRef .tc main_v47) :=
  (p18_v47 m ρ c).trans (c17_v47 m ρ c)
theorem c19_v47 (c : Dev nD) : W19 m ρ c (Proc.devRef .tc main_v47) = W13 m ρ c (Proc.devRef .tc main_v47) :=
  (p19_v47 m ρ c).trans (c18_v47 m ρ c)

theorem p16_v49 (c : Dev nD) : W16 m ρ c (Proc.devRef .tc main_v49) = W15 m ρ c (Proc.devRef .tc main_v49) := by
  show StableHlo.after hostOps4_5 (W15 m ρ c) (Proc.devRef .tc main_v49) = _
  untouched_by hostOps4_5
theorem p17_v49 (c : Dev nD) : W17 m ρ c (Proc.devRef .tc main_v49) = W16 m ρ c (Proc.devRef .tc main_v49) := by
  show StableHlo.after hostOps4_6 (W16 m ρ c) (Proc.devRef .tc main_v49) = _
  untouched_by hostOps4_6
theorem c16_v49 (c : Dev nD) : W16 m ρ c (Proc.devRef .tc main_v49) = W15 m ρ c (Proc.devRef .tc main_v49) :=
  p16_v49 m ρ c
theorem c17_v49 (c : Dev nD) : W17 m ρ c (Proc.devRef .tc main_v49) = W15 m ρ c (Proc.devRef .tc main_v49) :=
  (p17_v49 m ρ c).trans (c16_v49 m ρ c)

theorem p18_v51 (c : Dev nD) : W18 m ρ c (Proc.devRef .tc main_v51) = W17 m ρ c (Proc.devRef .tc main_v51) :=
  W18_of_ne m ρ c main_v51 (by decide)
theorem p19_v51 (c : Dev nD) : W19 m ρ c (Proc.devRef .tc main_v51) = W18 m ρ c (Proc.devRef .tc main_v51) := by
  show StableHlo.after hostOps5 (W18 m ρ c) (Proc.devRef .tc main_v51) = _
  untouched_by hostOps5
theorem c18_v51 (c : Dev nD) : W18 m ρ c (Proc.devRef .tc main_v51) = W17 m ρ c (Proc.devRef .tc main_v51) :=
  p18_v51 m ρ c
theorem c19_v51 (c : Dev nD) : W19 m ρ c (Proc.devRef .tc main_v51) = W17 m ρ c (Proc.devRef .tc main_v51) :=
  (p19_v51 m ρ c).trans (c18_v51 m ρ c)

end Cert.KernelIdeal.Pass

end
-- ==== Proof.LibPrefixSet.lean ====
/-
  Overwriting a prefix of a vector, read at an entry of the prefix.

  Scattering a vector `upd` of M entries into a vector `x` of N ≥ M entries as ONE window placed at a start index that
  is zero, each update replacing the entry it lands on, leaves entry p < M of the result at `upd p`: update p lands on
  entry p, no other update lands there, and the updates are applied one after the other.
-/
import Idealize.ShloMosaic.Lib.ValueIdx
import Idealize.ShloMosaic.PureOps.ShapeOps

noncomputable section

namespace PrefixSet

open Idealize.ShloMosaic Idealize.ShloMosaic.ValueIdx

/-- The dimension numbers of a one-window scatter of an M-vector into an N-vector at one start index. -/
abbrev setDims (N M : Nat) (wf : ScatterDims.WF ⟨1, ![N]⟩ ⟨1, ![1]⟩ ⟨1, ![M]⟩ [0] [] [0] 0) :
    ScatterDims ⟨1, ![N]⟩ ⟨1, ![1]⟩ ⟨1, ![M]⟩ where
  updateWindowDims := [0]
  insertedWindowDims := []
  scatterDimsToOperandDims := [0]
  indexVectorDim := 0
  wf := wf

/-! ## Successive overwrites of a function's values -/

section Overwrite
variable {ι κ β : Type} [DecidableEq ι] (pos : κ → ι) (val : κ → β)

/-- An entry no write of the list lands on keeps its value. -/
theorem foldl_write_of_not_mem (i : ι) :
    ∀ (l : List κ) (x : ι → β), (∀ n ∈ l, pos n ≠ i) →
      (l.foldl (fun r n => fun i' => if i' = pos n then val n else r i') x) i = x i := by
  intro l
  induction l with
  | nil => intro x _; rfl
  | cons a l ih =>
    intro x h
    rw [List.foldl_cons, ih _ fun n hn => h n (List.mem_cons_of_mem a hn)]
    exact if_neg fun e => h a (List.mem_cons_self ..) e.symm

/-- With the positions pairwise distinct and no write repeated, the entry write n0 lands on ends at write n0's value. -/
theorem foldl_write_of_mem (hpos : Function.Injective pos) (n0 : κ) :
    ∀ (l : List κ) (x : ι → β), l.Nodup → n0 ∈ l →
      (l.foldl (fun r n => fun i' => if i' = pos n then val n else r i') x) (pos n0) = val n0 := by
  intro l
  induction l with
  | nil => intro x _ h; exact absurd h List.not_mem_nil
  | cons a l ih =>
    intro x hnd hmem
    rw [List.foldl_cons]
    rcases List.mem_cons.mp hmem with rfl | hin
    · rw [foldl_write_of_not_mem pos val (pos n0) l _ fun n hn e =>
        (List.nodup_cons.mp hnd).1 (hpos e ▸ hn)]
      exact if_pos rfl
    · exact ih _ (List.nodup_cons.mp hnd).2 hin

end Overwrite

/-! ## Where an update lands -/

section Landing
variable {N M w : Nat} (wf : ScatterDims.WF ⟨1, ![N]⟩ ⟨1, ![1]⟩ ⟨1, ![M]⟩ [0] [] [0] 0) (idx : IVec ⟨1, ![1]⟩ w)

/-- The window starts at the one start index, read signed. -/
theorem start_zero (j : (⟨1, ![M]⟩ : Shape).Idx) :
    (setDims N M wf).start j idx 0 = (idx (ix1 ⟨0, Nat.one_pos⟩)).toInt := by
  unfold ScatterDims.start
  rw [dif_pos (show (0 : Fin 1) ∈ (setDims N M wf).scatterDimsToOperandDims from List.mem_singleton.mpr rfl)]
  have hsi : (setDims N M wf).siIdx j ⟨List.idxOf (0 : Fin 1) (setDims N M wf).scatterDimsToOperandDims,
      List.idxOf_lt_length_iff.2 (List.mem_singleton.mpr rfl)⟩ = ix1 ⟨0, Nat.one_pos⟩ := by
    funext b; refine Fin.ext ?_
    match b with
    | ⟨0, _⟩ => rfl
  rw [hsi]

/-- The one axis carries the update's coordinate. -/
theorem window_zero (j : (⟨1, ![M]⟩ : Shape).Idx) : (setDims N M wf).window j 0 = (j 0).val := by
  unfold ScatterDims.window
  rw [dif_pos (show (0 : Fin 1) ∈ (setDims N M wf).sKept from
    List.mem_filter.mpr ⟨List.mem_finRange _, by simp⟩)]
  rfl

/-- With the start index zero, update j lands on entry j: every update is inside the operand. -/
theorem landing (hMN : M ≤ N) (h0 : (idx (ix1 ⟨0, Nat.one_pos⟩)).toInt = 0) (j : (⟨1, ![M]⟩ : Shape).Idx) :
    (setDims N M wf).resultIdx? j idx
      = some (ix1 ⟨(j 0).val, Nat.lt_of_lt_of_le (j 0).isLt hMN⟩) := by
  have hj : (j 0).val < M := (j 0).isLt
  unfold ScatterDims.resultIdx?
  have hin : ∀ a : Fin 1, 0 ≤ (setDims N M wf).start j idx a + (setDims N M wf).window j a
      ∧ (setDims N M wf).start j idx a + (setDims N M wf).window j a < ((⟨1, ![N]⟩ : Shape).size a : ℤ) := by
    intro a
    match a with
    | ⟨0, _⟩ =>
      show 0 ≤ (setDims N M wf).start j idx 0 + (setDims N M wf).window j 0
        ∧ (setDims N M wf).start j idx 0 + (setDims N M wf).window j 0 < (N : ℤ)
      rw [start_zero wf idx j, window_zero wf j, h0]
      omega
  rw [dif_pos hin]
  congr 1
  funext a
  refine Fin.ext ?_
  match a with
  | ⟨0, _⟩ =>
    show ((setDims N M wf).start j idx 0 + (setDims N M wf).window j 0).toNat = (j 0).val
    rw [start_zero wf idx j, window_zero wf j, h0]
    omega

end Landing

/-- Entry p < M after the window of updates is written at start 0 is update p. -/
theorem scatter_set_prefix_apply {α : Type} {N M w : Nat} (wf : ScatterDims.WF ⟨1, ![N]⟩ ⟨1, ![1]⟩ ⟨1, ![M]⟩ [0] [] [0] 0)
    (hMN : M ≤ N) (x : (⟨1, ![N]⟩ : Shape).Idx → α) (idx : IVec ⟨1, ![1]⟩ w)
    (h0 : (idx (ix1 ⟨0, Nat.one_pos⟩)).toInt = 0) (upd : (⟨1, ![M]⟩ : Shape).Idx → α) (p : Fin M) :
    Host.scatter (setDims N M wf) (fun _ b => b) x idx upd (ix1 ⟨p.val, by omega⟩) = upd (ix1 p) := by
  -- the entry the n-th update (in row-major order) lands on, and the value it writes
  let pos : Fin (⟨1, ![M]⟩ : Shape).numel → (⟨1, ![N]⟩ : Shape).Idx := fun n =>
    ix1 ⟨(((⟨1, ![M]⟩ : Shape).rowMajor.symm n) 0).val,
      Nat.lt_of_lt_of_le (((⟨1, ![M]⟩ : Shape).rowMajor.symm n) 0).isLt hMN⟩
  let val : Fin (⟨1, ![M]⟩ : Shape).numel → α := fun n => upd ((⟨1, ![M]⟩ : Shape).rowMajor.symm n)
  -- distinct updates land on distinct entries
  have hpos : Function.Injective pos := by
    intro a b e
    have e0 : (((⟨1, ![M]⟩ : Shape).rowMajor.symm a) 0).val = (((⟨1, ![M]⟩ : Shape).rowMajor.symm b) 0).val :=
      congrArg (fun f : (⟨1, ![N]⟩ : Shape).Idx => (f 0).val) e
    refine (⟨1, ![M]⟩ : Shape).rowMajor.symm.injective ?_
    rw [eq_ix1 ((⟨1, ![M]⟩ : Shape).rowMajor.symm a), eq_ix1 ((⟨1, ![M]⟩ : Shape).rowMajor.symm b)]
    exact congrArg ix1 (Fin.ext e0)
  -- one step of the scatter is one overwrite
  have hfold : Host.scatter (setDims N M wf) (fun _ b => b) x idx upd
      = (List.finRange (⟨1, ![M]⟩ : Shape).numel).foldl (fun r n => fun i' => if i' = pos n then val n else r i') x := by
    unfold Host.scatter
    congr 1
    funext r n
    rw [landing wf idx hMN h0]
  have hp : pos ((⟨1, ![M]⟩ : Shape).rowMajor (ix1 p)) = ix1 ⟨p.val, by omega⟩ := by
    show ix1 _ = ix1 _
    refine congrArg ix1 (Fin.ext ?_)
    show (((⟨1, ![M]⟩ : Shape).rowMajor.symm ((⟨1, ![M]⟩ : Shape).rowMajor (ix1 p))) 0).val = p.val
    rw [Equiv.symm_apply_apply]
    rfl
  have hv : val ((⟨1, ![M]⟩ : Shape).rowMajor (ix1 p)) = upd (ix1 p) := by
    show upd _ = upd _
    rw [Equiv.symm_apply_apply]
  rw [hfold, ← hp, ← hv]
  exact foldl_write_of_mem pos val hpos _ _ x (List.nodup_finRange _) (List.mem_finRange _)

end PrefixSet

end
-- ==== Proof.KerLayer.lean ====
/-
  The kernel program's host-side pieces of a layer as functions of arrays, read at an entry.

  `agg hn src dst`   gathers the rows of the 51200×128 matrix hn along the edges' sources and scatter-adds them into the
                    edges' destinations: entry (p, q) is Σ_{e into p} hn[src e, q].
  `deg dst`          the guarded in-degree max(#into v, 1) of the 50000 nodes.
  `dinv dst`         the 51200×1 column holding 1/deg[v] in its first 50000 rows.
  With every source id a row number below 50000, the wrap of negative ids and the gather's clamp are both the identity.
-/
import proofs.«411817_j9139690406075_3_alg».proof.Proof.Gen.KernelIdeal
import proofs.«411817_j9139690406075_3_alg».proof.Proof.SageSpec
import proofs.«411817_j9139690406075_3_alg».proof.Proof.LibRowOps
import proofs.«411817_j9139690406075_3_alg».proof.Proof.LibPrefixSet
import Idealize.ShloMosaic.Lib.Pipeline.Value
import Idealize.ShloMosaic.Lib.StableHlo.Predicate
import Idealize.ShloMosaic.Lib.ValueIdx
import Idealize.ShloMosaic.PureOps.Ideal.Laws

noncomputable section

namespace Cert.KernelIdeal.KerLayer

open Cert.KernelIdeal Cert.KernelIdeal.Gen Idealize.ShloMosaic Idealize.ShloMosaic.ValueIdx

/-- The source ids as the gather takes them: a negative id counted from the end of the 51200 rows, as a column. -/
def srcIdx (src : IVec S800000 32) : IVec S800000x1 32 :=
  broadcastInDim S800000x1 ![0] bcast_S800000_S800000x1_0 (select (cmpi .slt src (broadcastInDim S800000 ![] bcast_S_S800000 (constantI S_ 32 0#32))) (addi src (broadcastInDim S800000 ![] bcast_S_S800000 (constantI S_ 32 51200#32))) src)

/-- The destination ids as a column. -/
def dstIdx (dst : IVec S800000 32) : IVec S800000x1 32 := broadcastInDim S800000x1 ![0] bcast_S800000_S800000x1_0 dst

/-- The guarded in-degree: the number of edges into each node, at least one. -/
def deg (dst : IVec S800000 32) : FVec Ideal S50000 .f32 :=
  maximumf (Host.scatterAdd scatter_S50000_S800000x1_S800000_n_0_0_1 (broadcastInDim S50000 ![] bcast_S_S50000 (constant S_ .f32 0x00000000#32)) (dstIdx dst) (broadcastInDim S800000 ![] bcast_S_S800000 (constant S_ .f32 0x3F800000#32))) (broadcastInDim S50000 ![] bcast_S_S50000 (constant S_ .f32 0x3F800000#32))

/-- The reciprocals 1/deg written over the first 50000 of 51200 ones. -/
def dinvVec (dst : IVec S800000 32) : FVec Ideal S51200 .f32 :=
  Host.scatter scatter_S51200_S1_S50000_0_n_0_0 (fun _ b => b) (broadcastInDim S51200 ![] bcast_S_S51200 (constant S_ .f32 0x3F800000#32)) (broadcastInDim S1 ![] bcast_S_S1 (constantI S_ 32 0#32)) (Host.divf (broadcastInDim S50000 ![] bcast_S_S50000 (constant S_ .f32 0x3F800000#32)) (deg dst))

/-- The same as a 51200×1 column. -/
def dinv (dst : IVec S800000 32) : FVec Ideal S51200x1 .f32 := shapeCast S51200x1 (dinvVec dst) shapeCasts_S51200_S51200x1

/-- Rows of `hn` gathered along the sources and scatter-added into the destinations. -/
def agg (hn : FVec Ideal S51200x128 .f32) (src dst : IVec S800000 32) : FVec Ideal S51200x128 .f32 :=
  Host.scatterAdd scatter_S51200x128_S800000x1_S800000x128_1_0_0_1 (broadcastInDim S51200x128 ![] bcast_S_S51200x128 (constant S_ .f32 0x00000000#32)) (dstIdx dst) (Host.gather gather_S51200x128_S800000x1_S800000x128_1_0_n_n_0_1_1128 hn (srcIdx src))

/-- A signed comparison "below zero" of a non-negative word is the bit 0. -/
theorem slt_zero_of_nonneg (a : BitVec 32) (h : 0 ≤ a.toInt) : IntOp.cmpi .slt a 0#32 = 0#1 := by
  unfold IntOp.cmpi
  have hn : ¬ (a.toInt < (0#32 : BitVec 32).toInt) := by
    have h0 : (0#32 : BitVec 32).toInt = 0 := by decide
    rw [h0]; omega
  simp only [BitVec.slt, decide_eq_false hn]
  rfl

/-- The column of destination ids at edge e is edge e's destination id. -/
theorem dstIdx_apply (dst : IVec S800000 32) (e : Fin 800000) (z : Fin 1) :
    dstIdx dst (ix2 e z) = dst (ix1 e) := by
  unfold dstIdx
  exact broadcastInDim_apply _ bcast_S800000_S800000x1_0 dst (ix2 e z) (ix1 e) (fun a => match a with
    | ⟨0, _⟩ => by show e.val = if (800000 : Nat) = 1 then 0 else e.val; rw [if_neg (by decide)])

/-- With the source id in range, the column of wrapped source ids at edge e is edge e's source id itself. -/
theorem srcIdx_apply (src : IVec S800000 32) (hsrc : Sage.InRange src) (e : Fin 800000) (z : Fin 1) :
    srcIdx src (ix2 e z) = src (ix1 e) := by
  unfold srcIdx
  rw [broadcastInDim_apply _ bcast_S800000_S800000x1_0 _ (ix2 e z) (ix1 e) (fun a => match a with
    | ⟨0, _⟩ => by show e.val = if (800000 : Nat) = 1 then 0 else e.val; rw [if_neg (by decide)])]
  rw [select_apply]
  have hc : cmpi .slt src (broadcastInDim S800000 ![] bcast_S_S800000 (constantI S_ 32 0#32)) (ix1 e) = 0#1 := by
    show IntOp.cmpi .slt (src (ix1 e)) (broadcastInDim S800000 ![] bcast_S_S800000 (constantI S_ 32 0#32) (ix1 e)) = 0#1
    rw [broadcastInDim_apply _ bcast_S_S800000 _ (ix1 e) ix0 (fun a => a.elim0)]
    exact slt_zero_of_nonneg _ (hsrc (ix1 e)).1
  rw [hc]
  exact if_neg (by decide)

/-- The zero matrix the aggregate starts from. -/
theorem zeros_apply (i : S51200x128.Idx) :
    broadcastInDim S51200x128 ![] bcast_S_S51200x128 (constant (F := Ideal) S_ .f32 0x00000000#32) i = 0 := by
  rw [broadcastInDim_apply _ bcast_S_S51200x128 _ i ix0 (fun a => a.elim0)]
  exact Ideal.ofBits_zero_f32

/-- The gathered matrix at (e, q) is hn at edge e's source row and column q. -/
theorem gathered_apply (hn : FVec Ideal S51200x128 .f32) (src : IVec S800000 32) (hsrc : Sage.InRange src) (e : Fin 800000)
    (q : Fin 128) :
    Host.gather gather_S51200x128_S800000x1_S800000x128_1_0_n_n_0_1_1128 hn (srcIdx src) (ix2 e q)
      = hn (ix2 (Sage.srcRowP src hsrc e) q) := by
  rw [show gather_S51200x128_S800000x1_S800000x128_1_0_n_n_0_1_1128
      = RowOps.gatherDims 51200 128 800000 gather_S51200x128_S800000x1_S800000x128_1_0_n_n_0_1_1128_wf from rfl]
  rw [RowOps.gather_rows_apply (by decide)]
  refine congrArg (fun r => hn (ix2 r q)) (Fin.ext ?_)
  show min (srcIdx src (ix2 e ⟨0, Nat.one_pos⟩)).toInt.toNat (51200 - 1) = (src (ix1 e)).toInt.toNat
  rw [srcIdx_apply src hsrc]
  have := hsrc (ix1 e)
  omega

/-- The edges into a row, read off the column of destination ids, are the edges into that node. -/
theorem into_eq (dst : IVec S800000 32) (p : ℕ) : RowOps.into (dstIdx dst) p = Sage.into dst p := by
  unfold RowOps.into Sage.into
  exact Finset.filter_congr fun e _ => by rw [dstIdx_apply]

/-- Entry (p, q) of the aggregate: the sum of hn's rows at the sources of the edges into node p, at column q. -/
theorem agg_apply (hn : FVec Ideal S51200x128 .f32) (src dst : IVec S800000 32) (hsrc : Sage.InRange src)
    (p : Fin 51200) (q : Fin 128) :
    agg hn src dst (ix2 p q) = 0 + ∑ e ∈ Sage.into dst p.val, hn (ix2 (Sage.srcRowP src hsrc e) q) := by
  unfold agg
  rw [show Host.scatterAdd scatter_S51200x128_S800000x1_S800000x128_1_0_0_1
        (broadcastInDim S51200x128 ![] bcast_S_S51200x128 (constant (F := Ideal) S_ .f32 0x00000000#32)) (dstIdx dst)
        (Host.gather gather_S51200x128_S800000x1_S800000x128_1_0_n_n_0_1_1128 hn (srcIdx src))
      = Ideal.hostScatterAdd scatter_S51200x128_S800000x1_S800000x128_1_0_0_1
        (broadcastInDim S51200x128 ![] bcast_S_S51200x128 (constant (F := Ideal) S_ .f32 0x00000000#32)) (dstIdx dst)
        (Host.gather gather_S51200x128_S800000x1_S800000x128_1_0_n_n_0_1_1128 hn (srcIdx src)) from rfl]
  rw [show scatter_S51200x128_S800000x1_S800000x128_1_0_0_1
      = RowOps.scatterDims 51200 128 800000 scatter_S51200x128_S800000x1_S800000x128_1_0_0_1_wf from rfl]
  rw [RowOps.scatterAdd_rows_apply, zeros_apply, into_eq]
  refine congrArg (fun s => (0 : EReal) + s) (Finset.sum_congr rfl fun e _ => ?_)
  exact gathered_apply hn src hsrc e q

end Cert.KernelIdeal.KerLayer

end
-- ==== Proof.SageReal.lean ====
/-
  The network over the reals: a layer's output matrix from its input matrix, and the positive part.
-/
import proofs.«411817_j9139690406075_3_alg».proof.Proof.SageSpec
import proofs.«411817_j9139690406075_3_alg».proof.Proof.SageAlg

noncomputable section

namespace Sage

open Idealize.ShloMosaic Idealize.ShloMosaic.ValueIdx

/-- A node number among the 51200 rows of a padded matrix. -/
def castP (v : Fin 50000) : Fin 51200 := ⟨v.val, by have := v.isLt; omega⟩

theorem srcRowP_eq (src : SE.Idx → BitVec 32) (h : InRange src) (e : Fin 800000) : srcRowP src h e = castP (srcRow src h e) := rfl

/-- One layer over the reals: node v's output at column j from the feature matrix X, the weights and bias, the
    guarded in-degrees d and the edges. -/
def layerR {J : Nat} (X : Fin 50000 → Fin 128 → ℝ) (Ws Wn : Fin 128 → Fin J → ℝ) (B : Fin J → ℝ) (d : Fin 50000 → ℝ)
    (src dst : SE.Idx → BitVec 32) (hsrc : InRange src) : Fin 50000 → Fin J → ℝ :=
  fun v j => SageAlg.layerR X (fun k => Ws k j) (fun k => Wn k j) (B j) (d v) (into dst v.val) (srcRow src hsrc) v

/-- The positive part, entry by entry. -/
def reluR {J : Nat} (Y : Fin 50000 → Fin J → ℝ) : Fin 50000 → Fin J → ℝ := fun v j => max (Y v j) 0

end Sage

end
-- ==== Proof.RegionLin0.lean ====
/-
  A neighbour-projection call, read as a whole array.

  The call's grid has 25 points; point t stages rows [2048·t, 2048·t + 2048) of the 51200×128 feature matrix, the
  whole 128×128 weight matrix, and writes back the same rows of the output. Its body is one matrix product into a
  zero accumulator, so block t of the output is block t of the product of the two whole matrices: entry (r, c) of the
  block is Σ_k h[2048·t + r, k]·w[k, c]. The 25 blocks tile the output, so after the call the output array IS the
  product of the two arrays as the call found them.
-/
import proofs.«411817_j9139690406075_3_alg».proof.Proof.Gen.KernelIdeal.Frame
import proofs.«411817_j9139690406075_3_alg».proof.Proof.SageSpec
import proofs.«411817_j9139690406075_3_alg».proof.Proof.LibPlainDot
import Idealize.ShloMosaic.Lib.Pipeline.Value
import Idealize.ShloMosaic.Lib.ValueIdx

set_option maxRecDepth 16384

noncomputable section

namespace Cert.KernelIdeal.Lin0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's payload at an entry: the row of the staged feature block against the column of the weights. -/
theorem pay_apply (x0 : Vec Ideal S2048x128 .bf16) (x1 : Vec Ideal S128x128 .bf16) (r : Fin 2048) (q : Fin 128) :
    k0_pay1 (F := Ideal) x0 x1 (ix2 r q) = ∑ k : Fin 128, x0 (ix2 r k) * x1 (ix2 k q) := by
  unfold k0_pay1
  simp only [shapeCast_self]
  exact PlainDot.matmul_zero_apply dot_S2048x128_S128x128_S2048x128_1_0_0_1_n_n ⟨rfl, rfl, rfl, rfl, rfl, rfl⟩ none x0 x1 r q

/-- The printed index maps over the grid: the feature window and the output window sit on the same row block, in
    column block 0; the weight window is always the one block. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the product of the two arrays as the call finds them. -/
theorem flushed_eq (c : Dev nD) (t : Fin cfg0.N) :
    (dat0 (F := Ideal) V c).flushed 2 t
      = ((cfg0.win 2).blk t).view.read (Elt Ideal) (Sage.linOut (V c main_v13) (V c main_v15)) := by
  show (cfg0.win 2).cut (grid0.coords t) ((dat0 (F := Ideal) V c).after 2 t) = _
  rw [after0_2]
  unfold out0_2
  rw [View.canon_unit_zero hz]
  simp only [View.ld_unit_zero (S := S2048x128) hz, View.ld_unit_zero (S := S128x128) hz]
  obtain ⟨e0, e1, e2, e3, e4, e5⟩ := idx_facts t
  funext j
  obtain ⟨r, q, rfl⟩ : ∃ (r : Fin 2048) (q : Fin 128), j = ix2 r q := ⟨j 0, j 1, eq_ix2 j⟩
  show k0_pay1 (F := Ideal) (iblk0 V c 0 t) (iblk0 V c 1 t) (ix2 r q)
    = Sage.linOut (V c main_v13) (V c main_v15) (((cfg0.win 2).blk t).view.emb (ix2 r q))
  rw [pay_apply]
  have hemb : ((cfg0.win 2).blk t).view.emb (ix2 r q) = (ix2 (⟨t.val * 2048 + r.val, by have ht : t.val < 25 := t.isLt; have := r.isLt; show _ < 51200; omega⟩ : Fin 51200) q : S51200x128.Idx) := by
    funext a; apply Fin.ext
    match a with
    | ⟨0, _⟩ => show win0_2.index t (0 : Fin 2) * 2048 + 1 * r.val = t.val * 2048 + r.val; omega
    | ⟨1, _⟩ => show win0_2.index t (1 : Fin 2) * 128 + 1 * q.val = q.val; omega
  rw [hemb, Sage.linOut_apply]
  refine Finset.sum_congr rfl fun k _ => ?_
  have h0 : iblk0 V c 0 t (ix2 r k) = V c main_v13 (ix2 (⟨t.val * 2048 + r.val, by have ht : t.val < 25 := t.isLt; have := r.isLt; show _ < 51200; omega⟩ : Fin 51200) k) := by
    show V c main_v13 (((cfg0.win 0).blk t).view.emb (ix2 r k)) = _
    refine congrArg (V c main_v13) ?_
    funext a; apply Fin.ext
    match a with
    | ⟨0, _⟩ => show win0_0.index t (0 : Fin 2) * 2048 + 1 * r.val = t.val * 2048 + r.val; omega
    | ⟨1, _⟩ => show win0_0.index t (1 : Fin 2) * 128 + 1 * k.val = k.val; omega
  have h1 : iblk0 V c 1 t (ix2 k q) = V c main_v15 (ix2 k q) := by
    show V c main_v15 (((cfg0.win 1).blk t).view.emb (ix2 k q)) = _
    refine congrArg (V c main_v15) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  rw [h0, h1]

/-- An index of the output array is in point t's block iff each coordinate is in the block's range on its axis. -/
theorem mem_blk (t : Fin cfg0.N) (i : S51200x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v17).slice (win0_2.rect t)).set ↔ _
  rw [View.set_slice_whole, Rect.mem_set_unit]
  exact Iff.rfl

/-- Every index of the output array lies in the block of the point that its row falls in. -/
theorem cover (i : S51200x128.Idx) : ∃ t : Fin cfg0.N, (cfg0.win 2).flush t = true ∧ i ∈ ((cfg0.win 2).blk t).view.set := by
  have hi0 : (i 0).val < 51200 := (i 0).isLt
  have hi1 : (i 1).val < 128 := (i 1).isLt
  refine ⟨(⟨(i 0).val / 2048, by show _ < 25; omega⟩ : Fin cfg0.N), flush0_2 _, ?_⟩
  rw [mem_blk]
  obtain ⟨e0, e1, e2, e3, e4, e5⟩ := idx_facts (⟨(i 0).val / 2048, by show _ < 25; omega⟩ : Fin cfg0.N)
  intro a
  match a with
  | ⟨0, _⟩ =>
    show win0_2.index _ (0 : Fin 2) * 2048 ≤ (i 0).val ∧ (i 0).val < win0_2.index _ (0 : Fin 2) * 2048 + 2048
    rw [e4]; show (i 0).val / 2048 * 2048 ≤ (i 0).val ∧ (i 0).val < (i 0).val / 2048 * 2048 + 2048; omega
  | ⟨1, _⟩ =>
    show win0_2.index _ (1 : Fin 2) * 128 ≤ (i 1).val ∧ (i 1).val < win0_2.index _ (1 : Fin 2) * 128 + 128
    rw [e5]; omega

/-- The output array after the call is the product of the two arrays as the call found them. -/
theorem final (c : Dev nD) :
    (dat0 (F := Ideal) V c).arrAt 2 cfg0.N = Sage.linOut (V c main_v13) (V c main_v15) :=
  (dat0 (F := Ideal) V c).arrAt_eq_of_cover 2 (Sage.linOut (V c main_v13) (V c main_v15))
    (fun t _ => flushed_eq V c t) (cover)

end Cert.KernelIdeal.Lin0

end
-- ==== Proof.RegionEpi1.lean ====
/-
  A layer-closing call with the positive part, read as a whole array.

  The call's grid has 25 points; point t stages rows [2048·t, 2048·t + 2048) of the feature matrix, of the aggregated
  neighbour matrix and of the reciprocal-degree column, the whole self-weight matrix and the bias row, and writes back
  the same rows of the output. Its body computes agg·(1/deg) + h·Ws + b row by row and takes the positive part, so the
  25 blocks it writes tile the output with that one function of the five arrays as the call found them.
-/
import proofs.«411817_j9139690406075_3_alg».proof.Proof.Gen.KernelIdeal.Frame
import proofs.«411817_j9139690406075_3_alg».proof.Proof.SageSpec
import proofs.«411817_j9139690406075_3_alg».proof.Proof.LibPlainDot
import Idealize.ShloMosaic.Lib.Pipeline.Value
import Idealize.ShloMosaic.Lib.ValueLayout
import Idealize.ShloMosaic.Lib.ValueIdx

set_option maxRecDepth 16384

noncomputable section

namespace Cert.KernelIdeal.Epi1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- A one-column array spread over many columns reads, at (p, q), the operand's entry in row p. -/
theorem bcast_col {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's payload at an entry: the aggregate scaled by its row's reciprocal degree, plus the row of the staged
    feature block against the column of the self-weights, plus the bias of the column; then the positive part. -/
theorem pay_apply (x0 : Vec Ideal S2048x128 .bf16) (x3 : Vec Ideal S128x128 .bf16) (x1 : Vec Ideal S2048x128 .f32)
    (x2 : Vec Ideal S2048x1 .f32) (x4 : Vec Ideal S1x128 .f32) (r : Fin 2048) (q : Fin 128) :
    k1_pay1 (F := Ideal) x0 x3 x1 x2 x4 (ix2 r q)
      = max ((x1 (ix2 r q) * x2 (ix2 r (0 : Fin 1)) + ∑ k : Fin 128, x0 (ix2 r k) * x3 (ix2 k q)) + x4 (ix2 (0 : Fin 1) q)) 0 := by
  unfold k1_pay1
  simp only [shapeCast_self]
  have hm : matmul (φ₁ := .bf16) (φ₂ := .bf16) dot_S2048x128_S128x128_S2048x128_1_0_0_1_n_n none x0 x3 (constant (F := Ideal) S2048x128 .f32 0x00000000#32) (ix2 r q)
      = ∑ k : Fin 128, x0 (ix2 r k) * x3 (ix2 k q) :=
    PlainDot.matmul_zero_apply (φ₁ := .bf16) (φ₂ := .bf16) dot_S2048x128_S128x128_S2048x128_1_0_0_1_n_n ⟨rfl, rfl, rfl, rfl, rfl, rfl⟩ none x0 x3 r q
  rw [maximumf_apply, addf_apply, addf_apply, mulf_apply, broadcast_apply, hm,
    bcast_col x2 broadcasts_S2048x1_S2048x128 r q, broadcastTo_1b_ab_apply x4 broadcasts_S1x128_S2048x128 r q,
    Ideal.ofBits_def, Ideal.ofBits_zero_f32]

/-- The printed index maps over the grid: the feature, aggregate, reciprocal-degree and output windows sit on the same
    row block, in column block 0; the weight window and the bias window are always the one block. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

/-- Row r of row block t, as a row of a whole 51200-row array. -/
def gRow (t : Fin cfg1.N) (r : Fin 2048) : Fin 51200 :=
  ⟨t.val * 2048 + r.val, by have ht : t.val < 25 := t.isLt; have := r.isLt; omega⟩

/-- What point t writes back is block t of the closing step of the five arrays as the call finds them. -/
theorem flushed_eq (c : Dev nD) (t : Fin cfg1.N) :
    (dat1 (F := Ideal) V c).flushed 5 t
      = ((cfg1.win 5).blk t).view.read (Elt Ideal)
          (Sage.epiOut true (V c main_v13) (V c main_v27) (V c main_v11) (V c main_v14) (V c main_v16)) := by
  show (cfg1.win 5).cut (grid1.coords t) ((dat1 (F := Ideal) V c).after 5 t) = _
  rw [after1_5]
  unfold out1_5
  rw [View.canon_unit_zero hz]
  simp only [View.ld_unit_zero (S := S2048x128) hz, View.ld_unit_zero (S := S128x128) hz,
    View.ld_unit_zero (S := S2048x1) hz, View.ld_unit_zero (S := S1x128) hz]
  obtain ⟨e00, e01, e10, e11, e20, e21, e30, e31, e40, e41, e50, e51⟩ := idx_facts t
  funext j
  obtain ⟨r, q, rfl⟩ : ∃ (r : Fin 2048) (q : Fin 128), j = ix2 r q := ⟨j 0, j 1, eq_ix2 j⟩
  show k1_pay1 (F := Ideal) (iblk1 V c 0 t) (iblk1 V c 3 t) (iblk1 V c 1 t) (iblk1 V c 2 t) (iblk1 V c 4 t) (ix2 r q)
    = Sage.epiOut true (V c main_v13) (V c main_v27) (V c main_v11) (V c main_v14) (V c main_v16)
        (((cfg1.win 5).blk t).view.emb (ix2 r q))
  rw [pay_apply]
  have hemb : ((cfg1.win 5).blk t).view.emb (ix2 r q) = (ix2 (gRow t r) q : S51200x128.Idx) := by
    funext a; apply Fin.ext
    match a with
    | ⟨0, _⟩ => show win1_5.index t (0 : Fin 2) * 2048 + 1 * r.val = t.val * 2048 + r.val; omega
    | ⟨1, _⟩ => show win1_5.index t (1 : Fin 2) * 128 + 1 * q.val = q.val; omega
  rw [hemb, Sage.epiOut_apply, if_pos rfl]
  have h1 : iblk1 V c 1 t (ix2 r q) = V c main_v27 (ix2 (gRow t r) q) := by
    show V c main_v27 (((cfg1.win 1).blk t).view.emb (ix2 r q)) = _
    refine congrArg (V c main_v27) ?_
    funext a; apply Fin.ext
    match a with
    | ⟨0, _⟩ => show win1_1.index t (0 : Fin 2) * 2048 + 1 * r.val = t.val * 2048 + r.val; omega
    | ⟨1, _⟩ => show win1_1.index t (1 : Fin 2) * 128 + 1 * q.val = q.val; omega
  have h2 : iblk1 V c 2 t (ix2 r (0 : Fin 1)) = V c main_v11 (ix2 (gRow t r) (0 : Fin 1)) := by
    show V c main_v11 (((cfg1.win 2).blk t).view.emb (ix2 r (0 : Fin 1))) = _
    refine congrArg (V c main_v11) ?_
    funext a; apply Fin.ext
    match a with
    | ⟨0, _⟩ => show win1_2.index t (0 : Fin 2) * 2048 + 1 * r.val = t.val * 2048 + r.val; omega
    | ⟨1, _⟩ => show win1_2.index t (1 : Fin 2) * 1 + 1 * 0 = 0; omega
  have h4 : iblk1 V c 4 t (ix2 (0 : Fin 1) q) = V c main_v16 (ix2 (0 : Fin 1) q) := by
    show V c main_v16 (((cfg1.win 4).blk t).view.emb (ix2 (0 : Fin 1) q)) = _
    refine congrArg (V c main_v16) ?_
    funext a; apply Fin.ext
    match a with
    | ⟨0, _⟩ => show win1_4.index t (0 : Fin 2) * 1 + 1 * 0 = 0; omega
    | ⟨1, _⟩ => show win1_4.index t (1 : Fin 2) * 128 + 1 * q.val = q.val; omega
  have h0 : ∀ k : Fin 128, iblk1 V c 0 t (ix2 r k) = V c main_v13 (ix2 (gRow t r) k) := fun k => by
    show V c main_v13 (((cfg1.win 0).blk t).view.emb (ix2 r k)) = _
    refine congrArg (V c main_v13) ?_
    funext a; apply Fin.ext
    match a with
    | ⟨0, _⟩ => show win1_0.index t (0 : Fin 2) * 2048 + 1 * r.val = t.val * 2048 + r.val; omega
    | ⟨1, _⟩ => show win1_0.index t (1 : Fin 2) * 128 + 1 * k.val = k.val; omega
  have h3 : ∀ k : Fin 128, iblk1 V c 3 t (ix2 k q) = V c main_v14 (ix2 k q) := fun k => by
    show V c main_v14 (((cfg1.win 3).blk t).view.emb (ix2 k q)) = _
    refine congrArg (V c main_v14) ?_
    funext a; apply Fin.ext
    match a with
    | ⟨0, _⟩ => show win1_3.index t (0 : Fin 2) * 128 + 1 * k.val = k.val; omega
    | ⟨1, _⟩ => show win1_3.index t (1 : Fin 2) * 128 + 1 * q.val = q.val; omega
  rw [h1, h2, h4]
  simp only [h0, h3]

/-- An index of the output array is in point t's block iff each coordinate is in the block's range on its axis. -/
theorem mem_blk (t : Fin cfg1.N) (i : S51200x128.Idx) :
    i ∈ ((cfg1.win 5).blk t).view.set ↔ ∀ a : Fin 2, win1_5.index t a * S2048x128.size a ≤ (i a).val ∧ (i a).val < win1_5.index t a * S2048x128.size a + S2048x128.size a := by
  show i ∈ ((View.whole main_v28).slice (win1_5.rect t)).set ↔ _
  rw [View.set_slice_whole, Rect.mem_set_unit]
  exact Iff.rfl

/-- Every index of the output array lies in the block of the point that its row falls in. -/
theorem cover (i : S51200x128.Idx) : ∃ t : Fin cfg1.N, (cfg1.win 5).flush t = true ∧ i ∈ ((cfg1.win 5).blk t).view.set := by
  have hi0 : (i 0).val < 51200 := (i 0).isLt
  have hi1 : (i 1).val < 128 := (i 1).isLt
  refine ⟨(⟨(i 0).val / 2048, by show _ < 25; omega⟩ : Fin cfg1.N), flush1_5 _, ?_⟩
  rw [mem_blk]
  obtain ⟨e00, e01, e10, e11, e20, e21, e30, e31, e40, e41, e50, e51⟩ := idx_facts (⟨(i 0).val / 2048, by show _ < 25; omega⟩ : Fin cfg1.N)
  intro a
  match a with
  | ⟨0, _⟩ =>
    show win1_5.index _ (0 : Fin 2) * 2048 ≤ (i 0).val ∧ (i 0).val < win1_5.index _ (0 : Fin 2) * 2048 + 2048
    rw [e50]; show (i 0).val / 2048 * 2048 ≤ (i 0).val ∧ (i 0).val < (i 0).val / 2048 * 2048 + 2048; omega
  | ⟨1, _⟩ =>
    show win1_5.index _ (1 : Fin 2) * 128 ≤ (i 1).val ∧ (i 1).val < win1_5.index _ (1 : Fin 2) * 128 + 128
    rw [e51]; omega

/-- The output array after the call is the layer's closing step, with the positive part, of the five arrays as the call found them. -/
theorem final (c : Dev nD) :
    (dat1 (F := Ideal) V c).arrAt 5 cfg1.N
      = Sage.epiOut true (V c main_v13) (V c main_v27) (V c main_v11) (V c main_v14) (V c main_v16) :=
  (dat1 (F := Ideal) V c).arrAt_eq_of_cover 5 (Sage.epiOut true (V c main_v13) (V c main_v27) (V c main_v11) (V c main_v14) (V c main_v16))
    (fun t _ => flushed_eq V c t) (cover)

end Cert.KernelIdeal.Epi1

end
-- ==== Proof.KerChain0.lean ====
/-
  The kernel program's buffers at the boundaries of its segments, the first layer.

  Reading forward from the launch: the host prepares the reciprocal-degree column, the zero-padded feature matrix and
  the weights; the first call forms hn = h·Wn; the host gathers hn's rows along the edges and scatter-adds them; the
  second call closes the layer. Each boundary's contents at a buffer is what the last operation that wrote it computed
  from the contents before; the rows of the padded feature matrix that belong to nodes are the input's rows.
-/
import proofs.«411817_j9139690406075_3_alg».proof.Proof.Gen.KernelIdeal.Frame
import proofs.«411817_j9139690406075_3_alg».proof.Proof.KerPass
import proofs.«411817_j9139690406075_3_alg».proof.Proof.KerLayer
import proofs.«411817_j9139690406075_3_alg».proof.Proof.SageReal
import proofs.«411817_j9139690406075_3_alg».proof.Proof.RegionLin0
import proofs.«411817_j9139690406075_3_alg».proof.Proof.RegionEpi1
import Idealize.ShloMosaic.Lib.KernelVsHost
import Idealize.ShloMosaic.Lib.StableHlo.Run

set_option maxRecDepth 16384

noncomputable section

namespace Cert.KernelIdeal.Chain0

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-- The reciprocal-degree column, once the host has prepared it. -/
theorem dinv_eq (c : Dev nD) : W1 m ρ c (Proc.devRef .tc main_v11) = KerLayer.dinv (m ((c : Thread nD τ).loc main_arg2)) := by
  show StableHlo.after hostOps0 (W0 m ρ c) (Proc.devRef .tc main_v11) = _
  after_results
  rfl

/-- The rows of the padded feature matrix that belong to nodes are the input's rows. -/
theorem h_entry (c : Dev nD) (v : Fin 50000) (k : Fin 128) :
    W3 m ρ c (Proc.devRef .tc main_v13) (ix2 (Sage.castP v) k) = m ((c : Thread nD τ).loc main_arg0) (ix2 v k) := by
  show StableHlo.after hostOps0_2 (W2 m ρ c) (Proc.devRef .tc main_v13) (ix2 (Sage.castP v) k) = _
  after_results
  show W2 m ρ c (Proc.devRef .tc main_v12) (ix2 (Sage.castP v) k) = _
  show StableHlo.after hostOps0_1 (W1 m ρ c) (Proc.devRef .tc main_v12) (ix2 (Sage.castP v) k) = _
  after_results
  show pad S51200x128 ![0, 0] ![1200, 0] ![0, 0] (m ((c : Thread nD τ).loc main_arg0) : FVec Ideal S50000x128 .f32)
    (sitofp (F := Ideal) .f32 (constantI S_ 32 0#32)) pads_S50000x128_S51200x128_012000_000 h_S_ (ix2 (Sage.castP v) k) = _
  exact pad_apply_of_inside _ _ _ _ _ _ _ (ix2 (Sage.castP v) k) (ix2 v k) (fun a => by
    match a with
    | ⟨0, _⟩ => show v.val = 0 + v.val * (0 + 1); omega
    | ⟨1, _⟩ => show k.val = 0 + k.val * (0 + 1); omega)

/-- The neighbour weights as the first call finds them. -/
theorem wn_entry (c : Dev nD) (k q : Fin 128) :
    W3 m ρ c (Proc.devRef .tc main_v15) (ix2 k q) = m ((c : Thread nD τ).loc main_arg4) (ix2 k q) := by
  show StableHlo.after hostOps0_2 (W2 m ρ c) (Proc.devRef .tc main_v15) (ix2 k q) = _
  after_results
  rfl

/-- The self weights as the second call finds them. -/
theorem ws_entry (c : Dev nD) (k q : Fin 128) :
    W3 m ρ c (Proc.devRef .tc main_v14) (ix2 k q) = m ((c : Thread nD τ).loc main_arg3) (ix2 k q) := by
  show StableHlo.after hostOps0_2 (W2 m ρ c) (Proc.devRef .tc main_v14) (ix2 k q) = _
  after_results
  rfl

/-- The bias as a row. -/
theorem b_entry (c : Dev nD) (q : Fin 128) (z : Fin 1) :
    W3 m ρ c (Proc.devRef .tc main_v16) (ix2 z q) = m ((c : Thread nD τ).loc main_arg5) (ix1 q) := by
  show StableHlo.after hostOps0_2 (W2 m ρ c) (Proc.devRef .tc main_v16) (ix2 z q) = _
  after_results
  show shapeCast S1x128 (W2 m ρ c (Proc.devRef .tc main_arg5)) shapeCasts_S128_S1x128 (ix2 z q) = _
  rw [shapeCast_addUnit_apply ![128] (W2 m ρ c (Proc.devRef .tc main_arg5)) shapeCasts_S128_S1x128 (ix2 z q), Pass.c2_arg5]
  refine congrArg (m ((c : Thread nD τ).loc main_arg5)) ?_
  funext a; match a with | ⟨0, _⟩ => rfl

/-- After the first call: the neighbour projection of the padded feature matrix. -/
theorem hn_eq (c : Dev nD) :
    W4 m ρ c (Proc.devRef .tc main_v17) = Sage.linOut (W3 m ρ c (Proc.devRef .tc main_v13)) (W3 m ρ c (Proc.devRef .tc main_v15)) :=
  (W4_arr m ρ c 2).trans (Lin0.final (V3 m ρ) c)

set_option maxHeartbeats 4000000 in
/-- The aggregate along the edges. -/
theorem agg_eq (c : Dev nD) :
    W5 m ρ c (Proc.devRef .tc main_v27)
      = KerLayer.agg (W4 m ρ c (Proc.devRef .tc main_v17)) (m ((c : Thread nD τ).loc main_arg1)) (m ((c : Thread nD τ).loc main_arg2)) := by
  show StableHlo.after hostOps1 (W4 m ρ c) (Proc.devRef .tc main_v27) = _
  after_results
  rw [Pass.c4_arg1, Pass.c4_arg2]
  rfl

/-- After the second call: the first hidden matrix, padded. -/
theorem out_eq (c : Dev nD) :
    W6 m ρ c (Proc.devRef .tc main_v28)
      = Sage.epiOut true (W3 m ρ c (Proc.devRef .tc main_v13)) (W5 m ρ c (Proc.devRef .tc main_v27))
          (KerLayer.dinv (m ((c : Thread nD τ).loc main_arg2))) (W3 m ρ c (Proc.devRef .tc main_v14)) (W3 m ρ c (Proc.devRef .tc main_v16)) := by
  refine (W6_arr m ρ c 5).trans ((Epi1.final (V5 m ρ) c).trans ?_)
  show Sage.epiOut true (W5 m ρ c (Proc.devRef .tc main_v13)) (W5 m ρ c (Proc.devRef .tc main_v27)) (W5 m ρ c (Proc.devRef .tc main_v11))
      (W5 m ρ c (Proc.devRef .tc main_v14)) (W5 m ρ c (Proc.devRef .tc main_v16)) = _
  rw [Pass.c5_v13, Pass.c5_v14, Pass.c5_v16, Pass.c5_v11, dinv_eq]

end Cert.KernelIdeal.Chain0

end
-- ==== Proof.RegionLin2.lean ====
/-
  A neighbour-projection call, read as a whole array.

  The call's grid has 25 points; point t stages rows [2048·t, 2048·t + 2048) of the 51200×128 feature matrix, the
  whole 128×128 weight matrix, and writes back the same rows of the output. Its body is one matrix product into a
  zero accumulator, so block t of the output is block t of the product of the two whole matrices: entry (r, c) of the
  block is Σ_k h[2048·t + r, k]·w[k, c]. The 25 blocks tile the output, so after the call the output array IS the
  product of the two arrays as the call found them.
-/
import proofs.«411817_j9139690406075_3_alg».proof.Proof.Gen.KernelIdeal.Frame
import proofs.«411817_j9139690406075_3_alg».proof.Proof.SageSpec
import proofs.«411817_j9139690406075_3_alg».proof.Proof.LibPlainDot
import Idealize.ShloMosaic.Lib.Pipeline.Value
import Idealize.ShloMosaic.Lib.ValueIdx

set_option maxRecDepth 16384

noncomputable section

namespace Cert.KernelIdeal.Lin2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's payload at an entry: the row of the staged feature block against the column of the weights. -/
theorem pay_apply (x0 : Vec Ideal S2048x128 .bf16) (x1 : Vec Ideal S128x128 .bf16) (r : Fin 2048) (q : Fin 128) :
    k2_pay1 (F := Ideal) x0 x1 (ix2 r q) = ∑ k : Fin 128, x0 (ix2 r k) * x1 (ix2 k q) := by
  unfold k2_pay1
  simp only [shapeCast_self]
  exact PlainDot.matmul_zero_apply dot_S2048x128_S128x128_S2048x128_1_0_0_1_n_n ⟨rfl, rfl, rfl, rfl, rfl, rfl⟩ none x0 x1 r q

/-- The printed index maps over the grid: the feature window and the output window sit on the same row block, in
    column block 0; the weight window is always the one block. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point t writes back is block t of the product of the two arrays as the call finds them. -/
theorem flushed_eq (c : Dev nD) (t : Fin cfg2.N) :
    (dat2 (F := Ideal) V c).flushed 2 t
      = ((cfg2.win 2).blk t).view.read (Elt Ideal) (Sage.linOut (V c main_v29) (V c main_v31)) := by
  show (cfg2.win 2).cut (grid2.coords t) ((dat2 (F := Ideal) V c).after 2 t) = _
  rw [after2_2]
  unfold out2_2
  rw [View.canon_unit_zero hz]
  simp only [View.ld_unit_zero (S := S2048x128) hz, View.ld_unit_zero (S := S128x128) hz]
  obtain ⟨e0, e1, e2, e3, e4, e5⟩ := idx_facts t
  funext j
  obtain ⟨r, q, rfl⟩ : ∃ (r : Fin 2048) (q : Fin 128), j = ix2 r q := ⟨j 0, j 1, eq_ix2 j⟩
  show k2_pay1 (F := Ideal) (iblk2 V c 0 t) (iblk2 V c 1 t) (ix2 r q)
    = Sage.linOut (V c main_v29) (V c main_v31) (((cfg2.win 2).blk t).view.emb (ix2 r q))
  rw [pay_apply]
  have hemb : ((cfg2.win 2).blk t).view.emb (ix2 r q) = (ix2 (⟨t.val * 2048 + r.val, by have ht : t.val < 25 := t.isLt; have := r.isLt; show _ < 51200; omega⟩ : Fin 51200) q : S51200x128.Idx) := by
    funext a; apply Fin.ext
    match a with
    | ⟨0, _⟩ => show win2_2.index t (0 : Fin 2) * 2048 + 1 * r.val = t.val * 2048 + r.val; omega
    | ⟨1, _⟩ => show win2_2.index t (1 : Fin 2) * 128 + 1 * q.val = q.val; omega
  rw [hemb, Sage.linOut_apply]
  refine Finset.sum_congr rfl fun k _ => ?_
  have h0 : iblk2 V c 0 t (ix2 r k) = V c main_v29 (ix2 (⟨t.val * 2048 + r.val, by have ht : t.val < 25 := t.isLt; have := r.isLt; show _ < 51200; omega⟩ : Fin 51200) k) := by
    show V c main_v29 (((cfg2.win 0).blk t).view.emb (ix2 r k)) = _
    refine congrArg (V c main_v29) ?_
    funext a; apply Fin.ext
    match a with
    | ⟨0, _⟩ => show win2_0.index t (0 : Fin 2) * 2048 + 1 * r.val = t.val * 2048 + r.val; omega
    | ⟨1, _⟩ => show win2_0.index t (1 : Fin 2) * 128 + 1 * k.val = k.val; omega
  have h1 : iblk2 V c 1 t (ix2 k q) = V c main_v31 (ix2 k q) := by
    show V c main_v31 (((cfg2.win 1).blk t).view.emb (ix2 k q)) = _
    refine congrArg (V c main_v31) ?_
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  rw [h0, h1]

/-- An index of the output array is in point t's block iff each coordinate is in the block's range on its axis. -/
theorem mem_blk (t : Fin cfg2.N) (i : S51200x128.Idx) :
    i ∈ ((cfg2.win 2).blk t).view.set ↔ ∀ a : Fin 2, win2_2.index t a * S2048x128.size a ≤ (i a).val ∧ (i a).val < win2_2.index t a * S2048x128.size a + S2048x128.size a := by
  show i ∈ ((View.whole main_v33).slice (win2_2.rect t)).set ↔ _
  rw [View.set_slice_whole, Rect.mem_set_unit]
  exact Iff.rfl

/-- Every index of the output array lies in the block of the point that its row falls in. -/
theorem cover (i : S51200x128.Idx) : ∃ t : Fin cfg2.N, (cfg2.win 2).flush t = true ∧ i ∈ ((cfg2.win 2).blk t).view.set := by
  have hi0 : (i 0).val < 51200 := (i 0).isLt
  have hi1 : (i 1).val < 128 := (i 1).isLt
  refine ⟨(⟨(i 0).val / 2048, by show _ < 25; omega⟩ : Fin cfg2.N), flush2_2 _, ?_⟩
  rw [mem_blk]
  obtain ⟨e0, e1, e2, e3, e4, e5⟩ := idx_facts (⟨(i 0).val / 2048, by show _ < 25; omega⟩ : Fin cfg2.N)
  intro a
  match a with
  | ⟨0, _⟩ =>
    show win2_2.index _ (0 : Fin 2) * 2048 ≤ (i 0).val ∧ (i 0).val < win2_2.index _ (0 : Fin 2) * 2048 + 2048
    rw [e4]; show (i 0).val / 2048 * 2048 ≤ (i 0).val ∧ (i 0).val < (i 0).val / 2048 * 2048 + 2048; omega
  | ⟨1, _⟩ =>
    show win2_2.index _ (1 : Fin 2) * 128 ≤ (i 1).val ∧ (i 1).val < win2_2.index _ (1 : Fin 2) * 128 + 128
    rw [e5]; omega

/-- The output array after the call is the product of the two arrays as the call found them. -/
theorem final (c : Dev nD) :
    (dat2 (F := Ideal) V c).arrAt 2 cfg2.N = Sage.linOut (V c main_v29) (V c main_v31) :=
  (dat2 (F := Ideal) V c).arrAt_eq_of_cover 2 (Sage.linOut (V c main_v29) (V c main_v31))
    (fun t _ => flushed_eq V c t) (cover)

end Cert.KernelIdeal.Lin2

end
-- ==== Proof.RegionEpi3.lean ====
/-
  A layer-closing call with the positive part, read as a whole array.

  The call's grid has 25 points; point t stages rows [2048·t, 2048·t + 2048) of the feature matrix, of the aggregated
  neighbour matrix and of the reciprocal-degree column, the whole self-weight matrix and the bias row, and writes back
  the same rows of the output. Its body computes agg·(1/deg) + h·Ws + b row by row and takes the positive part, so the
  25 blocks it writes tile the output with that one function of the five arrays as the call found them.
-/
import proofs.«411817_j9139690406075_3_alg».proof.Proof.Gen.KernelIdeal.Frame
import proofs.«411817_j9139690406075_3_alg».proof.Proof.SageSpec
import proofs.«411817_j9139690406075_3_alg».proof.Proof.LibPlainDot
import Idealize.ShloMosaic.Lib.Pipeline.Value
import Idealize.ShloMosaic.Lib.ValueLayout
import Idealize.ShloMosaic.Lib.ValueIdx

set_option maxRecDepth 16384

noncomputable section

namespace Cert.KernelIdeal.Epi3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- A one-column array spread over many columns reads, at (p, q), the operand's entry in row p. -/
theorem bcast_col {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's payload at an entry: the aggregate scaled by its row's reciprocal degree, plus the row of the staged
    feature block against the column of the self-weights, plus the bias of the column; then the positive part. -/
theorem pay_apply (x0 : Vec Ideal S2048x128 .bf16) (x3 : Vec Ideal S128x128 .bf16) (x1 : Vec Ideal S2048x128 .f32)
    (x2 : Vec Ideal S2048x1 .f32) (x4 : Vec Ideal S1x128 .f32) (r : Fin 2048) (q : Fin 128) :
    k3_pay1 (F := Ideal) x0 x3 x1 x2 x4 (ix2 r q)
      = max ((x1 (ix2 r q) * x2 (ix2 r (0 : Fin 1)) + ∑ k : Fin 128, x0 (ix2 r k) * x3 (ix2 k q)) + x4 (ix2 (0 : Fin 1) q)) 0 := by
  unfold k3_pay1
  simp only [shapeCast_self]
  have hm : matmul (φ₁ := .bf16) (φ₂ := .bf16) dot_S2048x128_S128x128_S2048x128_1_0_0_1_n_n none x0 x3 (constant (F := Ideal) S2048x128 .f32 0x00000000#32) (ix2 r q)
      = ∑ k : Fin 128, x0 (ix2 r k) * x3 (ix2 k q) :=
    PlainDot.matmul_zero_apply (φ₁ := .bf16) (φ₂ := .bf16) dot_S2048x128_S128x128_S2048x128_1_0_0_1_n_n ⟨rfl, rfl, rfl, rfl, rfl, rfl⟩ none x0 x3 r q
  rw [maximumf_apply, addf_apply, addf_apply, mulf_apply, broadcast_apply, hm,
    bcast_col x2 broadcasts_S2048x1_S2048x128 r q, broadcastTo_1b_ab_apply x4 broadcasts_S1x128_S2048x128 r q,
    Ideal.ofBits_def, Ideal.ofBits_zero_f32]

/-- The printed index maps over the grid: the feature, aggregate, reciprocal-degree and output windows sit on the same
    row block, in column block 0; the weight window and the bias window are always the one block. -/
theorem idx_facts : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = t.val
    ∧ win3_5.index t (1 : Fin 2) = 0 :=
  (by decide +kernel : ∀ t : Fin grid3.N, _)

/-- Row r of row block t, as a row of a whole 51200-row array. -/
def gRow (t : Fin cfg3.N) (r : Fin 2048) : Fin 51200 :=
  ⟨t.val * 2048 + r.val, by have ht : t.val < 25 := t.isLt; have := r.isLt; omega⟩

/-- What point t writes back is block t of the closing step of the five arrays as the call finds them. -/
theorem flushed_eq (c : Dev nD) (t : Fin cfg3.N) :
    (dat3 (F := Ideal) V c).flushed 5 t
      = ((cfg3.win 5).blk t).view.read (Elt Ideal)
          (Sage.epiOut true (V c main_v29) (V c main_v43) (V c main_v11) (V c main_v30) (V c main_v32)) := by
  show (cfg3.win 5).cut (grid3.coords t) ((dat3 (F := Ideal) V c).after 5 t) = _
  rw [after3_5]
  unfold out3_5
  rw [View.canon_unit_zero hz]
  simp only [View.ld_unit_zero (S := S2048x128) hz, View.ld_unit_zero (S := S128x128) hz,
    View.ld_unit_zero (S := S2048x1) hz, View.ld_unit_zero (S := S1x128) hz]
  obtain ⟨e00, e01, e10, e11, e20, e21, e30, e31, e40, e41, e50, e51⟩ := idx_facts t
  funext j
  obtain ⟨r, q, rfl⟩ : ∃ (r : Fin 2048) (q : Fin 128), j = ix2 r q := ⟨j 0, j 1, eq_ix2 j⟩
  show k3_pay1 (F := Ideal) (iblk3 V c 0 t) (iblk3 V c 3 t) (iblk3 V c 1 t) (iblk3 V c 2 t) (iblk3 V c 4 t) (ix2 r q)
    = Sage.epiOut true (V c main_v29) (V c main_v43) (V c main_v11) (V c main_v30) (V c main_v32)
        (((cfg3.win 5).blk t).view.emb (ix2 r q))
  rw [pay_apply]
  have hemb : ((cfg3.win 5).blk t).view.emb (ix2 r q) = (ix2 (gRow t r) q : S51200x128.Idx) := by
    funext a; apply Fin.ext
    match a with
    | ⟨0, _⟩ => show win3_5.index t (0 : Fin 2) * 2048 + 1 * r.val = t.val * 2048 + r.val; omega
    | ⟨1, _⟩ => show win3_5.index t (1 : Fin 2) * 128 + 1 * q.val = q.val; omega
  rw [hemb, Sage.epiOut_apply, if_pos rfl]
  have h1 : iblk3 V c 1 t (ix2 r q) = V c main_v43 (ix2 (gRow t r) q) := by
    show V c main_v43 (((cfg3.win 1).blk t).view.emb (ix2 r q)) = _
    refine congrArg (V c main_v43) ?_
    funext a; apply Fin.ext
    match a with
    | ⟨0, _⟩ => show win3_1.index t (0 : Fin 2) * 2048 + 1 * r.val = t.val * 2048 + r.val; omega
    | ⟨1, _⟩ => show win3_1.index t (1 : Fin 2) * 128 + 1 * q.val = q.val; omega
  have h2 : iblk3 V c 2 t (ix2 r (0 : Fin 1)) = V c main_v11 (ix2 (gRow t r) (0 : Fin 1)) := by
    show V c main_v11 (((cfg3.win 2).blk t).view.emb (ix2 r (0 : Fin 1))) = _
    refine congrArg (V c main_v11) ?_
    funext a; apply Fin.ext
    match a with
    | ⟨0, _⟩ => show win3_2.index t (0 : Fin 2) * 2048 + 1 * r.val = t.val * 2048 + r.val; omega
    | ⟨1, _⟩ => show win3_2.index t (1 : Fin 2) * 1 + 1 * 0 = 0; omega
  have h4 : iblk3 V c 4 t (ix2 (0 : Fin 1) q) = V c main_v32 (ix2 (0 : Fin 1) q) := by
    show V c main_v32 (((cfg3.win 4).blk t).view.emb (ix2 (0 : Fin 1) q)) = _
    refine congrArg (V c main_v32) ?_
    funext a; apply Fin.ext
    match a with
    | ⟨0, _⟩ => show win3_4.index t (0 : Fin 2) * 1 + 1 * 0 = 0; omega
    | ⟨1, _⟩ => show win3_4.index t (1 : Fin 2) * 128 + 1 * q.val = q.val; omega
  have h0 : ∀ k : Fin 128, iblk3 V c 0 t (ix2 r k) = V c main_v29 (ix2 (gRow t r) k) := fun k => by
    show V c main_v29 (((cfg3.win 0).blk t).view.emb (ix2 r k)) = _
    refine congrArg (V c main_v29) ?_
    funext a; apply Fin.ext
    match a with
    | ⟨0, _⟩ => show win3_0.index t (0 : Fin 2) * 2048 + 1 * r.val = t.val * 2048 + r.val; omega
    | ⟨1, _⟩ => show win3_0.index t (1 : Fin 2) * 128 + 1 * k.val = k.val; omega
  have h3 : ∀ k : Fin 128, iblk3 V c 3 t (ix2 k q) = V c main_v30 (ix2 k q) := fun k => by
    show V c main_v30 (((cfg3.win 3).blk t).view.emb (ix2 k q)) = _
    refine congrArg (V c main_v30) ?_
    funext a; apply Fin.ext
    match a with
    | ⟨0, _⟩ => show win3_3.index t (0 : Fin 2) * 128 + 1 * k.val = k.val; omega
    | ⟨1, _⟩ => show win3_3.index t (1 : Fin 2) * 128 + 1 * q.val = q.val; omega
  rw [h1, h2, h4]
  simp only [h0, h3]

/-- An index of the output array is in point t's block iff each coordinate is in the block's range on its axis. -/
theorem mem_blk (t : Fin cfg3.N) (i : S51200x128.Idx) :
    i ∈ ((cfg3.win 5).blk t).view.set ↔ ∀ a : Fin 2, win3_5.index t a * S2048x128.size a ≤ (i a).val ∧ (i a).val < win3_5.index t a * S2048x128.size a + S2048x128.size a := by
  show i ∈ ((View.whole main_v44).slice (win3_5.rect t)).set ↔ _
  rw [View.set_slice_whole, Rect.mem_set_unit]
  exact Iff.rfl

/-- Every index of the output array lies in the block of the point that its row falls in. -/
theorem cover (i : S51200x128.Idx) : ∃ t : Fin cfg3.N, (cfg3.win 5).flush t = true ∧ i ∈ ((cfg3.win 5).blk t).view.set := by
  have hi0 : (i 0).val < 51200 := (i 0).isLt
  have hi1 : (i 1).val < 128 := (i 1).isLt
  refine ⟨(⟨(i 0).val / 2048, by show _ < 25; omega⟩ : Fin cfg3.N), flush3_5 _, ?_⟩
  rw [mem_blk]
  obtain ⟨e00, e01, e10, e11, e20, e21, e30, e31, e40, e41, e50, e51⟩ := idx_facts (⟨(i 0).val / 2048, by show _ < 25; omega⟩ : Fin cfg3.N)
  intro a
  match a with
  | ⟨0, _⟩ =>
    show win3_5.index _ (0 : Fin 2) * 2048 ≤ (i 0).val ∧ (i 0).val < win3_5.index _ (0 : Fin 2) * 2048 + 2048
    rw [e50]; show (i 0).val / 2048 * 2048 ≤ (i 0).val ∧ (i 0).val < (i 0).val / 2048 * 2048 + 2048; omega
  | ⟨1, _⟩ =>
    show win3_5.index _ (1 : Fin 2) * 128 ≤ (i 1).val ∧ (i 1).val < win3_5.index _ (1 : Fin 2) * 128 + 128
    rw [e51]; omega

/-- The output array after the call is the layer's closing step, with the positive part, of the five arrays as the call found them. -/
theorem final (c : Dev nD) :
    (dat3 (F := Ideal) V c).arrAt 5 cfg3.N
      = Sage.epiOut true (V c main_v29) (V c main_v43) (V c main_v11) (V c main_v30) (V c main_v32) :=
  (dat3 (F := Ideal) V c).arrAt_eq_of_cover 5 (Sage.epiOut true (V c main_v29) (V c main_v43) (V c main_v11) (V c main_v30) (V c main_v32))
    (fun t _ => flushed_eq V c t) (cover)

end Cert.KernelIdeal.Epi3

end
-- ==== Proof.KerChain1.lean ====
/-
  The kernel program's buffers at the boundaries of its segments, the second layer: the first hidden matrix, re-read in
  the narrower format (the identity on the extended reals), is projected by the third call, aggregated along the edges
  by the host, and closed by the fourth call.
-/
import proofs.«411817_j9139690406075_3_alg».proof.Proof.Gen.KernelIdeal.Frame
import proofs.«411817_j9139690406075_3_alg».proof.Proof.KerPass
import proofs.«411817_j9139690406075_3_alg».proof.Proof.KerLayer
import proofs.«411817_j9139690406075_3_alg».proof.Proof.SageReal
import proofs.«411817_j9139690406075_3_alg».proof.Proof.KerChain0
import proofs.«411817_j9139690406075_3_alg».proof.Proof.RegionLin2
import proofs.«411817_j9139690406075_3_alg».proof.Proof.RegionEpi3
import Idealize.ShloMosaic.Lib.KernelVsHost
import Idealize.ShloMosaic.Lib.StableHlo.Run

set_option maxRecDepth 16384

noncomputable section

namespace Cert.KernelIdeal.Chain1

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-- The layer's input is the first layer's output. -/
theorem h_entry (c : Dev nD) (i : S51200x128.Idx) :
    W7 m ρ c (Proc.devRef .tc main_v29) i = W6 m ρ c (Proc.devRef .tc main_v28) i := by
  show StableHlo.after hostOps2 (W6 m ρ c) (Proc.devRef .tc main_v29) i = _
  after_results
  rfl

theorem wn_entry (c : Dev nD) (k q : Fin 128) :
    W7 m ρ c (Proc.devRef .tc main_v31) (ix2 k q) = m ((c : Thread nD τ).loc main_arg7) (ix2 k q) := by
  show StableHlo.after hostOps2 (W6 m ρ c) (Proc.devRef .tc main_v31) (ix2 k q) = _
  after_results
  show W6 m ρ c (Proc.devRef .tc main_arg7) (ix2 k q) = _
  rw [Pass.c6_arg7]

theorem ws_entry (c : Dev nD) (k q : Fin 128) :
    W7 m ρ c (Proc.devRef .tc main_v30) (ix2 k q) = m ((c : Thread nD τ).loc main_arg6) (ix2 k q) := by
  show StableHlo.after hostOps2 (W6 m ρ c) (Proc.devRef .tc main_v30) (ix2 k q) = _
  after_results
  show W6 m ρ c (Proc.devRef .tc main_arg6) (ix2 k q) = _
  rw [Pass.c6_arg6]

theorem b_entry (c : Dev nD) (q : Fin 128) (z : Fin 1) :
    W7 m ρ c (Proc.devRef .tc main_v32) (ix2 z q) = m ((c : Thread nD τ).loc main_arg8) (ix1 q) := by
  show StableHlo.after hostOps2 (W6 m ρ c) (Proc.devRef .tc main_v32) (ix2 z q) = _
  after_results
  show shapeCast S1x128 (W6 m ρ c (Proc.devRef .tc main_arg8)) shapeCasts_S128_S1x128 (ix2 z q) = _
  rw [shapeCast_addUnit_apply ![128] (W6 m ρ c (Proc.devRef .tc main_arg8)) shapeCasts_S128_S1x128 (ix2 z q), Pass.c6_arg8]
  refine congrArg (m ((c : Thread nD τ).loc main_arg8)) ?_
  funext a; match a with | ⟨0, _⟩ => rfl

theorem hn_eq (c : Dev nD) :
    W8 m ρ c (Proc.devRef .tc main_v33) = Sage.linOut (W7 m ρ c (Proc.devRef .tc main_v29)) (W7 m ρ c (Proc.devRef .tc main_v31)) :=
  (W8_arr m ρ c 2).trans (Lin2.final (V7 m ρ) c)

set_option maxHeartbeats 4000000 in
theorem agg_eq (c : Dev nD) :
    W9 m ρ c (Proc.devRef .tc main_v43)
      = KerLayer.agg (W8 m ρ c (Proc.devRef .tc main_v33)) (m ((c : Thread nD τ).loc main_arg1)) (m ((c : Thread nD τ).loc main_arg2)) := by
  show StableHlo.after hostOps3 (W8 m ρ c) (Proc.devRef .tc main_v43) = _
  after_results
  rw [Pass.c8_arg1, Pass.c8_arg2]
  rfl

/-- After the fourth call: the second hidden matrix, padded. -/
theorem out_eq (c : Dev nD) :
    W10 m ρ c (Proc.devRef .tc main_v44)
      = Sage.epiOut true (W7 m ρ c (Proc.devRef .tc main_v29)) (W9 m ρ c (Proc.devRef .tc main_v43))
          (KerLayer.dinv (m ((c : Thread nD τ).loc main_arg2))) (W7 m ρ c (Proc.devRef .tc main_v30)) (W7 m ρ c (Proc.devRef .tc main_v32)) := by
  refine (W10_arr m ρ c 5).trans ((Epi3.final (V9 m ρ) c).trans ?_)
  show Sage.epiOut true (W9 m ρ c (Proc.devRef .tc main_v29)) (W9 m ρ c (Proc.devRef .tc main_v43)) (W9 m ρ c (Proc.devRef .tc main_v11))
      (W9 m ρ c (Proc.devRef .tc main_v30)) (W9 m ρ c (Proc.devRef .tc main_v32)) = _
  rw [Pass.c9_v29, Pass.c9_v30, Pass.c9_v32, Pass.c9_v11, Chain0.dinv_eq]

end Cert.KernelIdeal.Chain1

end
-- ==== Proof.RegionLin4.lean ====
/-
  A neighbour-projection call, read as a whole array.

  The call's grid has 25 points; point t stages rows [2048·t, 2048·t + 2048) of the 51200×128 feature matrix, the
  whole 128×128 weight matrix, and writes back the same rows of the output. Its body is one matrix product into a
  zero accumulator, so block t of the output is block t of the product of the two whole matrices: entry (r, c) of the
  block is Σ_k h[2048·t + r, k]·w[k, c]. The 25 blocks tile the output, so after the call the output array IS the
  product of the two arrays as the call found them.
-/
import proofs.«411817_j9139690406075_3_alg».proof.Proof.Gen.KernelIdeal.Frame
import proofs.«411817_j9139690406075_3_alg».proof.Proof.SageSpec
import proofs.«411817_j9139690406075_3_alg».proof.Proof.LibPlainDot
import Idealize.ShloMosaic.Lib.Pipeline.Value
import Idealize.ShloMosaic.Lib.ValueIdx

set_option maxRecDepth 16384

noncomputable section

namespace Cert.KernelIdeal.Lin4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's payload at an entry: the row of the staged feature block against the column of the weights. -/
theorem pay_apply (x0 : Vec Ideal S2048x128 .bf16) (x1 : Vec Ideal S128x128 .bf16) (r : Fin 2048) (q : Fin 128) :
    k4_pay1 (F := Ideal) x0 x1 (ix2 r q) = ∑ k : Fin 128, x0 (ix2 r k) * x1 (ix2 k q) := by
  unfold k4_pay1
  simp only [shapeCast_self]
  exact PlainDot.matmul_zero_apply dot_S2048x128_S128x128_S2048x128_1_0_0_1_n_n ⟨rfl, rfl, rfl, rfl, rfl, rfl⟩ none x0 x1 r q

/-- The printed index maps over the grid: the feature window and the output window sit on the same row block, in
    column block 0; the weight window is always the one block. -/
theorem idx_facts : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What point t writes back is block t of the product of the two arrays as the call finds them. -/
theorem flushed_eq (c : Dev nD) (t : Fin cfg4.N) :
    (dat4 (F := Ideal) V c).flushed 2 t
      = ((cfg4.win 2).blk t).view.read (Elt Ideal) (Sage.linOut (V c main_v45) (V c main_v49)) := by
  show (cfg4.win 2).cut (grid4.coords t) ((dat4 (F := Ideal) V c).after 2 t) = _
  rw [after4_2]
  unfold out4_2
  rw [View.canon_unit_zero hz]
  simp only [View.ld_unit_zero (S := S2048x128) hz, View.ld_unit_zero (S := S128x128) hz]
  obtain ⟨e0, e1, e2, e3, e4, e5⟩ := idx_facts t
  funext j
  obtain ⟨r, q, rfl⟩ : ∃ (r : Fin 2048) (q : Fin 128), j = ix2 r q := ⟨j 0, j 1, eq_ix2 j⟩
  show k4_pay1 (F := Ideal) (iblk4 V c 0 t) (iblk4 V c 1 t) (ix2 r q)
    = Sage.linOut (V c main_v45) (V c main_v49) (((cfg4.win 2).blk t).view.emb (ix2 r q))
  rw [pay_apply]
  have hemb : ((cfg4.win 2).blk t).view.emb (ix2 r q) = (ix2 (⟨t.val * 2048 + r.val, by have ht : t.val < 25 := t.isLt; have := r.isLt; show _ < 51200; omega⟩ : Fin 51200) q : S51200x128.Idx) := by
    funext a; apply Fin.ext
    match a with
    | ⟨0, _⟩ => show win4_2.index t (0 : Fin 2) * 2048 + 1 * r.val = t.val * 2048 + r.val; omega
    | ⟨1, _⟩ => show win4_2.index t (1 : Fin 2) * 128 + 1 * q.val = q.val; omega
  rw [hemb, Sage.linOut_apply]
  refine Finset.sum_congr rfl fun k _ => ?_
  have h0 : iblk4 V c 0 t (ix2 r k) = V c main_v45 (ix2 (⟨t.val * 2048 + r.val, by have ht : t.val < 25 := t.isLt; have := r.isLt; show _ < 51200; omega⟩ : Fin 51200) k) := by
    show V c main_v45 (((cfg4.win 0).blk t).view.emb (ix2 r k)) = _
    refine congrArg (V c main_v45) ?_
    funext a; apply Fin.ext
    match a with
    | ⟨0, _⟩ => show win4_0.index t (0 : Fin 2) * 2048 + 1 * r.val = t.val * 2048 + r.val; omega
    | ⟨1, _⟩ => show win4_0.index t (1 : Fin 2) * 128 + 1 * k.val = k.val; omega
  have h1 : iblk4 V c 1 t (ix2 k q) = V c main_v49 (ix2 k q) := by
    show V c main_v49 (((cfg4.win 1).blk t).view.emb (ix2 k q)) = _
    refine congrArg (V c main_v49) ?_
    funext a; apply Fin.ext
    match a with
    | ⟨0, _⟩ => show win4_1.index t (0 : Fin 2) * 128 + 1 * k.val = k.val; omega
    | ⟨1, _⟩ => show win4_1.index t (1 : Fin 2) * 128 + 1 * q.val = q.val; omega
  rw [h0, h1]

/-- An index of the output array is in point t's block iff each coordinate is in the block's range on its axis. -/
theorem mem_blk (t : Fin cfg4.N) (i : S51200x128.Idx) :
    i ∈ ((cfg4.win 2).blk t).view.set ↔ ∀ a : Fin 2, win4_2.index t a * S2048x128.size a ≤ (i a).val ∧ (i a).val < win4_2.index t a * S2048x128.size a + S2048x128.size a := by
  show i ∈ ((View.whole main_v52).slice (win4_2.rect t)).set ↔ _
  rw [View.set_slice_whole, Rect.mem_set_unit]
  exact Iff.rfl

/-- Every index of the output array lies in the block of the point that its row falls in. -/
theorem cover (i : S51200x128.Idx) : ∃ t : Fin cfg4.N, (cfg4.win 2).flush t = true ∧ i ∈ ((cfg4.win 2).blk t).view.set := by
  have hi0 : (i 0).val < 51200 := (i 0).isLt
  have hi1 : (i 1).val < 128 := (i 1).isLt
  refine ⟨(⟨(i 0).val / 2048, by show _ < 25; omega⟩ : Fin cfg4.N), flush4_2 _, ?_⟩
  rw [mem_blk]
  obtain ⟨e0, e1, e2, e3, e4, e5⟩ := idx_facts (⟨(i 0).val / 2048, by show _ < 25; omega⟩ : Fin cfg4.N)
  intro a
  match a with
  | ⟨0, _⟩ =>
    show win4_2.index _ (0 : Fin 2) * 2048 ≤ (i 0).val ∧ (i 0).val < win4_2.index _ (0 : Fin 2) * 2048 + 2048
    rw [e4]; show (i 0).val / 2048 * 2048 ≤ (i 0).val ∧ (i 0).val < (i 0).val / 2048 * 2048 + 2048; omega
  | ⟨1, _⟩ =>
    show win4_2.index _ (1 : Fin 2) * 128 ≤ (i 1).val ∧ (i 1).val < win4_2.index _ (1 : Fin 2) * 128 + 128
    rw [e5]; omega

/-- The output array after the call is the product of the two arrays as the call found them. -/
theorem final (c : Dev nD) :
    (dat4 (F := Ideal) V c).arrAt 2 cfg4.N = Sage.linOut (V c main_v45) (V c main_v49) :=
  (dat4 (F := Ideal) V c).arrAt_eq_of_cover 2 (Sage.linOut (V c main_v45) (V c main_v49))
    (fun t _ => flushed_eq V c t) (cover)

end Cert.KernelIdeal.Lin4

end
-- ==== Proof.RegionEpi5.lean ====
/-
  The last layer-closing call, read as a whole array.

  The call's grid has 25 points; point t stages rows [2048·t, 2048·t + 2048) of the feature matrix, of the aggregated
  neighbour matrix and of the reciprocal-degree column, the whole self-weight matrix and the bias row, and writes back
  the same rows of the output. Its body computes agg·(1/deg) + h·Ws + b row by row and stops there: no positive part is
  taken. So the 25 blocks it writes tile the output with that one function of the five arrays as the call found them.
-/
import proofs.«411817_j9139690406075_3_alg».proof.Proof.Gen.KernelIdeal.Frame
import proofs.«411817_j9139690406075_3_alg».proof.Proof.SageSpec
import proofs.«411817_j9139690406075_3_alg».proof.Proof.LibPlainDot
import Idealize.ShloMosaic.Lib.Pipeline.Value
import Idealize.ShloMosaic.Lib.ValueLayout
import Idealize.ShloMosaic.Lib.ValueIdx

set_option maxRecDepth 16384

noncomputable section

namespace Cert.KernelIdeal.Epi5

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- A one-column array spread over many columns reads, at (p, q), the operand's entry in row p. -/
theorem bcast_col {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's payload at an entry: the aggregate scaled by its row's reciprocal degree, plus the row of the staged
    feature block against the column of the self-weights, plus the bias of the column. -/
theorem pay_apply (x0 : Vec Ideal S2048x128 .bf16) (x3 : Vec Ideal S128x128 .bf16) (x1 : Vec Ideal S2048x128 .f32)
    (x2 : Vec Ideal S2048x1 .f32) (x4 : Vec Ideal S1x128 .f32) (r : Fin 2048) (q : Fin 128) :
    k5_pay1 (F := Ideal) x0 x3 x1 x2 x4 (ix2 r q)
      = (x1 (ix2 r q) * x2 (ix2 r (0 : Fin 1)) + ∑ k : Fin 128, x0 (ix2 r k) * x3 (ix2 k q)) + x4 (ix2 (0 : Fin 1) q) := by
  unfold k5_pay1
  simp only [shapeCast_self]
  have hm : matmul (φ₁ := .bf16) (φ₂ := .bf16) dot_S2048x128_S128x128_S2048x128_1_0_0_1_n_n none x0 x3 (constant (F := Ideal) S2048x128 .f32 0x00000000#32) (ix2 r q)
      = ∑ k : Fin 128, x0 (ix2 r k) * x3 (ix2 k q) :=
    PlainDot.matmul_zero_apply (φ₁ := .bf16) (φ₂ := .bf16) dot_S2048x128_S128x128_S2048x128_1_0_0_1_n_n ⟨rfl, rfl, rfl, rfl, rfl, rfl⟩ none x0 x3 r q
  rw [addf_apply, addf_apply, mulf_apply, hm,
    bcast_col x2 broadcasts_S2048x1_S2048x128 r q, broadcastTo_1b_ab_apply x4 broadcasts_S1x128_S2048x128 r q]

/-- The printed index maps over the grid: the feature, aggregate, reciprocal-degree and output windows sit on the same
    row block, in column block 0; the weight window and the bias window are always the one block. -/
theorem idx_facts : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = t.val
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = t.val
    ∧ win5_5.index t (1 : Fin 2) = 0 :=
  (by decide +kernel : ∀ t : Fin grid5.N, _)

/-- Row r of row block t, as a row of a whole 51200-row array. -/
def gRow (t : Fin cfg5.N) (r : Fin 2048) : Fin 51200 :=
  ⟨t.val * 2048 + r.val, by have ht : t.val < 25 := t.isLt; have := r.isLt; omega⟩

/-- What point t writes back is block t of the closing step of the five arrays as the call finds them. -/
theorem flushed_eq (c : Dev nD) (t : Fin cfg5.N) :
    (dat5 (F := Ideal) V c).flushed 5 t
      = ((cfg5.win 5).blk t).view.read (Elt Ideal)
          (Sage.epiOut false (V c main_v45) (V c main_v62) (V c main_v11) (V c main_v47) (V c main_v51)) := by
  show (cfg5.win 5).cut (grid5.coords t) ((dat5 (F := Ideal) V c).after 5 t) = _
  rw [after5_5]
  unfold out5_5
  rw [View.canon_unit_zero hz]
  simp only [View.ld_unit_zero (S := S2048x128) hz, View.ld_unit_zero (S := S128x128) hz,
    View.ld_unit_zero (S := S2048x1) hz, View.ld_unit_zero (S := S1x128) hz]
  obtain ⟨e00, e01, e10, e11, e20, e21, e30, e31, e40, e41, e50, e51⟩ := idx_facts t
  funext j
  obtain ⟨r, q, rfl⟩ : ∃ (r : Fin 2048) (q : Fin 128), j = ix2 r q := ⟨j 0, j 1, eq_ix2 j⟩
  show k5_pay1 (F := Ideal) (iblk5 V c 0 t) (iblk5 V c 3 t) (iblk5 V c 1 t) (iblk5 V c 2 t) (iblk5 V c 4 t) (ix2 r q)
    = Sage.epiOut false (V c main_v45) (V c main_v62) (V c main_v11) (V c main_v47) (V c main_v51)
        (((cfg5.win 5).blk t).view.emb (ix2 r q))
  rw [pay_apply]
  have hemb : ((cfg5.win 5).blk t).view.emb (ix2 r q) = (ix2 (gRow t r) q : S51200x128.Idx) := by
    funext a; apply Fin.ext
    match a with
    | ⟨0, _⟩ => show win5_5.index t (0 : Fin 2) * 2048 + 1 * r.val = t.val * 2048 + r.val; omega
    | ⟨1, _⟩ => show win5_5.index t (1 : Fin 2) * 128 + 1 * q.val = q.val; omega
  rw [hemb, Sage.epiOut_apply, if_neg Bool.false_ne_true]
  have h1 : iblk5 V c 1 t (ix2 r q) = V c main_v62 (ix2 (gRow t r) q) := by
    show V c main_v62 (((cfg5.win 1).blk t).view.emb (ix2 r q)) = _
    refine congrArg (V c main_v62) ?_
    funext a; apply Fin.ext
    match a with
    | ⟨0, _⟩ => show win5_1.index t (0 : Fin 2) * 2048 + 1 * r.val = t.val * 2048 + r.val; omega
    | ⟨1, _⟩ => show win5_1.index t (1 : Fin 2) * 128 + 1 * q.val = q.val; omega
  have h2 : iblk5 V c 2 t (ix2 r (0 : Fin 1)) = V c main_v11 (ix2 (gRow t r) (0 : Fin 1)) := by
    show V c main_v11 (((cfg5.win 2).blk t).view.emb (ix2 r (0 : Fin 1))) = _
    refine congrArg (V c main_v11) ?_
    funext a; apply Fin.ext
    match a with
    | ⟨0, _⟩ => show win5_2.index t (0 : Fin 2) * 2048 + 1 * r.val = t.val * 2048 + r.val; omega
    | ⟨1, _⟩ => show win5_2.index t (1 : Fin 2) * 1 + 1 * 0 = 0; omega
  have h4 : iblk5 V c 4 t (ix2 (0 : Fin 1) q) = V c main_v51 (ix2 (0 : Fin 1) q) := by
    show V c main_v51 (((cfg5.win 4).blk t).view.emb (ix2 (0 : Fin 1) q)) = _
    refine congrArg (V c main_v51) ?_
    funext a; apply Fin.ext
    match a with
    | ⟨0, _⟩ => show win5_4.index t (0 : Fin 2) * 1 + 1 * 0 = 0; omega
    | ⟨1, _⟩ => show win5_4.index t (1 : Fin 2) * 128 + 1 * q.val = q.val; omega
  have h0 : ∀ k : Fin 128, iblk5 V c 0 t (ix2 r k) = V c main_v45 (ix2 (gRow t r) k) := fun k => by
    show V c main_v45 (((cfg5.win 0).blk t).view.emb (ix2 r k)) = _
    refine congrArg (V c main_v45) ?_
    funext a; apply Fin.ext
    match a with
    | ⟨0, _⟩ => show win5_0.index t (0 : Fin 2) * 2048 + 1 * r.val = t.val * 2048 + r.val; omega
    | ⟨1, _⟩ => show win5_0.index t (1 : Fin 2) * 128 + 1 * k.val = k.val; omega
  have h3 : ∀ k : Fin 128, iblk5 V c 3 t (ix2 k q) = V c main_v47 (ix2 k q) := fun k => by
    show V c main_v47 (((cfg5.win 3).blk t).view.emb (ix2 k q)) = _
    refine congrArg (V c main_v47) ?_
    funext a; apply Fin.ext
    match a with
    | ⟨0, _⟩ => show win5_3.index t (0 : Fin 2) * 128 + 1 * k.val = k.val; omega
    | ⟨1, _⟩ => show win5_3.index t (1 : Fin 2) * 128 + 1 * q.val = q.val; omega
  rw [h1, h2, h4]
  simp only [h0, h3]

/-- An index of the output array is in point t's block iff each coordinate is in the block's range on its axis. -/
theorem mem_blk (t : Fin cfg5.N) (i : S51200x128.Idx) :
    i ∈ ((cfg5.win 5).blk t).view.set ↔ ∀ a : Fin 2, win5_5.index t a * S2048x128.size a ≤ (i a).val ∧ (i a).val < win5_5.index t a * S2048x128.size a + S2048x128.size a := by
  show i ∈ ((View.whole main_v63).slice (win5_5.rect t)).set ↔ _
  rw [View.set_slice_whole, Rect.mem_set_unit]
  exact Iff.rfl

/-- Every index of the output array lies in the block of the point that its row falls in. -/
theorem cover (i : S51200x128.Idx) : ∃ t : Fin cfg5.N, (cfg5.win 5).flush t = true ∧ i ∈ ((cfg5.win 5).blk t).view.set := by
  have hi0 : (i 0).val < 51200 := (i 0).isLt
  have hi1 : (i 1).val < 128 := (i 1).isLt
  refine ⟨(⟨(i 0).val / 2048, by show _ < 25; omega⟩ : Fin cfg5.N), flush5_5 _, ?_⟩
  rw [mem_blk]
  obtain ⟨e00, e01, e10, e11, e20, e21, e30, e31, e40, e41, e50, e51⟩ := idx_facts (⟨(i 0).val / 2048, by show _ < 25; omega⟩ : Fin cfg5.N)
  intro a
  match a with
  | ⟨0, _⟩ =>
    show win5_5.index _ (0 : Fin 2) * 2048 ≤ (i 0).val ∧ (i 0).val < win5_5.index _ (0 : Fin 2) * 2048 + 2048
    rw [e50]; show (i 0).val / 2048 * 2048 ≤ (i 0).val ∧ (i 0).val < (i 0).val / 2048 * 2048 + 2048; omega
  | ⟨1, _⟩ =>
    show win5_5.index _ (1 : Fin 2) * 128 ≤ (i 1).val ∧ (i 1).val < win5_5.index _ (1 : Fin 2) * 128 + 128
    rw [e51]; omega

/-- The output array after the call is the layer's closing step, without the positive part, of the five arrays as the call found them. -/
theorem final (c : Dev nD) :
    (dat5 (F := Ideal) V c).arrAt 5 cfg5.N
      = Sage.epiOut false (V c main_v45) (V c main_v62) (V c main_v11) (V c main_v47) (V c main_v51) :=
  (dat5 (F := Ideal) V c).arrAt_eq_of_cover 5 (Sage.epiOut false (V c main_v45) (V c main_v62) (V c main_v11) (V c main_v47) (V c main_v51))
    (fun t _ => flushed_eq V c t) (cover)

end Cert.KernelIdeal.Epi5

end
-- ==== Proof.KerChain2.lean ====
/-
  The kernel program's buffers at the boundaries of its segments, the last layer, and the three results.

  The last layer's 128×64 weights and its 64 biases are padded with zero columns to width 128; on their first 64 columns
  the padded arrays are the inputs. The fifth call projects the second hidden matrix, the host aggregates along the
  edges, the sixth call closes the layer without activation. The results are the first 50000 rows of the three layers'
  padded outputs (and the first 64 columns of the last).
-/
import proofs.«411817_j9139690406075_3_alg».proof.Proof.Gen.KernelIdeal.Frame
import proofs.«411817_j9139690406075_3_alg».proof.Proof.KerPass
import proofs.«411817_j9139690406075_3_alg».proof.Proof.KerLayer
import proofs.«411817_j9139690406075_3_alg».proof.Proof.SageReal
import proofs.«411817_j9139690406075_3_alg».proof.Proof.KerChain0
import proofs.«411817_j9139690406075_3_alg».proof.Proof.RegionLin4
import proofs.«411817_j9139690406075_3_alg».proof.Proof.RegionEpi5
import Idealize.ShloMosaic.Lib.KernelVsHost
import Idealize.ShloMosaic.Lib.StableHlo.Run

set_option maxRecDepth 16384

noncomputable section

namespace Cert.KernelIdeal.Chain2

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-- A column number of the 64-wide output among the 128 padded columns. -/
def castQ (j : Fin 64) : Fin 128 := ⟨j.val, by have := j.isLt; omega⟩

/-- The layer's input is the second layer's output. -/
theorem h_entry (c : Dev nD) (i : S51200x128.Idx) :
    W11 m ρ c (Proc.devRef .tc main_v45) i = W10 m ρ c (Proc.devRef .tc main_v44) i := by
  show StableHlo.after hostOps4 (W10 m ρ c) (Proc.devRef .tc main_v45) i = _
  after_results
  rfl

set_option maxHeartbeats 1000000 in
/-- The padded self weights on their first 64 columns. -/
theorem ws_entry (c : Dev nD) (k : Fin 128) (j : Fin 64) :
    W13 m ρ c (Proc.devRef .tc main_v47) (ix2 k (castQ j)) = m ((c : Thread nD τ).loc main_arg9) (ix2 k j) := by
  show StableHlo.after hostOps4_2 (W12 m ρ c) (Proc.devRef .tc main_v47) (ix2 k (castQ j)) = _
  after_results
  show pad S128x128 ![0, 0] ![0, 64] ![0, 0] (W10 m ρ c (Proc.devRef .tc main_arg9) : FVec Ideal S128x64 .f32)
    (sitofp (F := Ideal) .f32 (constantI S_ 32 0#32)) pads_S128x64_S128x128_000_0640 h_S_ (ix2 k (castQ j)) = _
  rw [pad_apply_of_inside _ _ _ _ _ _ _ (ix2 k (castQ j)) (ix2 k j) (fun a => by
    match a with
    | ⟨0, _⟩ => show k.val = 0 + k.val * (0 + 1); omega
    | ⟨1, _⟩ => show j.val = 0 + j.val * (0 + 1); omega)]
  rw [Pass.c10_arg9]

set_option maxHeartbeats 1000000 in
/-- The padded neighbour weights on their first 64 columns. -/
theorem wn_entry (c : Dev nD) (k : Fin 128) (j : Fin 64) :
    W15 m ρ c (Proc.devRef .tc main_v49) (ix2 k (castQ j)) = m ((c : Thread nD τ).loc main_arg10) (ix2 k j) := by
  show StableHlo.after hostOps4_4 (W14 m ρ c) (Proc.devRef .tc main_v49) (ix2 k (castQ j)) = _
  after_results
  show pad S128x128 ![0, 0] ![0, 64] ![0, 0] (W10 m ρ c (Proc.devRef .tc main_arg10) : FVec Ideal S128x64 .f32)
    (sitofp (F := Ideal) .f32 (constantI S_ 32 0#32)) pads_S128x64_S128x128_000_0640 h_S_ (ix2 k (castQ j)) = _
  rw [pad_apply_of_inside _ _ _ _ _ _ _ (ix2 k (castQ j)) (ix2 k j) (fun a => by
    match a with
    | ⟨0, _⟩ => show k.val = 0 + k.val * (0 + 1); omega
    | ⟨1, _⟩ => show j.val = 0 + j.val * (0 + 1); omega)]
  rw [Pass.c10_arg10]

set_option maxHeartbeats 1000000 in
/-- The padded bias row on its first 64 columns. -/
theorem b_entry (c : Dev nD) (j : Fin 64) (z : Fin 1) :
    W17 m ρ c (Proc.devRef .tc main_v51) (ix2 z (castQ j)) = m ((c : Thread nD τ).loc main_arg11) (ix1 j) := by
  show StableHlo.after hostOps4_6 (W16 m ρ c) (Proc.devRef .tc main_v51) (ix2 z (castQ j)) = _
  after_results
  show shapeCast S1x128 (pad S128 ![0] ![64] ![0] (W10 m ρ c (Proc.devRef .tc main_arg11) : FVec Ideal S64 .f32)
    (sitofp (F := Ideal) .f32 (constantI S_ 32 0#32)) pads_S64_S128_0640 h_S_) shapeCasts_S128_S1x128 (ix2 z (castQ j)) = _
  rw [shapeCast_addUnit_apply ![128] _ shapeCasts_S128_S1x128 (ix2 z (castQ j))]
  refine (pad_apply_of_inside _ _ _ _ _ _ _ _ (ix1 j) (fun a => by
    match a with
    | ⟨0, _⟩ => show j.val = 0 + j.val * (0 + 1); omega)).trans ?_
  rw [Pass.c10_arg11]

theorem hn_eq (c : Dev nD) :
    W18 m ρ c (Proc.devRef .tc main_v52) = Sage.linOut (W17 m ρ c (Proc.devRef .tc main_v45)) (W17 m ρ c (Proc.devRef .tc main_v49)) :=
  (W18_arr m ρ c 2).trans (Lin4.final (V17 m ρ) c)

set_option maxHeartbeats 4000000 in
theorem agg_eq (c : Dev nD) :
    W19 m ρ c (Proc.devRef .tc main_v62)
      = KerLayer.agg (W18 m ρ c (Proc.devRef .tc main_v52)) (m ((c : Thread nD τ).loc main_arg1)) (m ((c : Thread nD τ).loc main_arg2)) := by
  show StableHlo.after hostOps5 (W18 m ρ c) (Proc.devRef .tc main_v62) = _
  after_results
  rw [Pass.c18_arg1, Pass.c18_arg2]
  rfl

/-- After the sixth call: the output matrix, padded. -/
theorem out_eq (c : Dev nD) :
    W20 m ρ c (Proc.devRef .tc main_v63)
      = Sage.epiOut false (W11 m ρ c (Proc.devRef .tc main_v45)) (W19 m ρ c (Proc.devRef .tc main_v62))
          (KerLayer.dinv (m ((c : Thread nD τ).loc main_arg2))) (W13 m ρ c (Proc.devRef .tc main_v47)) (W17 m ρ c (Proc.devRef .tc main_v51)) := by
  refine (W20_arr m ρ c 5).trans ((Epi5.final (V19 m ρ) c).trans ?_)
  show Sage.epiOut false (W19 m ρ c (Proc.devRef .tc main_v45)) (W19 m ρ c (Proc.devRef .tc main_v62)) (W19 m ρ c (Proc.devRef .tc main_v11))
      (W19 m ρ c (Proc.devRef .tc main_v47)) (W19 m ρ c (Proc.devRef .tc main_v51)) = _
  rw [Pass.c19_v45, Pass.c19_v47, Pass.c19_v51, Pass.c19_v11, Chain0.dinv_eq]

/-! ## The three results -/

/-- The first result is the rows of the nodes of the first layer's padded output. -/
theorem res0_entry (c : Dev nD) (v : Fin 50000) (j : Fin 128) :
    W21 m ρ c (Proc.devRef .tc main_v64) (ix2 v j) = W6 m ρ c (Proc.devRef .tc main_v28) (ix2 (Sage.castP v) j) := by
  show StableHlo.after hostOps6 (W20 m ρ c) (Proc.devRef .tc main_v64) (ix2 v j) = _
  after_results
  rw [extractStridedSlice_apply _ _ _ (ix2 v j) (ix2 (Sage.castP v) j) (fun a => by
    match a with
    | ⟨0, _⟩ => show v.val = 0 + v.val; omega
    | ⟨1, _⟩ => show j.val = 0 + j.val; omega)]
  rw [Pass.c20_v28]

/-- The second result is the rows of the nodes of the second layer's padded output. -/
theorem res1_entry (c : Dev nD) (v : Fin 50000) (j : Fin 128) :
    W21 m ρ c (Proc.devRef .tc main_v65) (ix2 v j) = W10 m ρ c (Proc.devRef .tc main_v44) (ix2 (Sage.castP v) j) := by
  show StableHlo.after hostOps6 (W20 m ρ c) (Proc.devRef .tc main_v65) (ix2 v j) = _
  after_results
  rw [extractStridedSlice_apply _ _ _ (ix2 v j) (ix2 (Sage.castP v) j) (fun a => by
    match a with
    | ⟨0, _⟩ => show v.val = 0 + v.val; omega
    | ⟨1, _⟩ => show j.val = 0 + j.val; omega)]
  rw [Pass.c20_v44]

/-- The third result is the rows of the nodes and the first 64 columns of the last layer's padded output. -/
theorem res2_entry (c : Dev nD) (v : Fin 50000) (j : Fin 64) :
    W21 m ρ c (Proc.devRef .tc main_v66) (ix2 v j) = W20 m ρ c (Proc.devRef .tc main_v63) (ix2 (Sage.castP v) (castQ j)) := by
  show StableHlo.after hostOps6 (W20 m ρ c) (Proc.devRef .tc main_v66) (ix2 v j) = _
  after_results
  rw [extractStridedSlice_apply _ _ _ (ix2 v j) (ix2 (Sage.castP v) (castQ j)) (fun a => by
    match a with
    | ⟨0, _⟩ => show v.val = 0 + v.val; omega
    | ⟨1, _⟩ => show j.val = 0 + j.val; omega)]

end Cert.KernelIdeal.Chain2

end
-- ==== Proof.KerBridge.lean ====
/-
  A closed layer on the kernel's padded arrays, read on a node's row, is the layer over the reals.

  On row v < 50000 and column q the kernel's arrays give
      (Σ_{e into v} (h·Wn)[src e, q]) · (1/d) + (h·Ws)[v, q] + b[q],
  every factor a real number; this is the coercion of the real layer by the law that the linear map commutes with the
  sum over the edges and with the scaling.
-/
import proofs.«411817_j9139690406075_3_alg».proof.Proof.KerLayer
import proofs.«411817_j9139690406075_3_alg».proof.Proof.SageReal

noncomputable section

namespace Cert.KernelIdeal.KerBridge

open Cert.KernelIdeal Cert.KernelIdeal.Gen Idealize.ShloMosaic Idealize.ShloMosaic.ValueIdx

theorem epiPre_entry (h : Sage.SP.Idx → EReal) (wnb wsb : Sage.SW.Idx → EReal) (dinv : Sage.SD.Idx → EReal) (bb : Sage.SB.Idx → EReal)
    (src dst : IVec S800000 32) (hsrc : Sage.InRange src)
    (X : Fin 50000 → Fin 128 → ℝ) (ws wn : Fin 128 → ℝ) (b d : ℝ) (hd : d ≠ 0) (v : Fin 50000) (q : Fin 128)
    (hX : ∀ (u : Fin 50000) (k : Fin 128), h (ix2 (Sage.castP u) k) = ((X u k : ℝ) : EReal))
    (hws : ∀ k : Fin 128, wsb (ix2 k q) = ((ws k : ℝ) : EReal)) (hwn : ∀ k : Fin 128, wnb (ix2 k q) = ((wn k : ℝ) : EReal))
    (hb : bb (ix2 (0 : Fin 1) q) = ((b : ℝ) : EReal))
    (hdinv : dinv (ix2 (Sage.castP v) (0 : Fin 1)) = Ideal.div 1 ((d : ℝ) : EReal)) :
    Sage.epiPre h (KerLayer.agg (Sage.linOut h wnb) src dst) dinv wsb bb (ix2 (Sage.castP v) q)
      = ((SageAlg.layerR X ws wn b d (Sage.into dst v.val) (Sage.srcRow src hsrc) v : ℝ) : EReal) := by
  show (KerLayer.agg (Sage.linOut h wnb) src dst (ix2 (Sage.castP v) q) * dinv (ix2 (Sage.castP v) (0 : Fin 1))
      + ∑ k : Fin 128, h (ix2 (Sage.castP v) k) * wsb (ix2 k q)) + bb (ix2 (0 : Fin 1) q) = _
  rw [KerLayer.agg_apply _ _ _ hsrc, hdinv, hb]
  have hsum : ∀ e : Fin 800000, Sage.linOut h wnb (ix2 (Sage.srcRowP src hsrc e) q)
      = ∑ k : Fin 128, ((X (Sage.srcRow src hsrc e) k : ℝ) : EReal) * ((wn k : ℝ) : EReal) := fun e => by
    rw [Sage.linOut_apply]
    exact Finset.sum_congr rfl fun k _ => by rw [Sage.srcRowP_eq, hX, hwn]
  simp only [hsum, hX, hws]
  exact SageAlg.map_then_scale X ws wn b d hd (Sage.into dst v.val) (Sage.srcRow src hsrc) v

end Cert.KernelIdeal.KerBridge

end
-- ==== Proof.SageNet.lean ====
/-
  The network's data over the reals — input features, the three layers' weights and biases, the guarded in-degrees —
  the three matrices it computes, and what it means for a tuple of extended-real arrays to be that data.
-/
import proofs.«411817_j9139690406075_3_alg».proof.Proof.SageReal

noncomputable section

namespace Sage

open Idealize.ShloMosaic Idealize.ShloMosaic.ValueIdx

structure Net where
  X0 : Fin 50000 → Fin 128 → ℝ
  Ws0 : Fin 128 → Fin 128 → ℝ
  Wn0 : Fin 128 → Fin 128 → ℝ
  B0 : Fin 128 → ℝ
  Ws1 : Fin 128 → Fin 128 → ℝ
  Wn1 : Fin 128 → Fin 128 → ℝ
  B1 : Fin 128 → ℝ
  Ws2 : Fin 128 → Fin 64 → ℝ
  Wn2 : Fin 128 → Fin 64 → ℝ
  B2 : Fin 64 → ℝ
  d : Fin 50000 → ℝ
  hd : ∀ v, d v ≠ 0

variable (N : Net) (src dst : SE.Idx → BitVec 32) (hsrc : InRange src)

/-- The first hidden matrix. -/
def Net.X1 : Fin 50000 → Fin 128 → ℝ := reluR (layerR N.X0 N.Ws0 N.Wn0 N.B0 N.d src dst hsrc)
/-- The second hidden matrix. -/
def Net.X2 : Fin 50000 → Fin 128 → ℝ := reluR (layerR (N.X1 src dst hsrc) N.Ws1 N.Wn1 N.B1 N.d src dst hsrc)
/-- The output matrix. -/
def Net.Y : Fin 50000 → Fin 64 → ℝ := layerR (N.X2 src dst hsrc) N.Ws2 N.Wn2 N.B2 N.d src dst hsrc

/-- The ten floating-point arrays are the coercions of the network's data. -/
structure Net.Fits (a0 : SN.Idx → EReal) (a3 a4 : SW.Idx → EReal) (a5 : (⟨1, ![128]⟩ : Shape).Idx → EReal)
    (a6 a7 : SW.Idx → EReal) (a8 : (⟨1, ![128]⟩ : Shape).Idx → EReal)
    (a9 a10 : (⟨2, ![128, 64]⟩ : Shape).Idx → EReal) (a11 : (⟨1, ![64]⟩ : Shape).Idx → EReal) : Prop where
  x0 : ∀ (v : Fin 50000) (k : Fin 128), a0 (ix2 v k) = ((N.X0 v k : ℝ) : EReal)
  ws0 : ∀ k j : Fin 128, a3 (ix2 k j) = ((N.Ws0 k j : ℝ) : EReal)
  wn0 : ∀ k j : Fin 128, a4 (ix2 k j) = ((N.Wn0 k j : ℝ) : EReal)
  b0 : ∀ j : Fin 128, a5 (ix1 j) = ((N.B0 j : ℝ) : EReal)
  ws1 : ∀ k j : Fin 128, a6 (ix2 k j) = ((N.Ws1 k j : ℝ) : EReal)
  wn1 : ∀ k j : Fin 128, a7 (ix2 k j) = ((N.Wn1 k j : ℝ) : EReal)
  b1 : ∀ j : Fin 128, a8 (ix1 j) = ((N.B1 j : ℝ) : EReal)
  ws2 : ∀ (k : Fin 128) (j : Fin 64), a9 (ix2 k j) = ((N.Ws2 k j : ℝ) : EReal)
  wn2 : ∀ (k : Fin 128) (j : Fin 64), a10 (ix2 k j) = ((N.Wn2 k j : ℝ) : EReal)
  b2 : ∀ j : Fin 64, a11 (ix1 j) = ((N.B2 j : ℝ) : EReal)

/-- Arrays all of whose entries are real numbers, and nonzero real in-degrees, are some network's data. -/
theorem exists_net (a0 : SN.Idx → EReal) (a3 a4 : SW.Idx → EReal) (a5 : (⟨1, ![128]⟩ : Shape).Idx → EReal)
    (a6 a7 : SW.Idx → EReal) (a8 : (⟨1, ![128]⟩ : Shape).Idx → EReal)
    (a9 a10 : (⟨2, ![128, 64]⟩ : Shape).Idx → EReal) (a11 : (⟨1, ![64]⟩ : Shape).Idx → EReal)
    (h0 : Finite a0) (h3 : Finite a3) (h4 : Finite a4) (h5 : Finite a5) (h6 : Finite a6) (h7 : Finite a7) (h8 : Finite a8)
    (h9 : Finite a9) (h10 : Finite a10) (h11 : Finite a11)
    (deg : (⟨1, ![50000]⟩ : Shape).Idx → EReal) (hdeg : ∀ v : Fin 50000, ∃ r : ℝ, 1 ≤ r ∧ deg (ix1 v) = (r : EReal)) :
    ∃ N : Net, N.Fits a0 a3 a4 a5 a6 a7 a8 a9 a10 a11 ∧ ∀ v : Fin 50000, deg (ix1 v) = ((N.d v : ℝ) : EReal) := by
  choose f0 hf0 using h0
  choose f3 hf3 using h3
  choose f4 hf4 using h4
  choose f5 hf5 using h5
  choose f6 hf6 using h6
  choose f7 hf7 using h7
  choose f8 hf8 using h8
  choose f9 hf9 using h9
  choose f10 hf10 using h10
  choose f11 hf11 using h11
  choose dd hdd using hdeg
  refine ⟨⟨fun v k => f0 (ix2 v k), fun k j => f3 (ix2 k j), fun k j => f4 (ix2 k j), fun j => f5 (ix1 j),
    fun k j => f6 (ix2 k j), fun k j => f7 (ix2 k j), fun j => f8 (ix1 j), fun k j => f9 (ix2 k j), fun k j => f10 (ix2 k j),
    fun j => f11 (ix1 j), dd, fun v => by have := (hdd v).1; intro h; rw [h] at this; norm_num at this⟩, ⟨?_, ?_, ?_, ?_, ?_, ?_, ?_, ?_, ?_, ?_⟩, ?_⟩
  · exact fun v k => hf0 _
  · exact fun k j => hf3 _
  · exact fun k j => hf4 _
  · exact fun j => hf5 _
  · exact fun k j => hf6 _
  · exact fun k j => hf7 _
  · exact fun j => hf8 _
  · exact fun k j => hf9 _
  · exact fun k j => hf10 _
  · exact fun j => hf11 _
  · exact fun v => (hdd v).2

end Sage

end
-- ==== Proof.KerValue.lean ====
/-
  The kernel program's three results are the network over the reals.

  Layer by layer: on the rows of the nodes the padded input is the real input matrix; each layer's closing call then
  leaves, on those rows, the coercion of the real layer's output (with the positive part for the two hidden layers),
  which is the next layer's input. The results are those rows.
-/
import proofs.«411817_j9139690406075_3_alg».proof.Proof.KerChain0
import proofs.«411817_j9139690406075_3_alg».proof.Proof.KerChain1
import proofs.«411817_j9139690406075_3_alg».proof.Proof.KerChain2
import proofs.«411817_j9139690406075_3_alg».proof.Proof.KerBridge
import proofs.«411817_j9139690406075_3_alg».proof.Proof.SageNet

set_option maxRecDepth 16384

noncomputable section

namespace Cert.KernelIdeal.KerValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)
variable (N : Sage.Net)
variable (hfit : N.Fits (m ((c : Thread nD τ).loc main_arg0)) (m ((c : Thread nD τ).loc main_arg3)) (m ((c : Thread nD τ).loc main_arg4))
  (m ((c : Thread nD τ).loc main_arg5)) (m ((c : Thread nD τ).loc main_arg6)) (m ((c : Thread nD τ).loc main_arg7))
  (m ((c : Thread nD τ).loc main_arg8)) (m ((c : Thread nD τ).loc main_arg9)) (m ((c : Thread nD τ).loc main_arg10))
  (m ((c : Thread nD τ).loc main_arg11)))
variable (hsrc : Sage.InRange (m ((c : Thread nD τ).loc main_arg1)))
variable (hdinv : ∀ v : Fin 50000, KerLayer.dinv (m ((c : Thread nD τ).loc main_arg2)) (ix2 (Sage.castP v) (0 : Fin 1))
  = Ideal.div 1 ((N.d v : ℝ) : EReal))

theorem epiOut_true (h agg : Sage.SP.Idx → EReal) (dinv : Sage.SD.Idx → EReal) (ws : Sage.SW.Idx → EReal) (b : Sage.SB.Idx → EReal)
    (i : Sage.SP.Idx) : Sage.epiOut true h agg dinv ws b i = max (Sage.epiPre h agg dinv ws b i) 0 := if_pos rfl

theorem epiOut_false (h agg : Sage.SP.Idx → EReal) (dinv : Sage.SD.Idx → EReal) (ws : Sage.SW.Idx → EReal) (b : Sage.SB.Idx → EReal)
    (i : Sage.SP.Idx) : Sage.epiOut false h agg dinv ws b i = Sage.epiPre h agg dinv ws b i := if_neg Bool.false_ne_true

include hfit hsrc hdinv

/-- The first layer's padded output on the rows of the nodes. -/
theorem hid0 (u : Fin 50000) (k : Fin 128) :
    W6 m ρ c (Proc.devRef .tc main_v28) (ix2 (Sage.castP u) k)
      = ((N.X1 (m ((c : Thread nD τ).loc main_arg1)) (m ((c : Thread nD τ).loc main_arg2)) hsrc u k : ℝ) : EReal) := by
  rw [Chain0.out_eq, epiOut_true, Chain0.agg_eq, Chain0.hn_eq]
  rw [KerBridge.epiPre_entry _ _ _ _ _ _ _ hsrc N.X0 (fun k' => N.Ws0 k' k) (fun k' => N.Wn0 k' k) (N.B0 k) (N.d u) (N.hd u) u k
    (fun u' k' => (Chain0.h_entry m ρ c u' k').trans (hfit.x0 u' k'))
    (fun k' => (Chain0.ws_entry m ρ c k' k).trans (hfit.ws0 k' k))
    (fun k' => (Chain0.wn_entry m ρ c k' k).trans (hfit.wn0 k' k))
    ((Chain0.b_entry m ρ c k 0).trans (hfit.b0 k)) (hdinv u)]
  exact SageAlg.relu_coe _

/-- The second layer's padded output on the rows of the nodes. -/
theorem hid1 (u : Fin 50000) (k : Fin 128) :
    W10 m ρ c (Proc.devRef .tc main_v44) (ix2 (Sage.castP u) k)
      = ((N.X2 (m ((c : Thread nD τ).loc main_arg1)) (m ((c : Thread nD τ).loc main_arg2)) hsrc u k : ℝ) : EReal) := by
  rw [Chain1.out_eq, epiOut_true, Chain1.agg_eq, Chain1.hn_eq]
  rw [KerBridge.epiPre_entry _ _ _ _ _ _ _ hsrc (N.X1 _ _ hsrc) (fun k' => N.Ws1 k' k) (fun k' => N.Wn1 k' k) (N.B1 k) (N.d u) (N.hd u) u k
    (fun u' k' => (Chain1.h_entry m ρ c (ix2 (Sage.castP u') k')).trans (hid0 m ρ c N hfit hsrc hdinv u' k'))
    (fun k' => (Chain1.ws_entry m ρ c k' k).trans (hfit.ws1 k' k))
    (fun k' => (Chain1.wn_entry m ρ c k' k).trans (hfit.wn1 k' k))
    ((Chain1.b_entry m ρ c k 0).trans (hfit.b1 k)) (hdinv u)]
  exact SageAlg.relu_coe _

/-- The last layer's padded output on the rows of the nodes and its first 64 columns. -/
theorem outp (u : Fin 50000) (j : Fin 64) :
    W20 m ρ c (Proc.devRef .tc main_v63) (ix2 (Sage.castP u) (Chain2.castQ j))
      = ((N.Y (m ((c : Thread nD τ).loc main_arg1)) (m ((c : Thread nD τ).loc main_arg2)) hsrc u j : ℝ) : EReal) := by
  rw [Chain2.out_eq, epiOut_false, Chain2.agg_eq, Chain2.hn_eq, Pass.c17_v45, Pass.c17_v49]
  exact KerBridge.epiPre_entry _ _ _ _ _ _ _ hsrc (N.X2 _ _ hsrc) (fun k' => N.Ws2 k' j) (fun k' => N.Wn2 k' j) (N.B2 j) (N.d u) (N.hd u) u (Chain2.castQ j)
    (fun u' k' => (Chain2.h_entry m ρ c (ix2 (Sage.castP u') k')).trans (hid1 m ρ c N hfit hsrc hdinv u' k'))
    (fun k' => (Chain2.ws_entry m ρ c k' j).trans (hfit.ws2 k' j))
    (fun k' => (Chain2.wn_entry m ρ c k' j).trans (hfit.wn2 k' j))
    ((Chain2.b_entry m ρ c j 0).trans (hfit.b2 j)) (hdinv u)

/-- The three results. -/
theorem res0 (v : Fin 50000) (j : Fin 128) :
    W21 m ρ c (Proc.devRef .tc main_v64) (ix2 v j)
      = ((N.X1 (m ((c : Thread nD τ).loc main_arg1)) (m ((c : Thread nD τ).loc main_arg2)) hsrc v j : ℝ) : EReal) :=
  (Chain2.res0_entry m ρ c v j).trans (hid0 m ρ c N hfit hsrc hdinv v j)

theorem res1 (v : Fin 50000) (j : Fin 128) :
    W21 m ρ c (Proc.devRef .tc main_v65) (ix2 v j)
      = ((N.X2 (m ((c : Thread nD τ).loc main_arg1)) (m ((c : Thread nD τ).loc main_arg2)) hsrc v j : ℝ) : EReal) :=
  (Chain2.res1_entry m ρ c v j).trans (hid1 m ρ c N hfit hsrc hdinv v j)

theorem res2 (v : Fin 50000) (j : Fin 64) :
    W21 m ρ c (Proc.devRef .tc main_v66) (ix2 v j)
      = ((N.Y (m ((c : Thread nD τ).loc main_arg1)) (m ((c : Thread nD τ).loc main_arg2)) hsrc v j : ℝ) : EReal) :=
  (Chain2.res2_entry m ρ c v j).trans (outp m ρ c N hfit hsrc hdinv v j)

end Cert.KernelIdeal.KerValue

end
-- ==== Proof.KerDinv.lean ====
/-
  The reciprocal-degree column on the rows of the nodes: row v < 50000 of the 51200×1 column holds 1/deg[v].
-/
import proofs.«411817_j9139690406075_3_alg».proof.Proof.KerLayer
import proofs.«411817_j9139690406075_3_alg».proof.Proof.SageReal

noncomputable section

namespace Cert.KernelIdeal.KerLayer

open Cert.KernelIdeal Cert.KernelIdeal.Gen Idealize.ShloMosaic Idealize.ShloMosaic.ValueIdx

/-- The bit pattern 0x3F800000 reads as the number one: sign 0, exponent field 127 (the bias), fraction 0. -/
private theorem one_bits : Ideal.ofBits .f32 0x3F800000#32 = 1 := by
  have hs : ((0x3F800000#32 : BitVec 32).extractLsb' (8 + 23) 1 == 1#1) = false := by decide
  have he : ((0x3F800000#32 : BitVec 32).extractLsb' 23 8).toNat = 127 := by decide
  have hf : ((0x3F800000#32 : BitVec 32).extractLsb' 0 23).toNat = 0 := by decide
  show Ideal.ieee 8 23 (0x3F800000#32 : BitVec 32) = 1
  unfold Ideal.ieee
  simp only [hs, he, hf]
  norm_num

/-- The constant one spread over a shape is one at every entry. -/
private theorem ones_apply (t : Shape) (h : S_.BroadcastsInDim t (![] : Fin 0 → Fin t.rank)) (i : t.Idx) :
    broadcastInDim t ![] h (constant (F := Ideal) S_ .f32 0x3F800000#32) i = 1 := by
  rw [broadcastInDim_apply _ h _ i ix0 (fun a => a.elim0)]
  exact one_bits

/-- On the extended reals the quotient of two arrays at an entry is the quotient of the entries. -/
private theorem hostDivf_apply {s : Shape} {φ : FTy} (a b : FVec Ideal s φ) (i : s.Idx) :
    Host.divf a b i = Ideal.div (a i) (b i) := rfl

/-- The one start index of the window is zero. -/
private theorem start_toInt :
    ((broadcastInDim S1 ![] bcast_S_S1 (constantI S_ 32 0#32) : IVec S1 32) (ix1 ⟨0, Nat.one_pos⟩)).toInt = 0 := by
  rw [broadcastInDim_apply _ bcast_S_S1 _ (ix1 ⟨0, Nat.one_pos⟩) ix0 (fun a => a.elim0)]
  show (0#32 : BitVec 32).toInt = 0
  decide

/-- Entry v < 50000 of the vector of reciprocals: the window of 50000 quotients 1/deg is written at start 0 over the
    51200 ones, so entry v is quotient v. -/
theorem dinvVec_apply (dst : IVec S800000 32) (v : Fin 50000) :
    dinvVec dst (ix1 (Sage.castP v)) = Ideal.div 1 (deg dst (ix1 v)) := by
  unfold dinvVec
  rw [show scatter_S51200_S1_S50000_0_n_0_0
      = PrefixSet.setDims 51200 50000 scatter_S51200_S1_S50000_0_n_0_0_wf from rfl]
  rw [show (ix1 (Sage.castP v) : S51200.Idx) = ix1 ⟨v.val, by have := v.isLt; omega⟩ from rfl]
  rw [PrefixSet.scatter_set_prefix_apply scatter_S51200_S1_S50000_0_n_0_0_wf (by omega) _
    (broadcastInDim S1 ![] bcast_S_S1 (constantI S_ 32 0#32)) start_toInt _ v]
  rw [hostDivf_apply, ones_apply]

theorem dinv_apply (dst : IVec S800000 32) (v : Fin 50000) (z : Fin 1) :
    dinv dst (ix2 (Sage.castP v) z) = Ideal.div 1 (deg dst (ix1 v)) := by
  have hz : z.val = 0 := by have := z.isLt; omega
  unfold dinv
  -- the column's entry (p, 0) is the vector's entry p: both sit at row-major position p
  rw [shapeCast_apply (dinvVec dst) shapeCasts_S51200_S51200x1 (ix2 (Sage.castP v) z) (ix1 (Sage.castP v)) (by
    rw [Shape.rowMajor_val_one, Shape.rowMajor_val_two]
    show (Sage.castP v).val = (Sage.castP v).val * 1 + z.val
    omega)]
  exact dinvVec_apply dst v

end Cert.KernelIdeal.KerLayer

end
-- ==== Proof.RefBridge.lean ====
/-
  A layer of the reference, read at an entry, is the layer over the reals: with every entry of the feature matrix, the
  weights and the bias a real number and the guarded in-degree a nonzero real,
      Σ_k x[v,k]·Ws[k,j] + Σ_k (Σ_{e into v} x[src e,k] / d[v])·Wn[k,j] + b[j]
  is the coercion of the same expression over the reals.
-/
import proofs.«411817_j9139690406075_3_alg».proof.Proof.RefLayer
import proofs.«411817_j9139690406075_3_alg».proof.Proof.SageReal

noncomputable section

namespace Cert.ReferenceIdeal.RefBridge

open Cert.ReferenceIdeal Cert.ReferenceIdeal.Gen Idealize.ShloMosaic Idealize.ShloMosaic.ValueIdx

theorem mean_entry (x : FVec Ideal S50000x128 .f32) (src dst : IVec S800000 32) (hsrc : Sage.InRange src)
    (X : Fin 50000 → Fin 128 → ℝ) (d : Fin 50000 → ℝ)
    (hX : ∀ (u : Fin 50000) (k : Fin 128), x (ix2 u k) = ((X u k : ℝ) : EReal))
    (hdeg : ∀ u : Fin 50000, RefLayer.deg dst (ix1 u) = ((d u : ℝ) : EReal)) (v : Fin 50000) (k : Fin 128) :
    RefLayer.mean x src dst (ix2 v k)
      = Ideal.div (0 + ∑ e ∈ Sage.into dst v.val, ((X (Sage.srcRow src hsrc e) k : ℝ) : EReal)) ((d v : ℝ) : EReal) := by
  rw [RefLayer.mean_apply x src dst hsrc, hdeg]
  exact congrArg (fun s => Ideal.div ((0 : EReal) + s) ((d v : ℝ) : EReal)) (Finset.sum_congr rfl fun e _ => hX _ _)

theorem layer128_entry (x : FVec Ideal S50000x128 .f32) (src dst : IVec S800000 32) (hsrc : Sage.InRange src)
    (ws wn : FVec Ideal S128x128 .f32) (b : FVec Ideal S128 .f32)
    (X : Fin 50000 → Fin 128 → ℝ) (Ws Wn : Fin 128 → Fin 128 → ℝ) (B : Fin 128 → ℝ) (d : Fin 50000 → ℝ) (hd : ∀ u, d u ≠ 0)
    (hX : ∀ (u : Fin 50000) (k : Fin 128), x (ix2 u k) = ((X u k : ℝ) : EReal))
    (hws : ∀ k j : Fin 128, ws (ix2 k j) = ((Ws k j : ℝ) : EReal)) (hwn : ∀ k j : Fin 128, wn (ix2 k j) = ((Wn k j : ℝ) : EReal))
    (hb : ∀ j : Fin 128, b (ix1 j) = ((B j : ℝ) : EReal))
    (hdeg : ∀ u : Fin 50000, RefLayer.deg dst (ix1 u) = ((d u : ℝ) : EReal)) (v : Fin 50000) (j : Fin 128) :
    RefLayer.layer128 x src dst ws wn b (ix2 v j) = ((Sage.layerR X Ws Wn B d src dst hsrc v j : ℝ) : EReal) := by
  rw [RefLayer.layer128_apply]
  simp only [mean_entry x src dst hsrc X d hX hdeg, hX, hws, hwn, hb]
  exact SageAlg.divide_then_map X (fun k => Ws k j) (fun k => Wn k j) (B j) (d v) (hd v) (Sage.into dst v.val) (Sage.srcRow src hsrc) v

theorem layer64_entry (x : FVec Ideal S50000x128 .f32) (src dst : IVec S800000 32) (hsrc : Sage.InRange src)
    (ws wn : FVec Ideal S128x64 .f32) (b : FVec Ideal S64 .f32)
    (X : Fin 50000 → Fin 128 → ℝ) (Ws Wn : Fin 128 → Fin 64 → ℝ) (B : Fin 64 → ℝ) (d : Fin 50000 → ℝ) (hd : ∀ u, d u ≠ 0)
    (hX : ∀ (u : Fin 50000) (k : Fin 128), x (ix2 u k) = ((X u k : ℝ) : EReal))
    (hws : ∀ (k : Fin 128) (j : Fin 64), ws (ix2 k j) = ((Ws k j : ℝ) : EReal))
    (hwn : ∀ (k : Fin 128) (j : Fin 64), wn (ix2 k j) = ((Wn k j : ℝ) : EReal))
    (hb : ∀ j : Fin 64, b (ix1 j) = ((B j : ℝ) : EReal))
    (hdeg : ∀ u : Fin 50000, RefLayer.deg dst (ix1 u) = ((d u : ℝ) : EReal)) (v : Fin 50000) (j : Fin 64) :
    RefLayer.layer64 x src dst ws wn b (ix2 v j) = ((Sage.layerR X Ws Wn B d src dst hsrc v j : ℝ) : EReal) := by
  rw [RefLayer.layer64_apply]
  simp only [mean_entry x src dst hsrc X d hX hdeg, hX, hws, hwn, hb]
  exact SageAlg.divide_then_map X (fun k => Ws k j) (fun k => Wn k j) (B j) (d v) (hd v) (Sage.into dst v.val) (Sage.srcRow src hsrc) v

/-- The positive part of a matrix of reals. -/
theorem relu_entry (y : FVec Ideal S50000x128 .f32) (Y : Fin 50000 → Fin 128 → ℝ)
    (hY : ∀ (u : Fin 50000) (k : Fin 128), y (ix2 u k) = ((Y u k : ℝ) : EReal)) (v : Fin 50000) (k : Fin 128) :
    RefLayer.relu y (ix2 v k) = ((Sage.reluR Y v k : ℝ) : EReal) := by
  rw [RefLayer.relu_apply, hY]
  exact SageAlg.relu_coe _

end Cert.ReferenceIdeal.RefBridge

end
-- ==== Proof.RefReal.lean ====
/-
  The reference program's three results are the network over the reals: each layer of the reference, applied to a
  matrix of real numbers with real weights, bias and nonzero in-degrees, is the coercion of the real layer.
-/
import proofs.«411817_j9139690406075_3_alg».proof.Proof.RefValue
import proofs.«411817_j9139690406075_3_alg».proof.Proof.RefBridge
import proofs.«411817_j9139690406075_3_alg».proof.Proof.SageNet

noncomputable section

namespace Cert.ReferenceIdeal.RefReal

open Cert.ReferenceIdeal Cert.ReferenceIdeal.Gen Idealize.ShloMosaic Idealize.ShloMosaic.TcCoe Idealize.ShloMosaic.ValueIdx Idealize.SL.Sem

variable (m : (ℓ : Loc nD τ sig) → Buf (Elt Ideal) ℓ) (c : Dev nD)
variable (N : Sage.Net)
variable (hfit : N.Fits (m ((c.tc : Thread nD τ).loc main_arg0)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7))
  (m ((c.tc : Thread nD τ).loc main_arg8)) (m ((c.tc : Thread nD τ).loc main_arg9)) (m ((c.tc : Thread nD τ).loc main_arg10))
  (m ((c.tc : Thread nD τ).loc main_arg11)))
variable (hsrc : Sage.InRange (m ((c.tc : Thread nD τ).loc main_arg1)))
variable (hdeg : ∀ v : Fin 50000, RefLayer.deg (m ((c.tc : Thread nD τ).loc main_arg2)) (ix1 v) = ((N.d v : ℝ) : EReal))

include hfit hsrc hdeg

theorem hid0 (v : Fin 50000) (k : Fin 128) :
    RefValue.hid0 m c (ix2 v k)
      = ((N.X1 (m ((c.tc : Thread nD τ).loc main_arg1)) (m ((c.tc : Thread nD τ).loc main_arg2)) hsrc v k : ℝ) : EReal) := by
  unfold RefValue.hid0
  exact RefBridge.relu_entry _ _ (fun u k' => RefBridge.layer128_entry _ _ _ hsrc _ _ _ N.X0 N.Ws0 N.Wn0 N.B0 N.d N.hd
    hfit.x0 hfit.ws0 hfit.wn0 hfit.b0 hdeg u k') v k

theorem hid1 (v : Fin 50000) (k : Fin 128) :
    RefValue.hid1 m c (ix2 v k)
      = ((N.X2 (m ((c.tc : Thread nD τ).loc main_arg1)) (m ((c.tc : Thread nD τ).loc main_arg2)) hsrc v k : ℝ) : EReal) := by
  unfold RefValue.hid1
  exact RefBridge.relu_entry _ _ (fun u k' => RefBridge.layer128_entry _ _ _ hsrc _ _ _ (N.X1 _ _ hsrc) N.Ws1 N.Wn1 N.B1 N.d N.hd
    (hid0 m c N hfit hsrc hdeg) hfit.ws1 hfit.wn1 hfit.b1 hdeg u k') v k

theorem outp (v : Fin 50000) (j : Fin 64) :
    RefValue.outp m c (ix2 v j)
      = ((N.Y (m ((c.tc : Thread nD τ).loc main_arg1)) (m ((c.tc : Thread nD τ).loc main_arg2)) hsrc v j : ℝ) : EReal) := by
  unfold RefValue.outp
  exact RefBridge.layer64_entry _ _ _ hsrc _ _ _ (N.X2 _ _ hsrc) N.Ws2 N.Wn2 N.B2 N.d N.hd
    (hid1 m c N hfit hsrc hdeg) hfit.ws2 hfit.wn2 hfit.b2 hdeg v j

end Cert.ReferenceIdeal.RefReal

end
-- ==== Proof.PreFacts.lean ====
/-
  What the precondition says of the inputs: every entry of every floating-point input is a real number, and every
  source id is one of the 50000 node numbers.

  The precondition is the conjunction, over the ten floating-point inputs, of "every |entry| is below +∞", together with
  "every source id is ≥ 0" and "every source id is < 50000"; each conjunct is an all-reduction of an elementwise
  comparison, so the conjunction being true gives each comparison at every element.
-/
import proofs.«411817_j9139690406075_3_alg».proof.Pre_finite_inputs
import proofs.«411817_j9139690406075_3_alg».proof.Proof.Gen.Pre_finite_inputs
import proofs.«411817_j9139690406075_3_alg».proof.Proof.SageSpec
import Idealize.ShloMosaic.Lib.ReduceAll
import Idealize.ShloMosaic.Lib.StableHlo.Predicate
import Idealize.ShloMosaic.Lib.ValueIdx
import Idealize.ShloMosaic.PureOps.Ideal.Laws

noncomputable section

namespace Cert.PreFacts

open Cert.Pre_finite_inputs Cert.Pre_finite_inputs.Gen Idealize.ShloMosaic Idealize.ShloMosaic.ValueIdx

/-- The scalar shape has exactly one index. -/
local instance : Subsingleton S_.Idx := ⟨fun a b => funext fun d => d.elim0⟩

/-- The 32-bit pattern with all exponent bits set and a zero mantissa denotes +∞. -/
theorem inf_bits : Ideal.ofBits .f32 0x7F800000#32 = (⊤ : EReal) := by simp [Ideal.ofBits, Ideal.ieee]

/-- An extended real whose absolute value max(x, −x) lies below +∞ is a real number: for x = −∞ and for x = +∞ that
    maximum is +∞ itself. -/
theorem real_of_abs_lt_top (x : EReal) (h : max x (-x) < ⊤) : ∃ r : ℝ, x = (r : EReal) := by
  induction x using EReal.rec with
  | bot => simp at h
  | coe r => exact ⟨r, rfl⟩
  | top => simp at h

/-- Where the comparison "|entry| < +∞" holds at an index of an array, the entry there is a real number. -/
theorem real_of_cmp {s : Shape} (a : FVec Ideal s .f32) (hb : S_.BroadcastsInDim s (![] : Fin 0 → Fin s.rank)) (i : s.Idx)
    (e : cmpf .olt (Host.absf a) (broadcastInDim s ![] hb (constant S_ .f32 0x7F800000#32)) i = 1#1) :
    ∃ r : ℝ, a i = (r : EReal) := by
  have e' : Ideal.cmp .olt (max (a i) (-(a i))) (Ideal.ofBits .f32 0x7F800000#32) = 1#1 := e
  rw [inf_bits] at e'
  simp only [Ideal.cmp, StableHlo.Predicate.ofBool_eq_one_iff, decide_eq_true_eq] at e'
  exact real_of_abs_lt_top _ e'

/-- If the conjunction over all indices of "|entry| < +∞" is true, every entry of the array is a real number. -/
theorem finite_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
          (constantI S_ 1 1#1) hr hu ix0 = 1#1) : Sage.Finite a :=
  fun i => real_of_cmp a hb i (Host.reduce_andi_all _ _ hr hu ix0 e i)

/-- If the conjunction over all edges of "id ≥ 0" (signed) is true, every id reads as a nonnegative integer. -/
theorem ge_of_all (a : IVec S800000 32) (hb : S_.BroadcastsInDim S800000 (![] : Fin 0 → Fin S800000.rank))
    {axes : List (Fin S800000.rank)} (hr : S800000.ReducesTo axes S_) (hu : 0 < S_.numel)
    (e : Host.reduce IntOp.andi (cmpi .sge a (broadcastInDim S800000 ![] hb (constantI S_ 32 0#32)))
          (constantI S_ 1 1#1) hr hu ix0 = 1#1) (i : S800000.Idx) : 0 ≤ (a i).toInt := by
  have e1 : IntOp.cmpi .sge (a i) 0#32 = 1#1 := Host.reduce_andi_all _ _ hr hu ix0 e i
  have := IntOp.cmpi_sge.1 e1
  simpa using this

/-- If the conjunction over all edges of "id < 50000" (signed) is true, every id reads as an integer below 50000. -/
theorem lt_of_all (a : IVec S800000 32) (hb : S_.BroadcastsInDim S800000 (![] : Fin 0 → Fin S800000.rank))
    {axes : List (Fin S800000.rank)} (hr : S800000.ReducesTo axes S_) (hu : 0 < S_.numel)
    (e : Host.reduce IntOp.andi (cmpi .slt a (broadcastInDim S800000 ![] hb (constantI S_ 32 50000#32)))
          (constantI S_ 1 1#1) hr hu ix0 = 1#1) (i : S800000.Idx) : (a i).toInt < 50000 := by
  have e1 : IntOp.cmpi .slt (a i) 50000#32 = 1#1 := Host.reduce_andi_all _ _ hr hu ix0 e i
  have := IntOp.cmpi_slt.1 e1
  rwa [show (50000#32 : BitVec 32).toInt = 50000 from by decide] at this

/-- The conjunction of two 1-bit scalars being 1 gives each of them being 1. -/
theorem andi_ix0 {x y : IVec S_ 1} (h : andi x y ix0 = 1#1) : x ix0 = 1#1 ∧ y ix0 = 1#1 := IntOp.andi_eq_one.1 h

theorem of_pre (a0 : FVec Ideal S50000x128 .f32) (a1 a2 : IVec S800000 32) (a3 a4 : FVec Ideal S128x128 .f32)
    (a5 : FVec Ideal S128 .f32) (a6 a7 : FVec Ideal S128x128 .f32) (a8 : FVec Ideal S128 .f32)
    (a9 a10 : FVec Ideal S128x64 .f32) (a11 : FVec Ideal S64 .f32)
    (h : fn (F := Ideal) a0 a1 a2 a3 a4 a5 a6 a7 a8 a9 a10 a11 = fun _ => 1#1) :
    Sage.Finite a0 ∧ Sage.Finite a3 ∧ Sage.Finite a4 ∧ Sage.Finite a5 ∧ Sage.Finite a6 ∧ Sage.Finite a7
      ∧ Sage.Finite a8 ∧ Sage.Finite a9 ∧ Sage.Finite a10 ∧ Sage.Finite a11 ∧ Sage.InRange a1 := by
  -- the precondition is a left-nested conjunction of twelve all-reductions; read it at the one scalar index and
  -- take the conjuncts off from the outside in: the two range tests on the source ids first, then the ten
  -- "|entry| < +∞" tests from the last float input back to the first
  have h0 := congrFun h ValueIdx.ix0
  dsimp only [fn, fn_part1, fn_part2, fn_part3] at h0
  obtain ⟨h0, e55⟩ := andi_ix0 h0
  obtain ⟨h0, e51⟩ := andi_ix0 h0
  obtain ⟨h0, e47⟩ := andi_ix0 h0
  obtain ⟨h0, e42⟩ := andi_ix0 h0
  obtain ⟨h0, e37⟩ := andi_ix0 h0
  obtain ⟨h0, e32⟩ := andi_ix0 h0
  obtain ⟨h0, e27⟩ := andi_ix0 h0
  obtain ⟨h0, e22⟩ := andi_ix0 h0
  obtain ⟨h0, e17⟩ := andi_ix0 h0
  obtain ⟨h0, e12⟩ := andi_ix0 h0
  obtain ⟨e3, e7⟩ := andi_ix0 h0
  exact ⟨finite_of_all a0 _ _ _ e3, finite_of_all a3 _ _ _ e7, finite_of_all a4 _ _ _ e12, finite_of_all a5 _ _ _ e17,
    finite_of_all a6 _ _ _ e22, finite_of_all a7 _ _ _ e27, finite_of_all a8 _ _ _ e32, finite_of_all a9 _ _ _ e37,
    finite_of_all a10 _ _ _ e42, finite_of_all a11 _ _ _ e47,
    fun e => ⟨ge_of_all a1 _ _ _ e51 e, lt_of_all a1 _ _ _ e55 e⟩⟩

end Cert.PreFacts

end
-- ==== Proof.Agree.lean ====
/-
  The two programs' results agree.

  Under the precondition every floating-point input is a matrix of real numbers and every source id is a node number;
  the guarded in-degrees are real numbers, at least one. So the inputs are the data of a network over the reals, and both
  the kernel program's three results and the reference program's three results are the coercions of that network's three
  matrices: they are equal. (The two programs compute the in-degrees by the same term, and the kernel's reciprocal
  column holds their reciprocals.)
-/
import proofs.«411817_j9139690406075_3_alg».proof.Defs
import proofs.«411817_j9139690406075_3_alg».proof.Proof.KerValue
import proofs.«411817_j9139690406075_3_alg».proof.Proof.KerDinv
import proofs.«411817_j9139690406075_3_alg».proof.Proof.RefReal
import proofs.«411817_j9139690406075_3_alg».proof.Proof.PreFacts
import proofs.«411817_j9139690406075_3_alg».proof.Proof.SageNet

set_option maxRecDepth 16384

noncomputable section

namespace Cert.Agree

open Idealize.ShloMosaic Idealize.ShloMosaic.TcCoe Idealize.ShloMosaic.ValueIdx Idealize.SL.Sem

/-- The two programs compute the guarded in-degrees by one and the same term. -/
theorem deg_eq (dst : IVec Cert.KernelIdeal.S800000 32) :
    Cert.KernelIdeal.KerLayer.deg dst = Cert.ReferenceIdeal.RefLayer.deg dst := rfl

/-- The network's matrices depend on the edge arrays only through their values. -/
theorem net_congr (N : Sage.Net) (s s' d d' : Sage.SE.Idx → BitVec 32) (hs : s' = s) (hd : d' = d) (h : Sage.InRange s) (h' : Sage.InRange s') :
    N.X1 s' d' h' = N.X1 s d h ∧ N.X2 s' d' h' = N.X2 s d h ∧ N.Y s' d' h' = N.Y s d h := by
  subst hs; subst hd; exact ⟨rfl, rfl, rfl⟩

theorem results (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.RefValue.outp m' c = Cert.KernelIdeal.Gen.W21 m ρ c (Proc.devRef .tc Cert.KernelIdeal.main_v66)
    ∧ Cert.ReferenceIdeal.RefValue.hid0 m' c = Cert.KernelIdeal.Gen.W21 m ρ c (Proc.devRef .tc Cert.KernelIdeal.main_v64)
    ∧ Cert.ReferenceIdeal.RefValue.hid1 m' c = Cert.KernelIdeal.Gen.W21 m ρ c (Proc.devRef .tc Cert.KernelIdeal.main_v65) := by
  obtain ⟨f0, f3, f4, f5, f6, f7, f8, f9, f10, f11, hsrc⟩ := Cert.PreFacts.of_pre _ _ _ _ _ _ _ _ _ _ _ _ (hpre c)
  obtain ⟨N, hfit, hdeg⟩ := Sage.exists_net _ _ _ _ _ _ _ _ _ _ f0 f3 f4 f5 f6 f7 f8 f9 f10 f11
    (Cert.ReferenceIdeal.RefLayer.deg (m ((c.tc : Thread Cert.KernelIdeal.nD Cert.KernelIdeal.τ).loc Cert.KernelIdeal.main_arg2)))
    (fun v => Cert.ReferenceIdeal.RefLayer.deg_real _ v)
  have hfit' : N.Fits (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11)) := by
    rw [e0, e3, e4, e5, e6, e7, e8, e9, e10, e11]; exact hfit
  have hsrc' : Sage.InRange (m' ((c.tc : Thread Cert.ReferenceIdeal.nD Cert.ReferenceIdeal.τ).loc Cert.ReferenceIdeal.main_arg1)) := by
    rw [e1]; exact hsrc
  have hdeg' : ∀ v : Fin 50000, Cert.ReferenceIdeal.RefLayer.deg (m' ((c.tc : Thread Cert.ReferenceIdeal.nD Cert.ReferenceIdeal.τ).loc Cert.ReferenceIdeal.main_arg2)) (ix1 v) = ((N.d v : ℝ) : EReal) := by
    rw [e2]; exact hdeg
  have hdinv : ∀ v : Fin 50000, Cert.KernelIdeal.KerLayer.dinv (m ((c.tc : Thread Cert.KernelIdeal.nD Cert.KernelIdeal.τ).loc Cert.KernelIdeal.main_arg2)) (ix2 (Sage.castP v) (0 : Fin 1))
      = Ideal.div 1 ((N.d v : ℝ) : EReal) := fun v => by
    rw [Cert.KernelIdeal.KerLayer.dinv_apply, deg_eq, hdeg]
  obtain ⟨n1, n2, n3⟩ := net_congr N _ _ _ _ e1 e2 hsrc hsrc'
  refine ⟨funext fun i => ?_, funext fun i => ?_, funext fun i => ?_⟩
  · obtain ⟨v, j, rfl⟩ : ∃ (v : Fin 50000) (j : Fin 64), i = ix2 v j := ⟨i 0, i 1, eq_ix2 i⟩
    rw [Cert.ReferenceIdeal.RefReal.outp m' c N hfit' hsrc' hdeg' v j, Cert.KernelIdeal.KerValue.res2 m ρ c N hfit hsrc hdinv v j, n3]
  · obtain ⟨v, j, rfl⟩ : ∃ (v : Fin 50000) (j : Fin 128), i = ix2 v j := ⟨i 0, i 1, eq_ix2 i⟩
    rw [Cert.ReferenceIdeal.RefReal.hid0 m' c N hfit' hsrc' hdeg' v j, Cert.KernelIdeal.KerValue.res0 m ρ c N hfit hsrc hdinv v j, n1]
  · obtain ⟨v, j, rfl⟩ : ∃ (v : Fin 50000) (j : Fin 128), i = ix2 v j := ⟨i 0, i 1, eq_ix2 i⟩
    rw [Cert.ReferenceIdeal.RefReal.hid1 m' c N hfit' hsrc' hdeg' v j, Cert.KernelIdeal.KerValue.res1 m ρ c N hfit hsrc hdinv v j, n2]

end Cert.Agree

end
-- ==== Proof.lean ====
/-
  Three stacked mean-aggregation layers on a graph of 50000 nodes and 800000 edges: the kernel program against its
  reference, on the extended reals.

  Per layer, with x the layer's input, d[v] = max(#edges into v, 1) and A[v] the sum of x[src e] over the edges e into v,
  the reference computes  x·Ws + (A / d)·Wn + b  and the kernel program  (Σ_{e into v} (x·Wn)[src e]) · (1/d[v]) + x·Ws + b,
  working on arrays padded from 50000 to 51200 rows (and, in the last layer, from 64 to 128 columns) of which only the
  rows of the nodes and the true columns are returned. The two agree because a linear map commutes with the finite sum
  over the edges and with the scaling by 1/d[v] — a law of the reals, which holds on the extended reals once every
  entry involved is a real number: the inputs are by the precondition, the in-degrees are counts, and each layer maps
  real matrices to real matrices. The precondition also asks every source id to be one of the 50000 node numbers: the
  reference indexes its 50000-row matrices by them, the kernel its 51200-row ones, and outside that range the two
  would read different rows.

  The frames of the two kernel programs are the generated ones; the reference's frame is its run with the results
  dropped; the ideal pass rewrote nothing, so there is nothing to preserve.
-/
import proofs.«411817_j9139690406075_3_alg».proof.Defs
import proofs.«411817_j9139690406075_3_alg».proof.Proof.Gen.Kernel
import proofs.«411817_j9139690406075_3_alg».proof.Proof.Gen.Kernel.Frame
import proofs.«411817_j9139690406075_3_alg».proof.Proof.Gen.KernelIdeal
import proofs.«411817_j9139690406075_3_alg».proof.Proof.Gen.KernelIdeal.Frame
import proofs.«411817_j9139690406075_3_alg».proof.Proof.Gen.ReferenceIdeal
import proofs.«411817_j9139690406075_3_alg».proof.Proof.Gen.Pre_finite_inputs
import proofs.«411817_j9139690406075_3_alg».proof.Proof.KernelRun
import proofs.«411817_j9139690406075_3_alg».proof.Proof.RefValue
import proofs.«411817_j9139690406075_3_alg».proof.Proof.Agree
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, with its results dropped. -/
theorem frame_ri : Cert.frame_ReferenceIdeal := fun m ρ _ =>
  (θ_run Cert.ReferenceIdeal.defs _ _).mono (fun _ h c => (h c).2.2.2) (Cert.ReferenceIdeal.RefValue.run m ρ)

theorem preserves : Cert.preserves_Kernel_KernelIdeal := trivial

/-- Both programs run, and each result of the reference is the corresponding result of the kernel program: the results
    are named at what the kernel program's last segment boundary holds. -/
theorem algebraic : Cert.algebraic_KernelIdeal_ReferenceIdeal := by
  intro m ρ m' ρ' hpre hagree
  have key := fun c : Dev Cert.KernelIdeal.nD =>
    Cert.Agree.results m ρ m' hpre c (hagree c).1 (hagree c).2.1 (hagree c).2.2.1 (hagree c).2.2.2.1 (hagree c).2.2.2.2.1
      (hagree c).2.2.2.2.2.1 (hagree c).2.2.2.2.2.2.1 (hagree c).2.2.2.2.2.2.2.1 (hagree c).2.2.2.2.2.2.2.2.1
      (hagree c).2.2.2.2.2.2.2.2.2.1 (hagree c).2.2.2.2.2.2.2.2.2.2.1 (hagree c).2.2.2.2.2.2.2.2.2.2.2
  refine ⟨fun c => Cert.KernelIdeal.Gen.W21 m ρ c (Proc.devRef .tc Cert.KernelIdeal.main_v66),
    fun c => Cert.KernelIdeal.Gen.W21 m ρ c (Proc.devRef .tc Cert.KernelIdeal.main_v64),
    fun c => Cert.KernelIdeal.Gen.W21 m ρ c (Proc.devRef .tc Cert.KernelIdeal.main_v65),
    fun c => Cert.KernelIdeal.Gen.W21 m ρ c (Proc.devRef .tc Cert.KernelIdeal.main_v66),
    fun c => Cert.KernelIdeal.Gen.W21 m ρ c (Proc.devRef .tc Cert.KernelIdeal.main_v65), ?_, ?_⟩
  · exact (θ_run Cert.KernelIdeal.defs _ _).mono
      (fun r h c => ⟨(h c).2.2.1, (h c).1, (h c).2.1, (h c).2.2.1, (h c).2.1, (h c).2.2.2⟩)
      (Cert.KernelIdeal.Results.run_results m ρ)
  · exact (θ_run Cert.ReferenceIdeal.defs _ _).mono
      (fun r h c => ⟨(h c).1.trans (key c).1, (h c).2.1.trans (key c).2.1, (h c).2.2.1.trans (key c).2.2,
        (h c).1.trans (key c).1, (h c).2.2.1.trans (key c).2.2, (h c).2.2.2⟩)
      (Cert.ReferenceIdeal.RefValue.run m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
